-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v95)) (v1 : (c : Dev Cert.KernelIdeal.nD) → Buf (Elt Ideal) ((c.tc : Thread Cert.KernelIdeal.nD Cert.KernelIdeal.τ).loc Cert.KernelIdeal.main_v109)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_v109) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_v158) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part4 {F : FTy → Type} [FloatOps F] (main_arg16 : FVec F S64 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  main_v73

def fn_part3 {F : FTy → Type} [FloatOps F] (main_arg13 : FVec F S64 .f32) (main_arg14 : FVec F S64 .f32) (main_arg15 : FVec F S64x64 .f32) (main_arg16 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg15
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg16 main_v63 main_v67

def fn_part2 {F : FTy → Type} [FloatOps F] (main_arg9 : FVec F S64 .f32) (main_arg10 : FVec F S64 .f32) (main_arg11 : FVec F S64x64 .f32) (main_arg12 : FVec F S64 .f32) (main_arg13 : FVec F S64 .f32) (main_arg14 : FVec F S64 .f32) (main_arg15 : FVec F S64x64 .f32) (main_arg16 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_v48 main_v49 main_v50

def fn_part1 {F : FTy → Type} [FloatOps F] (main_arg6 : FVec F S64 .f32) (main_arg7 : FVec F S64x64 .f32) (main_arg8 : FVec F S64 .f32) (main_arg9 : FVec F S64 .f32) (main_arg10 : FVec F S64 .f32) (main_arg11 : FVec F S64x64 .f32) (main_arg12 : FVec F S64 .f32) (main_arg13 : FVec F S64 .f32) (main_arg14 : FVec F S64 .f32) (main_arg15 : FVec F S64x64 .f32) (main_arg16 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S100000x128 .f32) (main_arg1 : IVec S2x3200000 32) (main_arg2 : IVec S100000 32) (main_arg3 : FVec F S128x64 .f32) (main_arg4 : FVec F S64 .f32) (main_arg5 : FVec F S64 .f32) (main_arg6 : FVec F S64 .f32) (main_arg7 : FVec F S64x64 .f32) (main_arg8 : FVec F S64 .f32) (main_arg9 : FVec F S64 .f32) (main_arg10 : FVec F S64 .f32) (main_arg11 : FVec F S64x64 .f32) (main_arg12 : FVec F S64 .f32) (main_arg13 : FVec F S64 .f32) (main_arg14 : FVec F S64 .f32) (main_arg15 : FVec F S64x64 .f32) (main_arg16 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S100000x128 : Shape := ⟨2, ![100000, 128]⟩
abbrev S2x3200000 : Shape := ⟨2, ![2, 3200000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S5000x128 : Shape := ⟨2, ![5000, 128]⟩
abbrev S5000x64 : Shape := ⟨2, ![5000, 64]⟩
abbrev S3300000x64 : Shape := ⟨2, ![3300000, 64]⟩
abbrev S1x64 : Shape := ⟨2, ![1, 64]⟩
abbrev S2000x64 : Shape := ⟨2, ![2000, 64]⟩
abbrev S2000 : Shape := ⟨1, ![2000]⟩
abbrev S2000x1 : Shape := ⟨2, ![2000, 1]⟩
abbrev S100000x1 : Shape := ⟨2, ![100000, 1]⟩
abbrev S256x64 : Shape := ⟨2, ![256, 64]⟩
abbrev S256x1 : Shape := ⟨2, ![256, 1]⟩
abbrev S5000x1 : Shape := ⟨2, ![5000, 1]⟩
abbrev S5000x256 : Shape := ⟨2, ![5000, 256]⟩
abbrev S256 : Shape := ⟨1, ![256]⟩

abbrev nBuf : Space → Nat
  | .hbm => 154
  | .vmem => 34
  | .smem => 0
  | _ => 0

abbrev hbmTy0_0 (i : Nat) : BufTy := match i % 128 with
  | 0 => ⟨S100000x128, .f32⟩
  | 1 => ⟨S2x3200000, .i32⟩
  | 2 => ⟨S100000, .i32⟩
  | 3 => ⟨S128x64, .f32⟩
  | 4 => ⟨S64, .f32⟩
  | 5 => ⟨S64, .f32⟩
  | 6 => ⟨S64, .f32⟩
  | 7 => ⟨S64x64, .f32⟩
  | 8 => ⟨S64, .f32⟩
  | 9 => ⟨S64, .f32⟩
  | 10 => ⟨S64, .f32⟩
  | 11 => ⟨S64x64, .f32⟩
  | 12 => ⟨S64, .f32⟩
  | 13 => ⟨S64, .f32⟩
  | 14 => ⟨S64, .f32⟩
  | 15 => ⟨S64x64, .f32⟩
  | 16 => ⟨S64, .f32⟩
  | 17 => ⟨S1x3200000, .i32⟩
  | 18 => ⟨S3200000, .i32⟩
  | 19 => ⟨S1x3200000, .i32⟩
  | 20 => ⟨S3200000, .i32⟩
  | 21 => ⟨S100000, .i32⟩
  | 22 => ⟨S3300000, .i32⟩
  | 23 => ⟨S3300000, .i32⟩
  | 24 => ⟨S_, .f32⟩
  | 25 => ⟨S3300000, .f32⟩
  | 26 => ⟨S_, .f32⟩
  | 27 => ⟨S100000, .f32⟩
  | 28 => ⟨S3300000x1, .i32⟩
  | 29 => ⟨S100000, .f32⟩
  | 30 => ⟨S_, .f32⟩
  | 31 => ⟨S100000, .f32⟩
  | 32 => ⟨S100000, .i1⟩
  | 33 => ⟨S100000, .f32⟩
  | 34 => ⟨S_, .f32⟩
  | 35 => ⟨S_, .f32⟩
  | 36 => ⟨S100000, .f32⟩
  | 37 => ⟨S100000, .f32⟩
  | 38 => ⟨S100000x64, .f32⟩
  | 39 => ⟨S_, .i32⟩
  | 40 => ⟨S3300000, .i32⟩
  | 41 => ⟨S3300000, .i1⟩
  | 42 => ⟨S_, .i32⟩
  | 43 => ⟨S3300000, .i32⟩
  | 44 => ⟨S3300000, .i32⟩
  | 45 => ⟨S3300000, .i32⟩
  | 46 => ⟨S3300000x1, .i32⟩
  | 47 => ⟨S3300000x64, .f32⟩
  | 48 => ⟨S_, .i32⟩
  | 49 => ⟨S3300000, .i32⟩
  | 50 => ⟨S3300000, .i1⟩
  | 51 => ⟨S_, .i32⟩
  | 52 => ⟨S3300000, .i32⟩
  | 53 => ⟨S3300000, .i32⟩
  | 54 => ⟨S3300000, .i32⟩
  | 55 => ⟨S3300000x1, .i32⟩
  | 56 => ⟨S3300000, .f32⟩
  | 57 => ⟨S_, .i32⟩
  | 58 => ⟨S3300000, .i32⟩
  | 59 => ⟨S3300000, .i1⟩
  | 60 => ⟨S_, .i32⟩
  | 61 => ⟨S3300000, .i32⟩
  | 62 => ⟨S3300000, .i32⟩
  | 63 => ⟨S3300000, .i32⟩
  | 64 => ⟨S3300000x1, .i32⟩
  | 65 => ⟨S3300000, .f32⟩
  | 66 => ⟨S3300000, .f32⟩
  | 67 => ⟨S3300000x1, .f32⟩
  | 68 => ⟨S3300000x64, .f32⟩
  | 69 => ⟨S3300000x64, .f32⟩
  | 70 => ⟨S_, .f32⟩
  | 71 => ⟨S100000x64, .f32⟩
  | 72 => ⟨S3300000x1, .i32⟩
  | 73 => ⟨S100000x64, .f32⟩
  | 74 => ⟨S_, .f32⟩
  | 75 => ⟨S_, .f32⟩
  | 76 => ⟨S_, .f32⟩
  | 77 => ⟨S64, .f32⟩
  | 78 => ⟨S64, .f32⟩
  | 79 => ⟨S1x64, .f32⟩
  | 80 => ⟨S1x64, .f32⟩
  | 81 => ⟨S1x64, .f32⟩
  | 82 => ⟨S100000x64, .f32⟩
  | 83 => ⟨S_, .i32⟩
  | 84 => ⟨S3300000, .i32⟩
  | 85 => ⟨S3300000, .i1⟩
  | 86 => ⟨S_, .i32⟩
  | 87 => ⟨S3300000, .i32⟩
  | 88 => ⟨S3300000, .i32⟩
  | 89 => ⟨S3300000, .i32⟩
  | 90 => ⟨S3300000x1, .i32⟩
  | 91 => ⟨S3300000x64, .f32⟩
  | 92 => ⟨S_, .i32⟩
  | 93 => ⟨S3300000, .i32⟩
  | 94 => ⟨S3300000, .i1⟩
  | 95 => ⟨S_, .i32⟩
  | 96 => ⟨S3300000, .i32⟩
  | 97 => ⟨S3300000, .i32⟩
  | 98 => ⟨S3300000, .i32⟩
  | 99 => ⟨S3300000x1, .i32⟩
  | 100 => ⟨S3300000, .f32⟩
  | 101 => ⟨S_, .i32⟩
  | 102 => ⟨S3300000, .i32⟩
  | 103 => ⟨S3300000, .i1⟩
  | 104 => ⟨S_, .i32⟩
  | 105 => ⟨S3300000, .i32⟩
  | 106 => ⟨S3300000, .i32⟩
  | 107 => ⟨S3300000, .i32⟩
  | 108 => ⟨S3300000x1, .i32⟩
  | 109 => ⟨S3300000, .f32⟩
  | 110 => ⟨S3300000, .f32⟩
  | 111 => ⟨S3300000x1, .f32⟩
  | 112 => ⟨S3300000x64, .f32⟩
  | 113 => ⟨S3300000x64, .f32⟩
  | 114 => ⟨S_, .f32⟩
  | 115 => ⟨S100000x64, .f32⟩
  | 116 => ⟨S3300000x1, .i32⟩
  | 117 => ⟨S100000x64, .f32⟩
  | 118 => ⟨S_, .f32⟩
  | 119 => ⟨S_, .f32⟩
  | 120 => ⟨S_, .f32⟩
  | 121 => ⟨S64, .f32⟩
  | 122 => ⟨S64, .f32⟩
  | 123 => ⟨S_, .f32⟩
  | 124 => ⟨S_, .f32⟩
  | 125 => ⟨S_, .f32⟩
  | 126 => ⟨S64, .f32⟩
  | 127 => ⟨S64, .f32⟩
  | _ => ⟨S100000x128, .f32⟩

abbrev hbmTy0_1 (i : Nat) : BufTy := match i % 128 with
  | 0 => ⟨S1x64, .f32⟩
  | 1 => ⟨S1x64, .f32⟩
  | 2 => ⟨S1x64, .f32⟩
  | 3 => ⟨S1x64, .f32⟩
  | 4 => ⟨S1x64, .f32⟩
  | 5 => ⟨S1x64, .f32⟩
  | 6 => ⟨S1x64, .f32⟩
  | 7 => ⟨S100000x64, .f32⟩
  | 8 => ⟨S100000x1, .i32⟩
  | 9 => ⟨S256x64, .f32⟩
  | 10 => ⟨S256x1, .f32⟩
  | 11 => ⟨S_, .f32⟩
  | 12 => ⟨S256x1, .f32⟩
  | 13 => ⟨S256x1, .f32⟩
  | 14 => ⟨S256x64, .f32⟩
  | 15 => ⟨S256x64, .f32⟩
  | 16 => ⟨S256x64, .f32⟩
  | 17 => ⟨S_, .f32⟩
  | 18 => ⟨S256, .f32⟩
  | 19 => ⟨S256x1, .f32⟩
  | 20 => ⟨S256x1, .f32⟩
  | 21 => ⟨S_, .f32⟩
  | 22 => ⟨S256x1, .f32⟩
  | 23 => ⟨S256x1, .f32⟩
  | 24 => ⟨S256x64, .f32⟩
  | 25 => ⟨S256x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S64x64, .f32⟩
  | .local _ .vmem, ⟨11, _⟩ => ⟨S5000x64, .f32⟩
  | .local _ .vmem, ⟨12, _⟩ => ⟨S5000x64, .f32⟩
  | .local _ .vmem, ⟨13, _⟩ => ⟨S2000x64, .f32⟩
  | .local _ .vmem, ⟨14, _⟩ => ⟨S2000x64, .f32⟩
  | .local _ .vmem, ⟨15, _⟩ => ⟨S1x64, .f32⟩
  | .local _ .vmem, ⟨16, _⟩ => ⟨S1x64, .f32⟩
  | .local _ .vmem, ⟨17, _⟩ => ⟨S1x64, .f32⟩
  | .local _ .vmem, ⟨18, _⟩ => ⟨S64x64, .f32⟩
  | .local _ .vmem, ⟨19, _⟩ => ⟨S1x64, .f32⟩
  | .local _ .vmem, ⟨20, _⟩ => ⟨S1x64, .f32⟩
  | .local _ .vmem, ⟨21, _⟩ => ⟨S1x64, .f32⟩
  | .local _ .vmem, ⟨22, _⟩ => ⟨S64x64, .f32⟩
  | .local _ .vmem, ⟨23, _⟩ => ⟨S1x64, .f32⟩
  | .local _ .vmem, ⟨24, _⟩ => ⟨S2000x64, .f32⟩
  | .local _ .vmem, ⟨25, _⟩ => ⟨S2000x64, .f32⟩
  | .local _ .vmem, ⟨26, _⟩ => ⟨S5000x1, .i32⟩
  | .local _ .vmem, ⟨27, _⟩ => ⟨S5000x1, .i32⟩
  | .local _ .vmem, ⟨28, _⟩ => ⟨S5000x64, .f32⟩
  | .local _ .vmem, ⟨29, _⟩ => ⟨S5000x64, .f32⟩
  | .local _ .vmem, ⟨30, _⟩ => ⟨S256x64, .f32⟩
  | .local _ .vmem, ⟨31, _⟩ => ⟨S256x1, .f32⟩
  | .local _ .vmem, ⟨32, _⟩ => ⟨S256x64, .f32⟩
  | .local _ .vmem, ⟨33, _⟩ => ⟨S256x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_2 : Ref sig .tc := ⟨.hbm, 34, rfl⟩
abbrev main_call0_v0 : Ref sig .tc := ⟨.hbm, 35, rfl⟩
abbrev main_call0_v1 : Ref sig .tc := ⟨.hbm, 36, rfl⟩
abbrev main_v14 : Ref sig .tc := ⟨.hbm, 37, rfl⟩
abbrev main_v15 : Ref sig .tc := ⟨.hbm, 38, rfl⟩
abbrev main_c : Ref sig .tc := ⟨.hbm, 39, rfl⟩
abbrev main_v16 : Ref sig .tc := ⟨.hbm, 40, rfl⟩
abbrev main_v17 : Ref sig .tc := ⟨.hbm, 41, rfl⟩
abbrev main_c_3 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_c_4 : Ref sig .tc := ⟨.hbm, 48, rfl⟩
abbrev main_v23 : Ref sig .tc := ⟨.hbm, 49, rfl⟩
abbrev main_v24 : Ref sig .tc := ⟨.hbm, 50, rfl⟩
abbrev main_c_5 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_c_6 : Ref sig .tc := ⟨.hbm, 57, rfl⟩
abbrev main_v30 : Ref sig .tc := ⟨.hbm, 58, rfl⟩
abbrev main_v31 : Ref sig .tc := ⟨.hbm, 59, rfl⟩
abbrev main_c_7 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_8 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_9 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_c_10 : Ref sig .tc := ⟨.hbm, 83, rfl⟩
abbrev main_v52 : Ref sig .tc := ⟨.hbm, 84, rfl⟩
abbrev main_v53 : Ref sig .tc := ⟨.hbm, 85, rfl⟩
abbrev main_c_11 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_c_12 : Ref sig .tc := ⟨.hbm, 92, rfl⟩
abbrev main_v59 : Ref sig .tc := ⟨.hbm, 93, rfl⟩
abbrev main_v60 : Ref sig .tc := ⟨.hbm, 94, rfl⟩
abbrev main_c_13 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_c_14 : Ref sig .tc := ⟨.hbm, 101, rfl⟩
abbrev main_v66 : Ref sig .tc := ⟨.hbm, 102, rfl⟩
abbrev main_v67 : Ref sig .tc := ⟨.hbm, 103, rfl⟩
abbrev main_c_15 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_cst_16 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_cst_17 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_cst_18 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97_0 : Ref sig .tc := ⟨.hbm, 137, rfl⟩
abbrev main_v97_1 : Ref sig .tc := ⟨.hbm, 138, rfl⟩
abbrev main_cst_19 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_cst_20 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_cst_21 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg7_0 : Ref sig .tc := ⟨.vmem, 21, rfl⟩
abbrev cc2_stg8_0 : Ref sig .tc := ⟨.vmem, 22, rfl⟩
abbrev cc2_stg9_0 : Ref sig .tc := ⟨.vmem, 23, rfl⟩
abbrev cc2_stg10_0 : Ref sig .tc := ⟨.vmem, 24, rfl⟩
abbrev cc2_stg10_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_scratch0 : Ref sig .tc := ⟨.vmem, 32, rfl⟩
abbrev cc3_scratch1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem7_0 : DmaSem sig := 21
abbrev cc2_sem8_0 : DmaSem sig := 22
abbrev cc2_sem9_0 : DmaSem sig := 23
abbrev cc2_sem10_0 : DmaSem sig := 24
abbrev cc2_sem10_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S64x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S2000x64 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x1 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S_S64 : S_.BroadcastsInDim S64 (![] : Fin 0 → Fin S64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  broadcasts_S1x64_S2000x64 : S1x64.Broadcasts S2000x64
  reduces_S2000x64_S2000 : S2000x64.Reduces [1] S2000
  shapeCasts_S2000_S2000x1 : S2000.ShapeCasts S2000x1
  broadcasts_S2000x1_S2000x64 : S2000x1.Broadcasts S2000x64
  shapeCasts_S100000_S100000x1 : S100000.ShapeCasts S100000x1
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S256x1_S256x1_0_0 : ∀ a, (![0, 0] : Fin 2 → Nat) a + S256x1.size a ≤ S256x1.size a
  h_S256x1 : 0 < S256x1.numel
  shapeCasts_S256x1_S256x1 : S256x1.ShapeCasts S256x1
  iota_S5000x256_d1_w32 : S5000x256.Iotas .tc 32 [1]
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x256 : S5000x1.Broadcasts S5000x256
  natLt_1_32 : 1 < 32
  bcast_S_S256x1 : S_.BroadcastsInDim S256x1 (![] : Fin 0 → Fin S256x1.rank)
  bcast_S256x1_S256x64_0_1 : S256x1.BroadcastsInDim S256x64 (![0, 1] : Fin 2 → Fin S256x64.rank)
  reducesTo_S256x64_S256_d1 : S256x64.ReducesTo [1] S256
  h_S_ : 0 < S_.numel
  bcast_S256_S256x1_0 : S256.BroadcastsInDim S256x1 (![0] : Fin 1 → Fin S256x1.rank)
  scatter_S100000_S3300000x1_S3300000_n_0_0_1_wf : ScatterDims.WF S100000 S3300000x1 S3300000 [] [0] [0] 1
  dot_S5000x128_S128x64_S5000x64_1_0_0_1_n_n_wf : DotDims.WF S5000x128 S128x64 S5000x64 [1] [0] [0] [1] [] []
  gather_S100000x64_S3300000x1_S3300000x64_1_0_n_n_0_1_164_wf : GatherDims.WF S100000x64 S3300000x1 S3300000x64 [1] [0] [] [0] [] 1 ![1, 64]
  gather_S100000_S3300000x1_S3300000_n_0_n_n_0_1_1_wf : GatherDims.WF S100000 S3300000x1 S3300000 [] [0] [] [0] [] 1 ![1]
  scatter_S100000x64_S3300000x1_S3300000x64_1_0_0_1_wf : ScatterDims.WF S100000x64 S3300000x1 S3300000x64 [1] [0] [0] 1
  dot_S5000x64_S64x64_S5000x64_1_0_0_1_n_n_wf : DotDims.WF S5000x64 S64x64 S5000x64 [1] [0] [0] [1] [] []
  dot_S2000x64_S64x64_S2000x64_1_0_0_1_n_n_wf : DotDims.WF S2000x64 S64x64 S2000x64 [1] [0] [0] [1] [] []
  dot_S5000x256_S5000x64_S256x64_0_0_1_1_n_n_wf : DotDims.WF S5000x256 S5000x64 S256x64 [0] [0] [1] [1] [] []
  dot_S5000x256_S5000x1_S256x1_0_0_1_1_n_n_wf : DotDims.WF S5000x256 S5000x1 S256x1 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S64x64.size a ≤ S64x64.size a
  hwx2_8 : ∀ i : grid2.Coords, EltTy.bits .f32 = 32 ∨ (Rect.block (s := S64x64) S64x64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x64.size a ≤ S1x64.size a
  hwx2_9 : ∀ i : grid2.Coords, EltTy.bits .f32 = 32 ∨ (Rect.block (s := S1x64) S1x64.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S2000x64.size a ≤ S100000x64.size a
  hwx2_10 : ∀ i : grid2.Coords, EltTy.bits .f32 = 32 ∨ (Rect.block (s := S100000x64) S2000x64.size (cc2_transform_10 i) (hinb2_10 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x1.size a ≤ S100000x1.size a
  hwx3_0 : ∀ i : grid3.Coords, EltTy.bits .i32 = 32 ∨ (Rect.block (s := S100000x1) S5000x1.size (cc3_transform_0 i) (hinb3_0 i)).WholeWords (EltTy.packing .i32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x64.size a ≤ S256x64.size a
  hwx3_2 : ∀ i : grid3.Coords, EltTy.bits .f32 = 32 ∨ (Rect.block (s := S256x64) S256x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x1.size a ≤ S256x1.size a
  hwx3_3 : ∀ i : grid3.Coords, EltTy.bits .f32 = 32 ∨ (Rect.block (s := S256x1) S256x1.size (cc3_transform_3 i) (hinb3_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S5000x256_S5000x64_S256x64_0_0_1_1_n_n : DotDims S5000x256 S5000x64 S256x64 where
  lhsContracting := [0]
  rhsContracting := [0]
  lhsNonContracting := [1]
  rhsNonContracting := [1]
  lhsBatch := []
  rhsBatch := []
  wf := dot_S5000x256_S5000x64_S256x64_0_0_1_1_n_n_wf
def dot_S5000x256_S5000x1_S256x1_0_0_1_1_n_n : DotDims S5000x256 S5000x1 S256x1 where
  lhsContracting := [0]
  rhsContracting := [0]
  lhsNonContracting := [1]
  rhsNonContracting := [1]
  lhsBatch := []
  rhsBatch := []
  wf := dot_S5000x256_S5000x1_S256x1_0_0_1_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v51) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v79) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v88) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v89) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v90) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v91) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v92) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v93) S1x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg15) S64x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v94) S1x64.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v95) S2000x64.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev win3_0 : Pipeline.Window sig grid3 :=
  Pipeline.Window.ofSpec (Memref.whole main_v96) S5000x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v95) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v97_0) S256x64.size cc3_transform_2 reads3_2 true true 1 stage3_2 sem3_2
    hrank3 hreads3_2 hinb3_2 nbuf3_2 (Memref.isWhole_whole _) hwx3_2 hstage3_2

abbrev win3_3 : Pipeline.Window sig grid3 :=
  Pipeline.Window.ofSpec (Memref.whole main_v97_1) S256x1.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S100000x1 : Shape := ⟨2, ![100000, 1]⟩
abbrev S256x64 : Shape := ⟨2, ![256, 64]⟩
abbrev S256 : Shape := ⟨1, ![256]⟩
abbrev S256x1 : Shape := ⟨2, ![256, 1]⟩

abbrev nBuf : Space → Nat
  | .hbm => 219
  | .vmem => 0
  | .smem => 0
  | _ => 0

abbrev hbmTy0_0 (i : Nat) : BufTy := match i % 128 with
  | 0 => ⟨S100000x128, .f32⟩
  | 1 => ⟨S2x3200000, .i32⟩
  | 2 => ⟨S100000, .i32⟩
  | 3 => ⟨S128x64, .f32⟩
  | 4 => ⟨S64, .f32⟩
  | 5 => ⟨S64, .f32⟩
  | 6 => ⟨S64, .f32⟩
  | 7 => ⟨S64x64, .f32⟩
  | 8 => ⟨S64, .f32⟩
  | 9 => ⟨S64, .f32⟩
  | 10 => ⟨S64, .f32⟩
  | 11 => ⟨S64x64, .f32⟩
  | 12 => ⟨S64, .f32⟩
  | 13 => ⟨S64, .f32⟩
  | 14 => ⟨S64, .f32⟩
  | 15 => ⟨S64x64, .f32⟩
  | 16 => ⟨S64, .f32⟩
  | 17 => ⟨S1x3200000, .i32⟩
  | 18 => ⟨S3200000, .i32⟩
  | 19 => ⟨S1x3200000, .i32⟩
  | 20 => ⟨S3200000, .i32⟩
  | 21 => ⟨S100000, .i32⟩
  | 22 => ⟨S3300000, .i32⟩
  | 23 => ⟨S3300000, .i32⟩
  | 24 => ⟨S_, .f32⟩
  | 25 => ⟨S3300000, .f32⟩
  | 26 => ⟨S_, .f32⟩
  | 27 => ⟨S100000, .f32⟩
  | 28 => ⟨S3300000x1, .i32⟩
  | 29 => ⟨S100000, .f32⟩
  | 30 => ⟨S_, .f32⟩
  | 31 => ⟨S100000, .f32⟩
  | 32 => ⟨S100000, .i1⟩
  | 33 => ⟨S100000, .f32⟩
  | 34 => ⟨S_, .f32⟩
  | 35 => ⟨S_, .f32⟩
  | 36 => ⟨S100000, .f32⟩
  | 37 => ⟨S100000, .f32⟩
  | 38 => ⟨S100000x64, .f32⟩
  | 39 => ⟨S_, .i32⟩
  | 40 => ⟨S3300000, .i32⟩
  | 41 => ⟨S3300000, .i1⟩
  | 42 => ⟨S_, .i32⟩
  | 43 => ⟨S3300000, .i32⟩
  | 44 => ⟨S3300000, .i32⟩
  | 45 => ⟨S3300000, .i32⟩
  | 46 => ⟨S3300000x1, .i32⟩
  | 47 => ⟨S3300000x64, .f32⟩
  | 48 => ⟨S_, .i32⟩
  | 49 => ⟨S3300000, .i32⟩
  | 50 => ⟨S3300000, .i1⟩
  | 51 => ⟨S_, .i32⟩
  | 52 => ⟨S3300000, .i32⟩
  | 53 => ⟨S3300000, .i32⟩
  | 54 => ⟨S3300000, .i32⟩
  | 55 => ⟨S3300000x1, .i32⟩
  | 56 => ⟨S3300000, .f32⟩
  | 57 => ⟨S_, .i32⟩
  | 58 => ⟨S3300000, .i32⟩
  | 59 => ⟨S3300000, .i1⟩
  | 60 => ⟨S_, .i32⟩
  | 61 => ⟨S3300000, .i32⟩
  | 62 => ⟨S3300000, .i32⟩
  | 63 => ⟨S3300000, .i32⟩
  | 64 => ⟨S3300000x1, .i32⟩
  | 65 => ⟨S3300000, .f32⟩
  | 66 => ⟨S3300000, .f32⟩
  | 67 => ⟨S3300000x1, .f32⟩
  | 68 => ⟨S3300000x64, .f32⟩
  | 69 => ⟨S3300000x64, .f32⟩
  | 70 => ⟨S_, .f32⟩
  | 71 => ⟨S100000x64, .f32⟩
  | 72 => ⟨S3300000x1, .i32⟩
  | 73 => ⟨S100000x64, .f32⟩
  | 74 => ⟨S1x64, .f32⟩
  | 75 => ⟨S100000x64, .f32⟩
  | 76 => ⟨S100000x64, .f32⟩
  | 77 => ⟨S_, .f32⟩
  | 78 => ⟨S_, .f32⟩
  | 79 => ⟨S_, .f32⟩
  | 80 => ⟨S64, .f32⟩
  | 81 => ⟨S64, .f32⟩
  | 82 => ⟨S1x64, .f32⟩
  | 83 => ⟨S100000x64, .f32⟩
  | 84 => ⟨S100000x64, .f32⟩
  | 85 => ⟨S1x64, .f32⟩
  | 86 => ⟨S100000x64, .f32⟩
  | 87 => ⟨S100000x64, .f32⟩
  | 88 => ⟨S_, .f32⟩
  | 89 => ⟨S100000x64, .f32⟩
  | 90 => ⟨S100000x64, .f32⟩
  | 91 => ⟨S100000, .i32⟩
  | 92 => ⟨S3300000, .i32⟩
  | 93 => ⟨S3300000, .i32⟩
  | 94 => ⟨S_, .f32⟩
  | 95 => ⟨S3300000, .f32⟩
  | 96 => ⟨S_, .f32⟩
  | 97 => ⟨S100000, .f32⟩
  | 98 => ⟨S3300000x1, .i32⟩
  | 99 => ⟨S100000, .f32⟩
  | 100 => ⟨S_, .f32⟩
  | 101 => ⟨S100000, .f32⟩
  | 102 => ⟨S100000, .i1⟩
  | 103 => ⟨S100000, .f32⟩
  | 104 => ⟨S_, .f32⟩
  | 105 => ⟨S_, .f32⟩
  | 106 => ⟨S100000, .f32⟩
  | 107 => ⟨S100000, .f32⟩
  | 108 => ⟨S100000x64, .f32⟩
  | 109 => ⟨S_, .i32⟩
  | 110 => ⟨S3300000, .i32⟩
  | 111 => ⟨S3300000, .i1⟩
  | 112 => ⟨S_, .i32⟩
  | 113 => ⟨S3300000, .i32⟩
  | 114 => ⟨S3300000, .i32⟩
  | 115 => ⟨S3300000, .i32⟩
  | 116 => ⟨S3300000x1, .i32⟩
  | 117 => ⟨S3300000x64, .f32⟩
  | 118 => ⟨S_, .i32⟩
  | 119 => ⟨S3300000, .i32⟩
  | 120 => ⟨S3300000, .i1⟩
  | 121 => ⟨S_, .i32⟩
  | 122 => ⟨S3300000, .i32⟩
  | 123 => ⟨S3300000, .i32⟩
  | 124 => ⟨S3300000, .i32⟩
  | 125 => ⟨S3300000x1, .i32⟩
  | 126 => ⟨S3300000, .f32⟩
  | 127 => ⟨S_, .i32⟩
  | _ => ⟨S100000x128, .f32⟩

abbrev hbmTy0_1 (i : Nat) : BufTy := match i % 128 with
  | 0 => ⟨S3300000, .i32⟩
  | 1 => ⟨S3300000, .i1⟩
  | 2 => ⟨S_, .i32⟩
  | 3 => ⟨S3300000, .i32⟩
  | 4 => ⟨S3300000, .i32⟩
  | 5 => ⟨S3300000, .i32⟩
  | 6 => ⟨S3300000x1, .i32⟩
  | 7 => ⟨S3300000, .f32⟩
  | 8 => ⟨S3300000, .f32⟩
  | 9 => ⟨S3300000x1, .f32⟩
  | 10 => ⟨S3300000x64, .f32⟩
  | 11 => ⟨S3300000x64, .f32⟩
  | 12 => ⟨S_, .f32⟩
  | 13 => ⟨S100000x64, .f32⟩
  | 14 => ⟨S3300000x1, .i32⟩
  | 15 => ⟨S100000x64, .f32⟩
  | 16 => ⟨S1x64, .f32⟩
  | 17 => ⟨S100000x64, .f32⟩
  | 18 => ⟨S100000x64, .f32⟩
  | 19 => ⟨S_, .f32⟩
  | 20 => ⟨S_, .f32⟩
  | 21 => ⟨S_, .f32⟩
  | 22 => ⟨S64, .f32⟩
  | 23 => ⟨S64, .f32⟩
  | 24 => ⟨S1x64, .f32⟩
  | 25 => ⟨S100000x64, .f32⟩
  | 26 => ⟨S100000x64, .f32⟩
  | 27 => ⟨S1x64, .f32⟩
  | 28 => ⟨S100000x64, .f32⟩
  | 29 => ⟨S100000x64, .f32⟩
  | 30 => ⟨S_, .f32⟩
  | 31 => ⟨S100000x64, .f32⟩
  | 32 => ⟨S100000x64, .f32⟩
  | 33 => ⟨S100000x64, .f32⟩
  | 34 => ⟨S1x64, .f32⟩
  | 35 => ⟨S100000x64, .f32⟩
  | 36 => ⟨S100000x64, .f32⟩
  | 37 => ⟨S_, .f32⟩
  | 38 => ⟨S_, .f32⟩
  | 39 => ⟨S_, .f32⟩
  | 40 => ⟨S64, .f32⟩
  | 41 => ⟨S64, .f32⟩
  | 42 => ⟨S1x64, .f32⟩
  | 43 => ⟨S100000x64, .f32⟩
  | 44 => ⟨S100000x64, .f32⟩
  | 45 => ⟨S1x64, .f32⟩
  | 46 => ⟨S100000x64, .f32⟩
  | 47 => ⟨S100000x64, .f32⟩
  | 48 => ⟨S_, .f32⟩
  | 49 => ⟨S100000x64, .f32⟩
  | 50 => ⟨S100000x64, .f32⟩
  | 51 => ⟨S100000x64, .f32⟩
  | 52 => ⟨S1x64, .f32⟩
  | 53 => ⟨S100000x64, .f32⟩
  | 54 => ⟨S100000x64, .f32⟩
  | 55 => ⟨S100000x64, .f32⟩
  | 56 => ⟨S_, .f32⟩
  | 57 => ⟨S100000, .f32⟩
  | 58 => ⟨S100000x1, .f32⟩
  | 59 => ⟨S100000x1, .f32⟩
  | 60 => ⟨S_, .f32⟩
  | 61 => ⟨S100000x1, .f32⟩
  | 62 => ⟨S100000x1, .f32⟩
  | 63 => ⟨S100000x64, .f32⟩
  | 64 => ⟨S100000x64, .f32⟩
  | 65 => ⟨S_, .f32⟩
  | 66 => ⟨S256x64, .f32⟩
  | 67 => ⟨S100000x1, .i32⟩
  | 68 => ⟨S256x64, .f32⟩
  | 69 => ⟨S_, .f32⟩
  | 70 => ⟨S100000, .f32⟩
  | 71 => ⟨S_, .f32⟩
  | 72 => ⟨S256, .f32⟩
  | 73 => ⟨S100000x1, .i32⟩
  | 74 => ⟨S256, .f32⟩
  | 75 => ⟨S_, .f32⟩
  | 76 => ⟨S256, .f32⟩
  | 77 => ⟨S256, .f32⟩
  | 78 => ⟨S256x1, .f32⟩
  | 79 => ⟨S256x64, .f32⟩
  | 80 => ⟨S256x64, .f32⟩
  | 81 => ⟨S256x64, .f32⟩
  | 82 => ⟨S_, .f32⟩
  | 83 => ⟨S256, .f32⟩
  | 84 => ⟨S256x1, .f32⟩
  | 85 => ⟨S256x1, .f32⟩
  | 86 => ⟨S_, .f32⟩
  | 87 => ⟨S256x1, .f32⟩
  | 88 => ⟨S256x1, .f32⟩
  | 89 => ⟨S256x64, .f32⟩
  | 90 => ⟨S256x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_2 : Ref sig .tc := ⟨.hbm, 34, rfl⟩
abbrev main_call0_v0 : Ref sig .tc := ⟨.hbm, 35, rfl⟩
abbrev main_call0_v1 : Ref sig .tc := ⟨.hbm, 36, rfl⟩
abbrev main_v14 : Ref sig .tc := ⟨.hbm, 37, rfl⟩
abbrev main_v15 : Ref sig .tc := ⟨.hbm, 38, rfl⟩
abbrev main_c : Ref sig .tc := ⟨.hbm, 39, rfl⟩
abbrev main_v16 : Ref sig .tc := ⟨.hbm, 40, rfl⟩
abbrev main_v17 : Ref sig .tc := ⟨.hbm, 41, rfl⟩
abbrev main_c_3 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_c_4 : Ref sig .tc := ⟨.hbm, 48, rfl⟩
abbrev main_v23 : Ref sig .tc := ⟨.hbm, 49, rfl⟩
abbrev main_v24 : Ref sig .tc := ⟨.hbm, 50, rfl⟩
abbrev main_c_5 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_c_6 : Ref sig .tc := ⟨.hbm, 57, rfl⟩
abbrev main_v30 : Ref sig .tc := ⟨.hbm, 58, rfl⟩
abbrev main_v31 : Ref sig .tc := ⟨.hbm, 59, rfl⟩
abbrev main_c_7 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_8 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_9 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_call1_cst : Ref sig .tc := ⟨.hbm, 88, rfl⟩
abbrev main_call1_v0 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_10 : Ref sig .tc := ⟨.hbm, 94, rfl⟩
abbrev main_v61 : Ref sig .tc := ⟨.hbm, 95, rfl⟩
abbrev main_cst_11 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst_12 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_cst_13 : Ref sig .tc := ⟨.hbm, 104, rfl⟩
abbrev main_call2_v0 : Ref sig .tc := ⟨.hbm, 105, rfl⟩
abbrev main_call2_v1 : Ref sig .tc := ⟨.hbm, 106, rfl⟩
abbrev main_v68 : Ref sig .tc := ⟨.hbm, 107, rfl⟩
abbrev main_v69 : Ref sig .tc := ⟨.hbm, 108, rfl⟩
abbrev main_c_14 : Ref sig .tc := ⟨.hbm, 109, rfl⟩
abbrev main_v70 : Ref sig .tc := ⟨.hbm, 110, rfl⟩
abbrev main_v71 : Ref sig .tc := ⟨.hbm, 111, rfl⟩
abbrev main_c_15 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_c_16 : Ref sig .tc := ⟨.hbm, 118, rfl⟩
abbrev main_v77 : Ref sig .tc := ⟨.hbm, 119, rfl⟩
abbrev main_v78 : Ref sig .tc := ⟨.hbm, 120, rfl⟩
abbrev main_c_17 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_c_18 : Ref sig .tc := ⟨.hbm, 127, rfl⟩
abbrev main_v84 : Ref sig .tc := ⟨.hbm, 128, rfl⟩
abbrev main_v85 : Ref sig .tc := ⟨.hbm, 129, rfl⟩
abbrev main_c_19 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_cst_20 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_cst_21 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_call3_cst : Ref sig .tc := ⟨.hbm, 158, rfl⟩
abbrev main_call3_v0 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_cst_22 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_call4_cst : Ref sig .tc := ⟨.hbm, 176, rfl⟩
abbrev main_call4_v0 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_cst_23 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_cst_24 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_cst_25 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_cst_26 : Ref sig .tc := ⟨.hbm, 197, rfl⟩
abbrev main_v142 : Ref sig .tc := ⟨.hbm, 198, rfl⟩
abbrev main_cst_27 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_cst_28 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_cst_29 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_cst_30 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S_S256x64 : S_.BroadcastsInDim S256x64 (![] : Fin 0 → Fin S256x64.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  reducesTo_S256x64_S256_d1 : S256x64.ReducesTo [1] S256
  bcast_S_S256x1 : S_.BroadcastsInDim S256x1 (![] : Fin 0 → Fin S256x1.rank)
  scatter_S100000_S3300000x1_S3300000_n_0_0_1_wf : ScatterDims.WF S100000 S3300000x1 S3300000 [] [0] [0] 1
  dot_S100000x128_S128x64_S100000x64_1_0_0_1_n_n_wf : DotDims.WF S100000x128 S128x64 S100000x64 [1] [0] [0] [1] [] []
  gather_S100000x64_S3300000x1_S3300000x64_1_0_n_n_0_1_164_wf : GatherDims.WF S100000x64 S3300000x1 S3300000x64 [1] [0] [] [0] [] 1 ![1, 64]
  gather_S100000_S3300000x1_S3300000_n_0_n_n_0_1_1_wf : GatherDims.WF S100000 S3300000x1 S3300000 [] [0] [] [0] [] 1 ![1]
  scatter_S100000x64_S3300000x1_S3300000x64_1_0_0_1_wf : ScatterDims.WF S100000x64 S3300000x1 S3300000x64 [1] [0] [0] 1
  dot_S100000x64_S64x64_S100000x64_1_0_0_1_n_n_wf : DotDims.WF S100000x64 S64x64 S100000x64 [1] [0] [0] [1] [] []
  scatter_S256x64_S100000x1_S100000x64_1_0_0_1_wf : ScatterDims.WF S256x64 S100000x1 S100000x64 [1] [0] [0] 1
  scatter_S256_S100000x1_S100000_n_0_0_1_wf : ScatterDims.WF S256 S100000x1 S100000 [] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf

class Facts : Prop extends Facts₀ where

variable [Facts]
-- ==== Proof.KI.Reg0.lean ====
/- Region 0 of @main (the first matrix product, o = x · w with both factors cast to bf16), at the contents
   `V` its arrays hold when the region is entered, for any float model `F`:
   each window's block at a grid point, what one run of the body leaves in the output window's buffer,
   the body's triple, the pipeline's proof data, and the body obligation at every grid point. -/
import proofs.«421031_j46042049413263_1_alg».proof.Proof.Gen.KernelIdeal.Launch
import proofs.«421031_j46042049413263_1_alg».proof.Proof.Gen.KernelIdeal.Skeleton
import proofs.«421031_j46042049413263_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with an axis of 5000 rows is decided coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`: the rows 5000·t … 5000·t+4999 of x (window 0) or of the output
    (window 2), all of w (window 1), read off the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x window's buffer holds its block at every grid point: it is fetched at every point, the block is whole
    (100000 = 20 · 5000, nothing is cut off), and the body leaves it as it was. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The w window's buffer holds all of w at every grid point although it is fetched at the first point only: its
    block index never moves, so at an unfetched point the buffer still holds the previous point's block, which
    is this point's, and the body leaves it as it was. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read or written whole -/

abbrev r0_0 : Rect S5000x128 := Rect.unit (s := S5000x128) ![0, 0] S5000x128.size inb_S5000x128_S5000x128_0_0
abbrev r0_1 : Rect S128x64 := Rect.unit (s := S128x64) ![0, 0] S128x64.size inb_S128x64_S128x64_0_0
abbrev r0_2 : Rect S5000x64 := Rect.unit (s := S5000x64) ![0, 0] S5000x64.size inb_S5000x64_S5000x64_0_0

/-! ## What the body leaves in the output window's buffer -/

/-- The output buffer after the body, from the x block `x0` and from `x1` = w: one store of the whole 5000 × 64
    buffer, whose value is the matrix product of the two factors cast to bf16, accumulated onto zero. -/
def out0_2 (x0 : Vec F S5000x128 .f32) (x1 : Vec F S128x64 .f32) : Vec F S5000x64 .f32 :=
  View.canon [⟨r0_2, k0_pay1 (View.ld x0 r0_0) (View.ld x1 r0_1)⟩]

/-- The one store is of the whole buffer, so every index of the buffer lies in it. -/
theorem cover0_2 (p0 : Vec F S5000x64 .f32) (y : S5000x64.Idx) :
    ∃ pc ∈ ([⟨r0_2, p0⟩] : List (View.Piece (Elt F) S5000x64 .f32)), y ∈ pc.1.set :=
  View.cover_of_tiled [⟨r0_2, p0⟩] S5000x64.size (by rfl) y

/-! ## The body's triple -/

set_option maxHeartbeats 1000000 in
/-- The body on whole buffers — x's at `x0`, w's at `x1`, the output's at anything — runs to the continuation with
    the two inputs' buffers as they were and the output's at `out0_2 x0 x1`: three whole loads (the third, of the
    output buffer, is read and dropped) and one whole store. The grid coordinate is not used by the body. -/
theorem sound_kernel0 (c : Dev nD) (E : Set ℕ) (i : grid0.Coords)
    (arg1 : Memref sig .tc .vmem S5000x128 .f32) (harg1 : arg1.IsWhole) (arg2 : Memref sig .tc .vmem S128x64 .f32) (harg2 : arg2.IsWhole)
    (arg3 : Memref sig .tc .vmem S5000x64 .f32) (harg3 : arg3.IsWhole)
    (x0 : Vec F S5000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them; after the body at point `t` the
    x and w buffers at their blocks and the output buffer at `out0_2` of the two; the invariant is the untouched
    scoped rest with the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's buffer holds its block at every grid point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic grid point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every grid point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
import proofs.«421031_j46042049413263_1_alg».proof.Proof.Gen.KernelIdeal.Launch
import proofs.«421031_j46042049413263_1_alg».proof.Proof.Gen.KernelIdeal.Skeleton
import proofs.«421031_j46042049413263_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 1: normalise, rectify, multiply

The second pipeline of the program. At each of its 20 points the body reads a 5000 x 64 block `h` of the
activations, three 1 x 64 rows `b`, `scale`, `beta` and a 64 x 64 matrix `w`, and stores
`dot (bf16 (max ((h + b) * scale + beta) 0)) (bf16 w)` over the whole 5000 x 64 output block.

Everything is stated at a parameter `V`: the contents of the core's buffers when the region is entered.
The rows and the matrix are moved into their staging buffers at the first point only; their block index never
moves, so the body finds the same block at every point.
-/

-- membership in a rectangle with an axis of length 5000 is decided coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the activations' block) holds its block in its current staging buffer at every point, moved there at
    that point or not, for any proof data whose array is `V`'s and whose body leaves the block in place: where it
    was not moved the block index has not changed since the point before; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the row b) holds its block in its current staging buffer at every point, moved there at
    that point or not, for any proof data whose array is `V`'s and whose body leaves the block in place: where it
    was not moved the block index has not changed since the point before; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the row scale) holds its block in its current staging buffer at every point, moved there at
    that point or not, for any proof data whose array is `V`'s and whose body leaves the block in place: where it
    was not moved the block index has not changed since the point before; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 (the row beta) holds its block in its current staging buffer at every point, moved there at
    that point or not, for any proof data whose array is `V`'s and whose body leaves the block in place: where it
    was not moved the block index has not changed since the point before; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4 (the matrix w) holds its block in its current staging buffer at every point, moved there at
    that point or not, for any proof data whose array is `V`'s and whose body leaves the block in place: where it
    was not moved the block index has not changed since the point before; the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole 5000 x 64 block, the whole 1 x 64 row, the whole 64 x 64 matrix. -/
abbrev r1_0 : Rect S5000x64 := Rect.unit (s := S5000x64) ![0, 0] S5000x64.size inb_S5000x64_S5000x64_0_0
abbrev r1_1 : Rect S1x64 := Rect.unit (s := S1x64) ![0, 0] S1x64.size inb_S1x64_S1x64_0_0
abbrev r1_2 : Rect S64x64 := Rect.unit (s := S64x64) ![0, 0] S64x64.size inb_S64x64_S64x64_0_0

/-! ## What the body leaves in the output window's buffer -/

/-- Window 5's staging buffer after the body, from the five input blocks: one store over the whole block, of
    the product of the rectified, normalised activations with the matrix, both rounded to bf16. -/
def out1_5 (x0 : Vec F S5000x64 .f32) (x1 : Vec F S1x64 .f32) (x2 : Vec F S1x64 .f32) (x3 : Vec F S1x64 .f32) (x4 : Vec F S64x64 .f32) : Vec F S5000x64 .f32 :=
  View.canon [⟨r1_0, k1_pay1 (View.ld x0 r1_0) (View.ld x1 r1_1) (View.ld x2 r1_1) (View.ld x3 r1_1) (View.ld x4 r1_2)⟩]

/-- The one store is over the whole block, so it covers it. -/
theorem cover1_5 (p0 : Vec F S5000x64 .f32) (y : S5000x64.Idx) :
    ∃ pc ∈ ([⟨r1_0, p0⟩] : List (View.Piece (Elt F) S5000x64 .f32)), y ∈ pc.1.set :=
  View.cover_of_tiled [⟨r1_0, p0⟩] S5000x64.size (by rfl) y

/-! ## The body's triple -/

set_option maxHeartbeats 1000000 in
/-- The body on whole staging buffers — the five inputs' at contents `x0 … x4`, the output's at anything — runs to
    a state in which the inputs' are as they were and the output's holds `out1_5 x0 … x4`: five loads of the
    inputs, a load of the output that is not used, one store over the whole output block. -/
theorem sound_kernel1 (c : Dev nD) (E : Set ℕ) (i : grid1.Coords)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S5000x64 .f32) (harg6 : arg6.IsWhole)
    (x0 : Vec F S5000x64 .f32) (x1 : Vec F S1x64 .f32) (x2 : Vec F S1x64 .f32) (x3 : Vec F S1x64 .f32) (x4 : Vec F S64x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E
          (cc1__post_bn_relu_matmul_kernel i arg1 harg1 arg2 harg2 arg3 harg3 arg4 harg4 arg5 harg5 arg6 harg6) K := by
  simp only [cc1__post_bn_relu_matmul_kernel_eq_skeleton]; unfold cc1__post_bn_relu_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of the pipeline on core `c`: the arrays as the region finds them; after the body at point `t`
    each input's buffer at its block and the output's at `out1_5` of the five input blocks; the invariant is the
    untouched rest of the core's state; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the contents at the region's entry. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`: the invariant, what the core owes, and each window's current
    staging buffer at what the pipeline has put there, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
import proofs.«421031_j46042049413263_1_alg».proof.Proof.Gen.KernelIdeal.Launch
import proofs.«421031_j46042049413263_1_alg».proof.Proof.Gen.KernelIdeal.Skeleton
import proofs.«421031_j46042049413263_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 2: the finalize call, on a grid of 50 row blocks

Ten inputs (a 2000x64 row block of the activations, three 1x64 rows, a 64x64 weight, three more
1x64 rows, a second 64x64 weight, a last 1x64 row) and one output, the 2000x64 row block of the
result.  Every point of the grid runs the same straight-line body: it reads each input buffer whole,
and writes the output buffer whole, once.  So the region has one control case, and what it leaves in
the output block at a point is one function of the ten input blocks at that point.

Everything is stated for an arbitrary float type, and at arbitrary contents of the buffers when the
region is entered.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of every buffer of the core when the region is entered
variable (V : (c : Dev nD) → (b : Ref sig .tc) → Buf (Elt F) ((c : Thread nD τ).loc b))

/-! ## The windows' blocks -/

/-- The block of window `w` at point `t`, read off the window's array at the entry contents. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's buffer holds the window's block at every point, whether the block was fetched
at that point or at an earlier one: where it is not fetched its block index has not moved, and the
body leaves an input's buffer as it found it.  Window 0's block index moves at every point; windows
1 to 9 are whole arrays, fetched once, at the first point. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer is read, or written, whole -/

/-- The whole of a 2000x64 buffer. -/
abbrev r2_0 : Rect S2000x64 := Rect.unit (s := S2000x64) ![0, 0] S2000x64.size inb_S2000x64_S2000x64_0_0
/-- The whole of a 1x64 buffer. -/
abbrev r2_1 : Rect S1x64 := Rect.unit (s := S1x64) ![0, 0] S1x64.size inb_S1x64_S1x64_0_0
/-- The whole of a 64x64 buffer. -/
abbrev r2_2 : Rect S64x64 := Rect.unit (s := S64x64) ![0, 0] S64x64.size inb_S64x64_S64x64_0_0

/-! ## What the body leaves in the output buffer -/

/-- The output buffer after the body, as a function of the ten input blocks.  With
`h = relu ((x0 + x1) * x2 + x3)` and `g = relu ((h · x4 + x5) * x6 + x7)` (the products taken on
operands rounded to the short float type, the rows broadcast along the 2000 rows), the value stored
is `e / max (sqrt (Σ_j e²)) 1e-12` row by row, where `e = g · x8 + x9`: one store, of the whole buffer. -/
def out2_10 (x0 : Vec F S2000x64 .f32) (x1 : Vec F S1x64 .f32) (x2 : Vec F S1x64 .f32) (x3 : Vec F S1x64 .f32) (x4 : Vec F S64x64 .f32)
    (x5 : Vec F S1x64 .f32) (x6 : Vec F S1x64 .f32) (x7 : Vec F S1x64 .f32) (x8 : Vec F S64x64 .f32) (x9 : Vec F S1x64 .f32) : Vec F S2000x64 .f32 :=
  View.canon [⟨r2_0, k2_pay1
    (k2_pay2 (View.ld x0 r2_0) (View.ld x1 r2_1) (View.ld x2 r2_1) (View.ld x3 r2_1) (View.ld x4 r2_2) (View.ld x5 r2_1) (View.ld x6 r2_1) (View.ld x7 r2_1))
    (k2_pay3 (View.ld x8 r2_2))
    (constant S2000x64 .f32 0x00000000#32)
    (View.ld x9 r2_1)⟩]

/-- The one store is of the whole buffer, so it covers every index. -/
theorem cover2_10 (p0 : Vec F S2000x64 .f32) (y : S2000x64.Idx) :
    ∃ pc ∈ ([⟨r2_0, p0⟩] : List (View.Piece (Elt F) S2000x64 .f32)), y ∈ pc.1.set :=
  View.cover_of_tiled [⟨r2_0, p0⟩] S2000x64.size (by rfl) y

/-! ## The body's triple -/

set_option maxHeartbeats 1000000 in
/-- The body, run on eleven whole buffers of which the first ten hold `x0 … x9` and the last
anything, ends with the first ten as they were and the last at `out2_10 x0 … x9`. -/
theorem sound_kernel2 (c : Dev nD) (E : Set ℕ) (i : grid2.Coords)
    (arg1 : Memref sig .tc .vmem S2000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S1x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S64x64 .f32) (harg9 : arg9.IsWhole) (arg10 : Memref sig .tc .vmem S1x64 .f32) (harg10 : arg10.IsWhole)
    (arg11 : Memref sig .tc .vmem S2000x64 .f32) (harg11 : arg11.IsWhole)
    (x0 : Vec F S2000x64 .f32) (x1 : Vec F S1x64 .f32) (x2 : Vec F S1x64 .f32) (x3 : Vec F S1x64 .f32) (x4 : Vec F S64x64 .f32)
    (x5 : Vec F S1x64 .f32) (x6 : Vec F S1x64 .f32) (x7 : Vec F S1x64 .f32) (x8 : Vec F S64x64 .f32) (x9 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9
            ∗ owns (c : Thread nD τ) arg11 fullShare (out2_10 x0 x1 x2 x3 x4 x5 x6 x7 x8 x9)) -∗ K ⟨⟩))
      ⊢ wp frame (wpE (defs₀ (F := F)) Variants.none c none) E
          (cc2__finalize_kernel i arg1 harg1 arg2 harg2 arg3 harg3 arg4 harg4 arg5 harg5 arg6 harg6 arg7 harg7 arg8 harg8 arg9 harg9 arg10 harg10 arg11 harg11) K := by
  simp only [cc2__finalize_kernel_eq_skeleton]; unfold cc2__finalize_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  try dsimp only
  exact View.read_writes_eq_canon _ _ _ (cover2_10 _)

/-! ## The pipeline's proof data -/

/-- The proof data of the region on core `c`: the arrays at the entry contents; after the body at point
`t` each input's buffer at its block and the output's at `out2_10` of the ten input blocks; the
invariant is the rest of the core's memory, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => out2_10 (iblk2 V c 0 t) (iblk2 V c 1 t) (iblk2 V c 2 t) (iblk2 V c 3 t) (iblk2 V c 4 t)
        (iblk2 V c 5 t) (iblk2 V c 6 t) (iblk2 V c 7 t) (iblk2 V c 8 t) (iblk2 V c 9 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-! What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t =
    out2_10 (iblk2 V c 0 t) (iblk2 V c 1 t) (iblk2 V c 2 t) (iblk2 V c 3 t) (iblk2 V c 4 t)
      (iblk2 V c 5 t) (iblk2 V c 6 t) (iblk2 V c 7 t) (iblk2 V c 8 t) (iblk2 V c 9 t) := by dsimp only [dat2]

/-! Each input's buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d

/-! ## The body obligation, at a generic point -/

/-- What the body is called with at point `t`: the invariant, the core's debt, and each window's current
buffer, an input's at its block and the output's at what the previous points left there, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d)))

/-- and what it returns: the same, each buffer at what the body leaves in it. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t))

set_option maxHeartbeats 1000000 in
/-- The body at any point: the inputs' buffers hold their blocks, so the body's triple applies; the
invariant and the core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel2 c Set.univ _ _ _ _ _ _ _ _ _ _ _ _ _ _ _ _ _ _ _ _ _ _ _
    (iblk2 V c 0 t) (iblk2 V c 1 t) (iblk2 V c 2 t) (iblk2 V c 3 t) (iblk2 V c 4 t)
    (iblk2 V c 5 t) (iblk2 V c 6 t) (iblk2 V c 7 t) (iblk2 V c 8 t) (iblk2 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body obligation of the region, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3.lean ====
/- Region 3 of @main (the readout's two segment sums: for each of the 256 graphs, the sum of the embedding rows
   whose graph id is that graph, and the number of such rows), at the contents `V` its arrays hold when the
   region is entered, for any float model `F`.
   The 20 grid points run in order over blocks of 5000 rows. Two accumulators live in scratch between the points:
   at the first point both are set to zero; at every point the block's one-hot matrix (row r, column g is 1 when
   row r's graph id is g) transposed times the block's rows is added to the first, and transposed times a column of
   ones to the second; and at every point both outputs are stored from the accumulators. So after point n the
   outputs and the accumulators hold the sums over the blocks 0 … n.
   Here: each window's block at a grid point, one step of the accumulation, what the four buffers hold after each
   point (by recursion on the point), the invariant that carries the accumulators between points, the body's triple
   in its two cases (first point / later point), the pipeline's proof data, and the body obligation. -/
import proofs.«421031_j46042049413263_1_alg».proof.Proof.Gen.KernelIdeal.Launch
import proofs.«421031_j46042049413263_1_alg».proof.Proof.Gen.KernelIdeal.Skeleton
import proofs.«421031_j46042049413263_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership in a rectangle with an axis of 5000 rows is decided coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`: rows 5000·t … 5000·t+4999 of the graph ids (window 0) or of the
    embedding (window 1), all of an output (windows 2, 3), read off the array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window is fetched at every point and its block lies inside its array, so for any proof data whose
    array is `V`'s and whose body leaves the block in place the current staging buffer holds the block. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's one condition: is this the first point? -/

/-- The condition of the body's conditional, from the grid coordinate: i = 0, as the comparison chain computes it. -/
abbrev cond3_0 (i : grid3.Coords) : Prop := (Scalar.cmpi .ne (Scalar.extui (Scalar.cmpi .eq (BitVec.ofNat 32 (i 0).val) 0#32)) 0#32) = 1#1

/-- It holds at the first point only: decided over the 20 points. -/
theorem hcond3_0 : ∀ t : Fin cfg3.N, cond3_0 (grid3.coords t) ↔ t.val = 0 :=
  (by decide +kernel : ∀ t : Fin grid3.N, cond3_0 (grid3.coords t) ↔ t.val = 0)

/-! ## One step of the accumulation -/

/-- The accumulators' starting values: all zeros. -/
def zero3_0 : Vec F S256x64 .f32 := k3_pay1 (F := F)
def zero3_1 : Vec F S256x1 .f32 := k3_pay2 (F := F)

/-- The sums after one more block: `a + onehot(b)ᵀ · bf16(e)`, for the block's graph ids `b` and rows `e`. -/
def step3_0 (b : Vec F S5000x1 .i32) (e : Vec F S5000x64 .f32) (a : Vec F S256x64 .f32) : Vec F S256x64 .f32 := k3_pay4 b e a
/-- The counts after one more block: `a + onehot(b)ᵀ · 1`. -/
def step3_1 (b : Vec F S5000x1 .i32) (a : Vec F S256x1 .f32) : Vec F S256x1 .f32 := k3_pay5 b a

/-! ## What the buffers hold after each point -/

/-- After the body at point `n`: (window 2's buffer, window 3's buffer, the sums' accumulator, the counts'
    accumulator). At point 0 one step from zero; at point n + 1 one step from the accumulators point n left. Each
    output's buffer is a copy of its accumulator. -/
def outsAt3 (c : Dev nD) : (n : ℕ) → n < cfg3.N → Vec F S256x64 .f32 × Vec F S256x1 .f32 × Vec F S256x64 .f32 × Vec F S256x1 .f32
  | 0, hn =>
    (step3_0 (iblk3 V c 0 ⟨0, hn⟩) (iblk3 V c 1 ⟨0, hn⟩) zero3_0, step3_1 (iblk3 V c 0 ⟨0, hn⟩) zero3_1,
     step3_0 (iblk3 V c 0 ⟨0, hn⟩) (iblk3 V c 1 ⟨0, hn⟩) zero3_0, step3_1 (iblk3 V c 0 ⟨0, hn⟩) zero3_1)
  | n + 1, hn =>
    (step3_0 (iblk3 V c 0 ⟨n + 1, hn⟩) (iblk3 V c 1 ⟨n + 1, hn⟩) (outsAt3 c n (Nat.lt_of_succ_lt hn)).2.2.1,
     step3_1 (iblk3 V c 0 ⟨n + 1, hn⟩) (outsAt3 c n (Nat.lt_of_succ_lt hn)).2.2.2,
     step3_0 (iblk3 V c 0 ⟨n + 1, hn⟩) (iblk3 V c 1 ⟨n + 1, hn⟩) (outsAt3 c n (Nat.lt_of_succ_lt hn)).2.2.1,
     step3_1 (iblk3 V c 0 ⟨n + 1, hn⟩) (outsAt3 c n (Nat.lt_of_succ_lt hn)).2.2.2)

/-- `outsAt3` at the first point. -/
theorem outsAt3_A (c : Dev nD) (t : Fin cfg3.N) (h0 : t.val = 0) :
    outsAt3 V c t.val t.isLt =
      (step3_0 (iblk3 V c 0 t) (iblk3 V c 1 t) zero3_0, step3_1 (iblk3 V c 0 t) zero3_1,
       step3_0 (iblk3 V c 0 t) (iblk3 V c 1 t) zero3_0, step3_1 (iblk3 V c 0 t) zero3_1) := by
  obtain ⟨n, hn⟩ := t
  cases n with
  | zero => rfl
  | succ n => exact absurd h0 (Nat.succ_ne_zero n)

/-- `outsAt3` at a later point, from what the point before left. -/
theorem outsAt3_B (c : Dev nD) (t : Fin cfg3.N) (h0 : ¬t.val = 0) :
    outsAt3 V c t.val t.isLt =
      (step3_0 (iblk3 V c 0 t) (iblk3 V c 1 t) (outsAt3 V c (t.val - 1) (Nat.lt_of_le_of_lt (Nat.sub_le _ _) t.isLt)).2.2.1,
       step3_1 (iblk3 V c 0 t) (outsAt3 V c (t.val - 1) (Nat.lt_of_le_of_lt (Nat.sub_le _ _) t.isLt)).2.2.2,
       step3_0 (iblk3 V c 0 t) (iblk3 V c 1 t) (outsAt3 V c (t.val - 1) (Nat.lt_of_le_of_lt (Nat.sub_le _ _) t.isLt)).2.2.1,
       step3_1 (iblk3 V c 0 t) (outsAt3 V c (t.val - 1) (Nat.lt_of_le_of_lt (Nat.sub_le _ _) t.isLt)).2.2.2) := by
  obtain ⟨n, hn⟩ := t
  cases n with
  | zero => exact absurd rfl h0
  | succ n => rfl

/-! ## The invariant that carries the accumulators -/

/-- The two accumulators as whole memrefs. -/
abbrev scM3_0 : Memref sig .tc .vmem S256x64 .f32 := Memref.whole cc3_scratch0
abbrev scM3_1 : Memref sig .tc .vmem S256x1 .f32 := Memref.whole cc3_scratch1

/-- The other scoped buffers of the core (other calls' staging and scratch), never opened here. -/
abbrev rest3 (c : Dev nD) : sProp 𝕄 :=
  Pipeline.scopedRestBut (Ix := Unit) (Name := ℕ) (U := UR sig nD τ) (Lvl := ℕ) (Val := Elt F) spec3 c [cc3_scratch0, cc3_scratch1]

/-- What the launch hands the region, with the two accumulators split off as memrefs owned at some contents. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d)) ∗ rest3 (F := F) c) ∗ (∃ r, prngReg c r)) := by
  unfold Pipeline.ΦA; rw [scopedRest3_split]; simp only [scM3_0, scM3_1, owns_whole]; try rfl

/-- The invariant before position `n`: before the first point what the launch hands over (the accumulators at
    anything); afterwards the same with each accumulator at what the point before left in it. -/
def PhiS3 (c : Dev nD) : (n : ℕ) → n ≤ cfg3.N → sProp 𝕄
  | 0, _ => Pipeline.ΦA spec3 c
  | n + 1, hn => iprop(iprop(iprop(owns (c : Thread nD τ) scM3_0 fullShare (outsAt3 V c n hn).2.2.1 ∗ owns (c : Thread nD τ) scM3_1 fullShare (outsAt3 V c n hn).2.2.2) ∗ rest3 (F := F) c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(iprop(owns (c : Thread nD τ) scM3_0 fullShare (outsAt3 V c n hn).2.2.1 ∗ owns (c : Thread nD τ) scM3_1 fullShare (outsAt3 V c n hn).2.2.2) ∗ rest3 (F := F) c) ∗ (∃ r, prngReg c r)) := rfl

theorem PhiS3_pos (c : Dev nD) (n : ℕ) (h : n ≤ cfg3.N) (hz : n ≠ 0) :
    PhiS3 V c n h = iprop(iprop(iprop(owns (c : Thread nD τ) scM3_0 fullShare (outsAt3 V c (n - 1) (by omega)).2.2.1 ∗ owns (c : Thread nD τ) scM3_1 fullShare (outsAt3 V c (n - 1) (by omega)).2.2.2) ∗ rest3 (F := F) c) ∗ (∃ r, prngReg c r)) := by
  cases n with
  | zero => exact absurd rfl hz
  | succ n => rfl

/-! ## The pipeline's proof data -/

/-- The proof data of pipeline 3 on core `c`: the arrays as the region finds them; after the body at point `t`
    each input's buffer at its block and each output's at `outsAt3`'s component; the invariant `PhiS3`; nothing
    owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
    | ⟨3, _⟩ => (outsAt3 V c t.val t.isLt).2.1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t.val t.isLt).1 := by dsimp only [dat3]
theorem after3_3 (c : Dev nD) (t : Fin cfg3.N) : (dat3 V c).after 3 t = (outsAt3 V c t.val t.isLt).2.1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point the invariant gives back what the launch handed over: the accumulators' contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

theorem hout3 (c : Dev nD) : (dat3 V c).Φ (Fin.last cfg3.N) ⊢ Pipeline.ΦA spec3 c :=
  Phi_out3 V c _ (by rw [Fin.val_last]; have : cfg3.N = 20 := N_3; omega)

/-! ## The body's triple, in its two cases -/

/-- The offsets `![0, 0]` are zero on both axes. -/
theorem off2_zero : (![0, 0] : Fin 2 → ℕ) = fun _ => 0 := by
  funext a; fin_cases a <;> rfl

/-- A buffer whose last store went through the whole-shape rectangle at zero offsets reads that store's payload,
    whatever it held and whatever was stored before. -/
theorem read_writes_whole_last {sg : RefSig} {κ : Kind} {sp : Space} {S : Shape} {e : EltTy} (v : View sg κ sp S e)
    (f : v.ty.Contents (Elt F)) {off : Fin S.rank → ℕ} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩), View.canon_cons_unit_zero h]

set_option maxHeartbeats 1000000 in
/-- At the first point, on whole memrefs — the inputs' at their blocks `x0`, `x1`, the outputs' and the
    accumulators' at anything — the body runs to the continuation holding the inputs' as they were and, in each
    output and each accumulator, one step from zero: the accumulators are zeroed, read back, increased and stored,
    and each output is stored from its accumulator's read-back. -/
theorem run3_A (c : Dev nD) (E : Set ℕ) (i : grid3.Coords)
    (arg1 : Memref sig .tc .vmem S5000x1 .i32) (harg1 : arg1.IsWhole) (arg2 : Memref sig .tc .vmem S5000x64 .f32) (harg2 : arg2.IsWhole)
    (arg3 : Memref sig .tc .vmem S256x64 .f32) (harg3 : arg3.IsWhole) (arg4 : Memref sig .tc .vmem S256x1 .f32) (harg4 : arg4.IsWhole)
    (arg5 : Memref sig .tc .vmem S256x64 .f32) (harg5 : arg5.IsWhole) (arg6 : Memref sig .tc .vmem S256x1 .f32) (harg6 : arg6.IsWhole)
    (hc : cond3_0 i) (x0 : Vec F S5000x1 .i32) (x1 : Vec F S5000x64 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare (step3_0 x0 x1 zero3_0) ∗ owns (c : Thread nD τ) arg4 fullShare (step3_1 x0 zero3_1)
            ∗ owns (c : Thread nD τ) arg5 fullShare (step3_0 x0 x1 zero3_0) ∗ owns (c : Thread nD τ) arg6 fullShare (step3_1 x0 zero3_1)) -∗ K ⟨⟩))
      ⊢ wp frame (wpE (defs₀ (F := F)) Variants.none c none) E (cc3__meanpool_kernel i arg1 harg1 arg2 harg2 arg3 harg3 arg4 harg4 arg5 harg5 arg6 harg6) K := by
  simp only [cc3__meanpool_kernel_eq_skeleton]; unfold cc3__meanpool_kernel_skel
  simp only [k3_part1_eq_skeleton]
  unfold owns
  iintro ⟨⟨%f0, %hf0, H0⟩, ⟨%f1, %hf1, H1⟩, ⟨%d2, %f2, -, H2⟩, ⟨%d3, %f3, -, H3⟩, ⟨%d4, %f4, -, H4⟩, ⟨%d5, %f5, -, H5⟩, Hk⟩
  subst hf0; subst hf1
  sl_exec (disch := first | exact hc)
  sl_step
  -- the sums' accumulator after the step: the last store's payload, whose third operand is the read-back of the zeros
  have hS0 : arg5.view.read (Elt F) (arg5.view.writes (Elt F) f4 (run3_A.sl.H4_2 c arg1 arg2 arg5 f0 f1))
      = step3_0 (arg1.view.read (Elt F) f0) (arg2.view.read (Elt F) f1) zero3_0 := by
    unfold run3_A.sl.H4_2
    rw [read_writes_whole_last _ _ off2_zero]
    unfold run3_A.sl.v15 run3_A.sl.H4_1
    rw [View.readCov_cons_toLoadRect]
    simp only [View.readAt_eq_ld, View.ld_unit_zero (S := S5000x1) off2_zero, View.ld_unit_zero (S := S5000x64) off2_zero]
    unfold step3_0 zero3_0; rfl
  -- the counts' accumulator likewise
  have hS1 : arg6.view.read (Elt F) (arg6.view.writes (Elt F) f5 (run3_A.sl.H5_2 c arg1 arg6 f0))
      = step3_1 (arg1.view.read (Elt F) f0) zero3_1 := by
    unfold run3_A.sl.H5_2
    rw [read_writes_whole_last _ _ off2_zero]
    unfold run3_A.sl.v21 run3_A.sl.H5_1
    rw [View.readCov_cons_toLoadRect]
    simp only [View.readAt_eq_ld, View.ld_unit_zero (S := S5000x1) off2_zero]
    unfold step3_1 zero3_1; rfl
  -- each output: its one store's payload is its accumulator's read-back
  have hO0 : arg3.view.read (Elt F) (arg3.view.writes (Elt F) f2
        [⟨Rect.unit (s := S256x64) ![0, 0] S256x64.size inb_S256x64_S256x64_0_0, run3_A.sl.v27 c arg1 arg2 arg5 f0 f1⟩])
      = step3_0 (arg1.view.read (Elt F) f0) (arg2.view.read (Elt F) f1) zero3_0 := by
    rw [read_writes_whole_last _ _ off2_zero]
    unfold run3_A.sl.v27 run3_A.sl.H4_2
    rw [View.readCov_cons_toLoadRect]
    unfold run3_A.sl.v15 run3_A.sl.H4_1
    rw [View.readCov_cons_toLoadRect]
    simp only [View.readAt_eq_ld, View.ld_unit_zero (S := S5000x1) off2_zero, View.ld_unit_zero (S := S5000x64) off2_zero]
    unfold step3_0 zero3_0; rfl
  have hO1 : arg4.view.read (Elt F) (arg4.view.writes (Elt F) f3
        [⟨Rect.unit (s := S256x1) ![0, 0] S256x1.size inb_S256x1_S256x1_0_0, run3_A.sl.v c arg1 arg6 f0⟩])
      = step3_1 (arg1.view.read (Elt F) f0) zero3_1 := by
    rw [read_writes_whole_last _ _ off2_zero]
    unfold run3_A.sl.v run3_A.sl.H5_2
    rw [View.readCov_cons_toLoadRect]
    unfold run3_A.sl.v21 run3_A.sl.H5_1
    rw [View.readCov_cons_toLoadRect]
    simp only [View.readAt_eq_ld, View.ld_unit_zero (S := S5000x1) off2_zero]
    unfold step3_1 zero3_1; rfl
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro; exact hO0
  isplitl [H3]
  · iexists _; isplitr
    swap; · iexact H3
    ipureintro; exact hO1
  isplitl [H4]
  · iexists _; isplitr
    swap; · iexact H4
    ipureintro; exact hS0
  iexists _; isplitr
  swap; · iexact H5
  ipureintro; exact hS1

set_option maxHeartbeats 1000000 in
/-- At a later point, the accumulators at what the point before left (`a0`, `a1`): one step from those. -/
theorem run3_B (c : Dev nD) (E : Set ℕ) (i : grid3.Coords)
    (arg1 : Memref sig .tc .vmem S5000x1 .i32) (harg1 : arg1.IsWhole) (arg2 : Memref sig .tc .vmem S5000x64 .f32) (harg2 : arg2.IsWhole)
    (arg3 : Memref sig .tc .vmem S256x64 .f32) (harg3 : arg3.IsWhole) (arg4 : Memref sig .tc .vmem S256x1 .f32) (harg4 : arg4.IsWhole)
    (arg5 : Memref sig .tc .vmem S256x64 .f32) (harg5 : arg5.IsWhole) (arg6 : Memref sig .tc .vmem S256x1 .f32) (harg6 : arg6.IsWhole)
    (hc : ¬cond3_0 i) (x0 : Vec F S5000x1 .i32) (x1 : Vec F S5000x64 .f32) (a0 : Vec F S256x64 .f32) (a1 : Vec F S256x1 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ owns (c : Thread nD τ) arg5 fullShare a0 ∗ owns (c : Thread nD τ) arg6 fullShare a1
        ∗ (iprop(owns (c : Thread nD τ) arg1 fullShare x0 ∗ owns (c : Thread nD τ) arg2 fullShare x1
            ∗ owns (c : Thread nD τ) arg3 fullShare (step3_0 x0 x1 a0) ∗ owns (c : Thread nD τ) arg4 fullShare (step3_1 x0 a1)
            ∗ owns (c : Thread nD τ) arg5 fullShare (step3_0 x0 x1 a0) ∗ owns (c : Thread nD τ) arg6 fullShare (step3_1 x0 a1)) -∗ K ⟨⟩))
      ⊢ wp frame (wpE (defs₀ (F := F)) Variants.none c none) E (cc3__meanpool_kernel i arg1 harg1 arg2 harg2 arg3 harg3 arg4 harg4 arg5 harg5 arg6 harg6) K := by
  simp only [cc3__meanpool_kernel_eq_skeleton]; unfold cc3__meanpool_kernel_skel
  simp only [k3_part1_eq_skeleton]
  unfold owns
  iintro ⟨⟨%f0, %hf0, H0⟩, ⟨%f1, %hf1, H1⟩, ⟨%d2, %f2, -, H2⟩, ⟨%d3, %f3, -, H3⟩, ⟨%f4, %hf4, H4⟩, ⟨%f5, %hf5, H5⟩, Hk⟩
  subst hf0; subst hf1; subst hf4; subst hf5
  sl_exec (disch := first | exact hc)
  sl_step
  -- the sums' accumulator after the step: its one store's payload, whose third operand is what the buffer held
  have hS0 : arg5.view.read (Elt F) (arg5.view.writes (Elt F) f4 (run3_B.sl.H4_1 c arg1 arg2 arg5 f0 f1 f4))
      = step3_0 (arg1.view.read (Elt F) f0) (arg2.view.read (Elt F) f1) (arg5.view.read (Elt F) f4) := by
    unfold run3_B.sl.H4_1
    rw [read_writes_whole_last _ _ off2_zero]
    simp only [View.readAt_eq_ld, View.ld_unit_zero (S := S5000x1) off2_zero, View.ld_unit_zero (S := S5000x64) off2_zero, View.ld_unit_zero (S := S256x64) off2_zero]
    unfold step3_0; rfl
  have hS1 : arg6.view.read (Elt F) (arg6.view.writes (Elt F) f5 (run3_B.sl.H5_1 c arg1 arg6 f0 f5))
      = step3_1 (arg1.view.read (Elt F) f0) (arg6.view.read (Elt F) f5) := by
    unfold run3_B.sl.H5_1
    rw [read_writes_whole_last _ _ off2_zero]
    simp only [View.readAt_eq_ld, View.ld_unit_zero (S := S5000x1) off2_zero, View.ld_unit_zero (S := S256x1) off2_zero]
    unfold step3_1; rfl
  have hO0 : arg3.view.read (Elt F) (arg3.view.writes (Elt F) f2
        [⟨Rect.unit (s := S256x64) ![0, 0] S256x64.size inb_S256x64_S256x64_0_0, run3_B.sl.v27 c arg1 arg2 arg5 f0 f1 f4⟩])
      = step3_0 (arg1.view.read (Elt F) f0) (arg2.view.read (Elt F) f1) (arg5.view.read (Elt F) f4) := by
    rw [read_writes_whole_last _ _ off2_zero]
    unfold run3_B.sl.v27 run3_B.sl.H4_1
    rw [View.readCov_cons_toLoadRect]
    simp only [View.readAt_eq_ld, View.ld_unit_zero (S := S5000x1) off2_zero, View.ld_unit_zero (S := S5000x64) off2_zero, View.ld_unit_zero (S := S256x64) off2_zero]
    unfold step3_0; rfl
  have hO1 : arg4.view.read (Elt F) (arg4.view.writes (Elt F) f3
        [⟨Rect.unit (s := S256x1) ![0, 0] S256x1.size inb_S256x1_S256x1_0_0, run3_B.sl.v c arg1 arg6 f0 f5⟩])
      = step3_1 (arg1.view.read (Elt F) f0) (arg6.view.read (Elt F) f5) := by
    rw [read_writes_whole_last _ _ off2_zero]
    unfold run3_B.sl.v run3_B.sl.H5_1
    rw [View.readCov_cons_toLoadRect]
    simp only [View.readAt_eq_ld, View.ld_unit_zero (S := S5000x1) off2_zero, View.ld_unit_zero (S := S256x1) off2_zero]
    unfold step3_1; rfl
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro; exact hO0
  isplitl [H3]
  · iexists _; isplitr
    swap; · iexact H3
    ipureintro; exact hO1
  isplitl [H4]
  · iexists _; isplitr
    swap; · iexact H4
    ipureintro; exact hS0
  iexists _; isplitr
  swap; · iexact H5
  ipureintro; exact hS1

/-! ## The body obligation, at a generic point -/

/-- What the body is called with at point `t`: the invariant, the core's debts, and each window's current staging
    buffer at what the pipeline left in it, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns: the invariant at the next position, the same debts, each buffer at what the proof data
    says the body leaves. No window is ever idle: both outputs are stored at every point. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

set_option maxHeartbeats 4800000 in
/-- The body at any point. The inputs' buffers hold their blocks; the outputs' hold anything, which is all the
    body needs of them (it overwrites each whole). At the first point the invariant hands over the accumulators at
    anything and the first case's triple applies; at a later point it hands them over at what the point before left
    and the second case's applies. Either way the accumulators come back at this point's contents, which is the
    invariant at the next position, and each output's buffer at this point's contents. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  rw [after3_0, after3_1, after3_2, after3_3]
  by_cases h0 : t.val = 0
  · rw [outsAt3_A V c t h0]
    (try dsimp only)
    rw [PhiS3_castSucc V c t, PhiS3_zero V c _ _ h0, PhiA3_eq]
    iintro ⟨⟨⟨⟨HS0, HS1⟩, HR⟩, Hg⟩, Ho, ⟨%d0, H0⟩, ⟨%d1, H1⟩, ⟨%d2, H2⟩, ⟨%d3, H3⟩⟩
    iapply (run3_A c Set.univ (grid3.coords t) _ _ _ _ _ _ _ _ _ _ _ _ ((hcond3_0 t).mpr h0) (iblk3 V c 0 t) (iblk3 V c 1 t) _)
    isplitl [H0]; · iexact H0
    isplitl [H1]; · iexact H1
    isplitl [H2]; · iexists _; iexact H2
    isplitl [H3]; · iexists _; iexact H3
    isplitl [HS0]; · iexact HS0
    isplitl [HS1]; · iexact HS1
    iintro ⟨H0, H1, H2, H3, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    iexact H3
  · rw [outsAt3_B V c t h0]
    (try dsimp only)
    rw [PhiS3_castSucc V c t, PhiS3_pos V c _ _ h0]
    iintro ⟨⟨⟨⟨HS0, HS1⟩, HR⟩, Hg⟩, Ho, ⟨%d0, H0⟩, ⟨%d1, H1⟩, ⟨%d2, H2⟩, ⟨%d3, H3⟩⟩
    iapply (run3_B c Set.univ (grid3.coords t) _ _ _ _ _ _ _ _ _ _ _ _ (fun h => h0 ((hcond3_0 t).mp h)) (iblk3 V c 0 t) (iblk3 V c 1 t) _ _ _)
    isplitl [H0]; · iexact H0
    isplitl [H1]; · iexact H1
    isplitl [H2]; · iexists _; iexact H2
    isplitl [H3]; · iexists _; iexact H3
    isplitl [HS0]; · iexact HS0
    isplitl [HS1]; · iexact HS1
    iintro ⟨H0, H1, H2, H3, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Run.lean ====
import proofs.«421031_j46042049413263_1_alg».proof.Proof.KI.Reg0
import proofs.«421031_j46042049413263_1_alg».proof.Proof.KI.Reg1
import proofs.«421031_j46042049413263_1_alg».proof.Proof.KI.Reg2
import proofs.«421031_j46042049413263_1_alg».proof.Proof.KI.Reg3
import proofs.«421031_j46042049413263_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Tactic

/-! # The run of @main over its four regions

The contents every region leaves in its output arrays, named stage by stage; the proof data of the four pipelines, each at the
contents its region is entered from; the four regions as segments over the thread state "every unscoped buffer at the boundary's
contents, the generator register at some state, nothing owed"; and the launch over the ten segments, once with the frame claim's
post and once with every unscoped buffer's final contents named. Everything is stated at any float model `F`. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents the regions leave, stage by stage

A region's exit contents are its entry contents with its arrays at what the pipeline's write-backs leave. Region `k + 1`'s entry
contents depend on what regions `0 … k` left, so the family `outs` is built in four stages: each stage knows the regions before
it, and the valuations of the generated fold read a stage only at the regions it knows. -/

/-- Region 0's entry contents, read at the TensorCore's references. -/
abbrev In0 : (c : Dev nD) → (b : Ref sig .tc) → Buf (Elt F) ((c : Thread nD τ).loc b) := fun c b => V2 m c b

/-- Region 0's exit contents: its three arrays at what the pipeline leaves, every other buffer as entered. -/
def X3 (c : Dev nD) : Valuation τ sig (Elt F) :=
  Pipeline.withArrays spec0 c (V2 m c) fun w => (dat0 (In0 m) c).arrAt w cfg0.N

/-- Stage 1: region 0 known. -/
def o3 : Outs (F := F) := fun _ r c => X3 m c (Proc.devRef .tc r)

/-- Region 1's entry contents. -/
abbrev In1 : (c : Dev nD) → (b : Ref sig .tc) → Buf (Elt F) ((c : Thread nD τ).loc b) := fun c b => V4 m (o3 m) c b

/-- Region 1's exit contents. -/
def X5 (c : Dev nD) : Valuation τ sig (Elt F) :=
  Pipeline.withArrays spec1 c (V4 m (o3 m) c) fun w => (dat1 (In1 m) c).arrAt w cfg1.N

/-- Stage 2: regions 0 and 1 known. -/
def o5 : Outs (F := F) := fun j r c =>
  match j with
  | 3 => X3 m c (Proc.devRef .tc r)
  | _ => X5 m c (Proc.devRef .tc r)

/-- Region 2's entry contents. -/
abbrev In2 : (c : Dev nD) → (b : Ref sig .tc) → Buf (Elt F) ((c : Thread nD τ).loc b) := fun c b => V6 m (o5 m) c b

/-- Region 2's exit contents. -/
def X7 (c : Dev nD) : Valuation τ sig (Elt F) :=
  Pipeline.withArrays spec2 c (V6 m (o5 m) c) fun w => (dat2 (In2 m) c).arrAt w cfg2.N

/-- Stage 3: regions 0, 1 and 2 known. -/
def o7 : Outs (F := F) := fun j r c =>
  match j with
  | 3 => X3 m c (Proc.devRef .tc r)
  | 5 => X5 m c (Proc.devRef .tc r)
  | _ => X7 m c (Proc.devRef .tc r)

/-- Region 3's entry contents. -/
abbrev In3 : (c : Dev nD) → (b : Ref sig .tc) → Buf (Elt F) ((c : Thread nD τ).loc b) := fun c b => V8 m (o7 m) c b

/-- Region 3's exit contents. -/
def X9 (c : Dev nD) : Valuation τ sig (Elt F) :=
  Pipeline.withArrays spec3 c (V8 m (o7 m) c) fun w => (dat3 (In3 m) c).arrAt w cfg3.N

/-- What every region leaves: at boundary `j` the exit contents of the region that ends there. -/
def outs : Outs (F := F) := fun j r c =>
  match j with
  | 3 => X3 m c (Proc.devRef .tc r)
  | 5 => X5 m c (Proc.devRef .tc r)
  | 7 => X7 m c (Proc.devRef .tc r)
  | _ => X9 m c (Proc.devRef .tc r)

/-! The generated fold read at `outs` is the fold read at the stage that knows the regions before the boundary: the fold reads the
family only at those regions' outputs, where the stage and `outs` are the same term. -/

theorem V4_outs (c : Dev nD) : V4 m (outs m) c = V4 m (o3 m) c := rfl
theorem V6_outs (c : Dev nD) : V6 m (outs m) c = V6 m (o5 m) c := rfl
theorem V8_outs (c : Dev nD) : V8 m (outs m) c = V8 m (o7 m) c := rfl

/-! ### A stage's exit valuation at its own arrays and off them -/

theorem X3_arr (c : Dev nD) (w : Fin cfg0.W) :
    X3 m c (Proc.devRef .tc (Pipeline.arrRef spec0 w)) = (dat0 (In0 m) c).arrAt w cfg0.N := by
  unfold X3; exact Pipeline.withArrays_arr spec0 launch0.win.arr_inj c _ _ w
theorem X5_arr (c : Dev nD) (w : Fin cfg1.W) :
    X5 m c (Proc.devRef .tc (Pipeline.arrRef spec1 w)) = (dat1 (In1 m) c).arrAt w cfg1.N := by
  unfold X5; exact Pipeline.withArrays_arr spec1 launch1.win.arr_inj c _ _ w
theorem X7_arr (c : Dev nD) (w : Fin cfg2.W) :
    X7 m c (Proc.devRef .tc (Pipeline.arrRef spec2 w)) = (dat2 (In2 m) c).arrAt w cfg2.N := by
  unfold X7; exact Pipeline.withArrays_arr spec2 launch2.win.arr_inj c _ _ w
theorem X9_arr (c : Dev nD) (w : Fin cfg3.W) :
    X9 m c (Proc.devRef .tc (Pipeline.arrRef spec3 w)) = (dat3 (In3 m) c).arrAt w cfg3.N := by
  unfold X9; exact Pipeline.withArrays_arr spec3 launch3.win.arr_inj c _ _ w

/-! ### `outs` at the five output arrays

Each is the stage's exit valuation at one of its own arrays. That valuation chooses, at a reference, the window whose array it is;
the arrays of one pipeline being distinct, the choice is that window (`X3_arr` … `X9_arr`). These are equations to rewrite
with, not unfoldings. -/

theorem outs_3 (c : Dev nD) : outs m 3 main_v15 c = (dat0 (In0 m) c).arrAt 2 cfg0.N :=
  X3_arr m c 2

theorem outs_5 (c : Dev nD) : outs m 5 main_v51 c = (dat1 (In1 m) c).arrAt 5 cfg1.N :=
  X5_arr m c 5

theorem outs_7 (c : Dev nD) : outs m 7 main_v95 c = (dat2 (In2 m) c).arrAt 10 cfg2.N :=
  X7_arr m c 10

theorem outs_9_0 (c : Dev nD) : outs m 9 main_v97_0 c = (dat3 (In3 m) c).arrAt 2 cfg3.N :=
  X9_arr m c 2

theorem outs_9_1 (c : Dev nD) : outs m 9 main_v97_1 c = (dat3 (In3 m) c).arrAt 3 cfg3.N :=
  X9_arr m c 3

/-- The same five with the entry contents written through `outs` itself. -/
theorem outs_5' (c : Dev nD) : outs m 5 main_v51 c = (dat1 (fun c b => V4 m (outs m) c b) c).arrAt 5 cfg1.N := outs_5 m c
theorem outs_7' (c : Dev nD) : outs m 7 main_v95 c = (dat2 (fun c b => V6 m (outs m) c b) c).arrAt 10 cfg2.N := outs_7 m c
theorem outs_9_0' (c : Dev nD) : outs m 9 main_v97_0 c = (dat3 (fun c b => V8 m (outs m) c b) c).arrAt 2 cfg3.N := outs_9_0 m c
theorem outs_9_1' (c : Dev nD) : outs m 9 main_v97_1 c = (dat3 (fun c b => V8 m (outs m) c b) c).arrAt 3 cfg3.N := outs_9_1 m c

/-! ## The proof data family and the thread state -/

/-- Every pipeline's proof data, each at its region's entry contents: a literal match, so that the family at a numeral is
    that region's data. -/
def pdats : (p : Fin 4) → (c : Dev nD) → Dat τ (Elt F) Unit ℕ (UR sig nD τ) ℕ (Pipeline.pin (pcfgs (F := F)) adm p) c
  | ⟨0, _⟩ => fun c => dat0 (In0 m) c
  | ⟨1, _⟩ => fun c => dat1 (In1 m) c
  | ⟨2, _⟩ => fun c => dat2 (In2 m) c
  | ⟨3, _⟩ => fun c => dat3 (In3 m) c

/-- No core owes another anything: no level is assigned. -/
abbrev L : GSem nD τ sig → Finset Unit := fun _ => ∅
abbrev lv : GSem nD τ sig → Unit → ℕ := fun _ _ => 0

/-- What rides beside the buffers through every segment: the core's generator register at some state and its dues, at nothing.
    The same at all five boundaries between regions. -/
abbrev E : Fin 5 → Dev nD → sProp 𝕄 := fun _ c =>
  iprop((∃ r, prngReg c r) ∗ ∃ W, owes (c : Thread nD τ) (0 : CellTallies nD τ sig Unit) W)

/-! ## Each region's exit contents against what its pipeline leaves

For `Pipeline.unscopedBufs_of_arrays`: the exit valuation of the generated fold has every array of the region at what the pipeline
leaves there (`hF`), and agrees with the entry contents off the arrays (`hrest`). An input window's array is never written
(`Dat.arrAt_in`), is the entry contents there (`A_eq`), and the fold's update at the outputs misses it; an output window's array is
where the fold's update lands (`Function.update_self`), at `outs`. -/

/-- The exit contents of regions 0 … 3, read at the TensorCore's references. -/
abbrev Out0 : (c : Dev nD) → (b : Ref sig .tc) → Buf (Elt F) ((c : Thread nD τ).loc b) := fun c b => V3 m (outs m) c b
abbrev Out1 : (c : Dev nD) → (b : Ref sig .tc) → Buf (Elt F) ((c : Thread nD τ).loc b) := fun c b => V5 m (outs m) c b
abbrev Out2 : (c : Dev nD) → (b : Ref sig .tc) → Buf (Elt F) ((c : Thread nD τ).loc b) := fun c b => V7 m (outs m) c b
abbrev Out3 : (c : Dev nD) → (b : Ref sig .tc) → Buf (Elt F) ((c : Thread nD τ).loc b) := fun c b => V9 m (outs m) c b

/-! ### Region 0 -/

theorem hF0_in (c : Dev nD) (w : Fin cfg0.W) (hin : (cfg0.win w).isOut = false)
    (hne : Pipeline.arrRef spec0 w ∉ ([main_v15] : List (Ref sig .tc))) :
    (dat0 (In0 m) c).arrAt w cfg0.N = Out0 m c (Pipeline.arrRef spec0 w) :=
  ((dat0 (In0 m) c).arrAt_in w hin _).trans ((A_eq0 (In0 m) c w).trans (V3_of m (outs m) c _ hne).symm)

theorem hF0 (c : Dev nD) (w : Fin cfg0.W) : (dat0 (In0 m) c).arrAt w cfg0.N = Out0 m c (Pipeline.arrRef spec0 w) := by
  by_cases hw : w = 2
  · subst hw
    exact (outs_3 m c).symm.trans
      (Function.update_self (β := fun b : DevRef τ sig => b.ty.Contents (Elt F))
        (Proc.devRef .tc main_v15) (outs m 3 main_v15 c) (V2 m c)).symm
  · exact hF0_in m c w ((by decide : ∀ w : Fin cfg0.W, w ≠ 2 → (cfg0.win w).isOut = false) w hw)
      ((by decide : ∀ w : Fin cfg0.W, w ≠ 2 → Pipeline.arrRef spec0 w ∉ ([main_v15] : List (Ref sig .tc))) w hw)

theorem hrest0 (c : Dev nD) : ∀ b, b ∉ Finset.univ.image (Pipeline.arrRef spec0) → Out0 m c b = In0 m c b :=
  fun b hb => V3_of m (outs m) c b fun h =>
    hb (Finset.mem_image.mpr ⟨2, Finset.mem_univ _, (List.mem_singleton.mp h).symm⟩)

/-! ### Region 1 -/

theorem hF1_in (c : Dev nD) (w : Fin cfg1.W) (hin : (cfg1.win w).isOut = false)
    (hne : Pipeline.arrRef spec1 w ∉ ([main_v51] : List (Ref sig .tc))) :
    (dat1 (In1 m) c).arrAt w cfg1.N = Out1 m c (Pipeline.arrRef spec1 w) :=
  ((dat1 (In1 m) c).arrAt_in w hin _).trans ((A_eq1 (In1 m) c w).trans
    ((congrFun (V4_outs m c) _).symm.trans (V5_of m (outs m) c _ hne).symm))

theorem hF1 (c : Dev nD) (w : Fin cfg1.W) : (dat1 (In1 m) c).arrAt w cfg1.N = Out1 m c (Pipeline.arrRef spec1 w) := by
  by_cases hw : w = 5
  · subst hw
    exact (outs_5 m c).symm.trans
      (Function.update_self (β := fun b : DevRef τ sig => b.ty.Contents (Elt F))
        (Proc.devRef .tc main_v51) (outs m 5 main_v51 c) (V4 m (outs m) c)).symm
  · exact hF1_in m c w ((by decide : ∀ w : Fin cfg1.W, w ≠ 5 → (cfg1.win w).isOut = false) w hw)
      ((by decide : ∀ w : Fin cfg1.W, w ≠ 5 → Pipeline.arrRef spec1 w ∉ ([main_v51] : List (Ref sig .tc))) w hw)

theorem hrest1 (c : Dev nD) : ∀ b, b ∉ Finset.univ.image (Pipeline.arrRef spec1) → Out1 m c b = In1 m c b :=
  fun b hb => (V5_of m (outs m) c b fun h =>
    hb (Finset.mem_image.mpr ⟨5, Finset.mem_univ _, (List.mem_singleton.mp h).symm⟩)).trans (congrFun (V4_outs m c) _)

/-! ### Region 2 -/

theorem hF2_in (c : Dev nD) (w : Fin cfg2.W) (hin : (cfg2.win w).isOut = false)
    (hne : Pipeline.arrRef spec2 w ∉ ([main_v95] : List (Ref sig .tc))) :
    (dat2 (In2 m) c).arrAt w cfg2.N = Out2 m c (Pipeline.arrRef spec2 w) :=
  ((dat2 (In2 m) c).arrAt_in w hin _).trans ((A_eq2 (In2 m) c w).trans
    ((congrFun (V6_outs m c) _).symm.trans (V7_of m (outs m) c _ hne).symm))

theorem hF2 (c : Dev nD) (w : Fin cfg2.W) : (dat2 (In2 m) c).arrAt w cfg2.N = Out2 m c (Pipeline.arrRef spec2 w) := by
  by_cases hw : w = 10
  · subst hw
    exact (outs_7 m c).symm.trans
      (Function.update_self (β := fun b : DevRef τ sig => b.ty.Contents (Elt F))
        (Proc.devRef .tc main_v95) (outs m 7 main_v95 c) (V6 m (outs m) c)).symm
  · exact hF2_in m c w ((by decide : ∀ w : Fin cfg2.W, w ≠ 10 → (cfg2.win w).isOut = false) w hw)
      ((by decide : ∀ w : Fin cfg2.W, w ≠ 10 → Pipeline.arrRef spec2 w ∉ ([main_v95] : List (Ref sig .tc))) w hw)

theorem hrest2 (c : Dev nD) : ∀ b, b ∉ Finset.univ.image (Pipeline.arrRef spec2) → Out2 m c b = In2 m c b :=
  fun b hb => (V7_of m (outs m) c b fun h =>
    hb (Finset.mem_image.mpr ⟨10, Finset.mem_univ _, (List.mem_singleton.mp h).symm⟩)).trans (congrFun (V6_outs m c) _)

/-! ### Region 3: two output windows, so the fold updates twice; the first update is read through the second -/

theorem hF3_in (c : Dev nD) (w : Fin cfg3.W) (hin : (cfg3.win w).isOut = false)
    (hne : Pipeline.arrRef spec3 w ∉ ([main_v97_0, main_v97_1] : List (Ref sig .tc))) :
    (dat3 (In3 m) c).arrAt w cfg3.N = Out3 m c (Pipeline.arrRef spec3 w) :=
  ((dat3 (In3 m) c).arrAt_in w hin _).trans ((A_eq3 (In3 m) c w).trans
    ((congrFun (V8_outs m c) _).symm.trans (V9_of m (outs m) c _ hne).symm))

theorem hF3 (c : Dev nD) (w : Fin cfg3.W) : (dat3 (In3 m) c).arrAt w cfg3.N = Out3 m c (Pipeline.arrRef spec3 w) := by
  by_cases hw2 : w = 2
  · subst hw2
    have h01 : (Proc.devRef .tc main_v97_0 : DevRef τ sig) ≠ Proc.devRef .tc main_v97_1 :=
      StableHlo.devRef_ne_of_ne (show main_v97_0 ≠ main_v97_1 by decide)
    exact (outs_9_0 m c).symm.trans
      ((Function.update_self (β := fun b : DevRef τ sig => b.ty.Contents (Elt F))
          (Proc.devRef .tc main_v97_0) (outs m 9 main_v97_0 c) (V8 m (outs m) c)).symm.trans
        (Function.update_of_ne (β := fun b : DevRef τ sig => b.ty.Contents (Elt F)) h01 (outs m 9 main_v97_1 c)
          (Function.update (V8 m (outs m) c) (Proc.devRef .tc main_v97_0) (outs m 9 main_v97_0 c))).symm)
  by_cases hw3 : w = 3
  · subst hw3
    exact (outs_9_1 m c).symm.trans
      (Function.update_self (β := fun b : DevRef τ sig => b.ty.Contents (Elt F))
        (Proc.devRef .tc main_v97_1) (outs m 9 main_v97_1 c)
        (Function.update (V8 m (outs m) c) (Proc.devRef .tc main_v97_0) (outs m 9 main_v97_0 c))).symm
  · exact hF3_in m c w ((by decide : ∀ w : Fin cfg3.W, w ≠ 2 → w ≠ 3 → (cfg3.win w).isOut = false) w hw2 hw3)
      ((by decide : ∀ w : Fin cfg3.W, w ≠ 2 → w ≠ 3 →
        Pipeline.arrRef spec3 w ∉ ([main_v97_0, main_v97_1] : List (Ref sig .tc))) w hw2 hw3)

theorem hrest3 (c : Dev nD) : ∀ b, b ∉ Finset.univ.image (Pipeline.arrRef spec3) → Out3 m c b = In3 m c b :=
  fun b hb => (V9_of m (outs m) c b fun h => by
    rcases List.mem_cons.mp h with e | h
    · exact hb (Finset.mem_image.mpr ⟨2, Finset.mem_univ _, e.symm⟩)
    · exact hb (Finset.mem_image.mpr ⟨3, Finset.mem_univ _, (List.mem_singleton.mp h).symm⟩)).trans (congrFun (V8_outs m c) _)

/-! ## The regions as segments

Each region is entered from every unscoped buffer at the fold's contents before it, beside the rest state, and left at the contents
after it. At entry its arrays are split out of the unscoped buffers; at exit they are put back at the exit contents (`hF`, `hrest`).
The generator register goes into the pipeline's invariant and comes back; nothing is owed; no kernel has a semaphore of its own. -/

-- a library lemma stated over the pinned configuration unifies with it only when unification may unfold plain definitions
-- in a metavariable's type
set_option backward.isDefEq.respectTransparency.types false in
/-- REGION 0, the first matmul: one control case, so its invariant is the class invariant at every point. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (In0 m) c).loose
  hwaits := Pipeline.hwaits_of_owed_zero _ _ _ _ L lv 0 fun _ _ => rfl
  pre c := iprop(StableHlo.held (c : Thread nD τ) (Pipeline.ucRefs τ sig) (V2 m c) ∗ E 0 c)
  post c := iprop(StableHlo.held (c : Thread nD τ) (Pipeline.ucRefs τ sig) (V3 m (outs m) c) ∗ E 1 c)
  X c := iprop(∃ r, prngReg c r)
  Y c := iprop(∃ r, prngReg c r)
  Z c := Pipeline.unscopedRest (Ix := Unit) (Name := ℕ) (U := UR sig nD τ) (Lvl := ℕ) spec0 c (In0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (In0 m c) fun w => A_eq0 (In0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (In0 m c) (Out0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1, batch norm, relu and the second matmul: one control case. Its entry contents are the fold's at `outs`, which is the
    fold's at the stage that knows region 0 (`V4_outs`): the proof data are stated at the latter. -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (In1 m) c).loose
  hwaits := Pipeline.hwaits_of_owed_zero _ _ _ _ L lv 1 fun _ _ => rfl
  pre c := iprop(StableHlo.held (c : Thread nD τ) (Pipeline.ucRefs τ sig) (V4 m (outs m) c) ∗ E 1 c)
  post c := iprop(StableHlo.held (c : Thread nD τ) (Pipeline.ucRefs τ sig) (V5 m (outs m) c) ∗ E 2 c)
  X c := iprop(∃ r, prngReg c r)
  Y c := iprop(∃ r, prngReg c r)
  Z c := Pipeline.unscopedRest (Ix := Unit) (Name := ℕ) (U := UR sig nD τ) (Lvl := ℕ) spec1 c (In1 m c)
  hentry c := by
    rw [Pipeline.ownSems0_none, V4_outs m c]
    have hsplit := Pipeline.arrays_of_unscopedBufs (p := 1) (pcfgs (F := F)) adm (pdats m) launch1.win launch1.arr_whole c
      ((pdats m 1 c).share_full fun _ => rfl) (In1 m c) fun w => A_eq1 (In1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (In1 m c) (Out1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2, the finalize kernel over eleven windows: one control case; entered at the fold's contents at the stage that knows
    regions 0 and 1 (`V6_outs`). -/
def reg2 : Pipeline.RegionSeg (pcfgs (F := F)) adm (pdats m) () defs₀ Variants.none L lv 2 where
  win := launch2.win.to₀
  block_pos := launch2.block_pos
  stage_whole := launch2.stage_whole
  K := PEmpty
  osem k := k.elim
  ho := Pipeline.OwnSemFacts.none _
  hbody c := (body_obligation2 (In2 m) c).loose
  hwaits := Pipeline.hwaits_of_owed_zero _ _ _ _ L lv 2 fun _ _ => rfl
  pre c := iprop(StableHlo.held (c : Thread nD τ) (Pipeline.ucRefs τ sig) (V6 m (outs m) c) ∗ E 2 c)
  post c := iprop(StableHlo.held (c : Thread nD τ) (Pipeline.ucRefs τ sig) (V7 m (outs m) c) ∗ E 3 c)
  X c := iprop(∃ r, prngReg c r)
  Y c := iprop(∃ r, prngReg c r)
  Z c := Pipeline.unscopedRest (Ix := Unit) (Name := ℕ) (U := UR sig nD τ) (Lvl := ℕ) spec2 c (In2 m c)
  hentry c := by
    rw [Pipeline.ownSems0_none, V6_outs m c]
    have hsplit := Pipeline.arrays_of_unscopedBufs (p := 2) (pcfgs (F := F)) adm (pdats m) launch2.win launch2.arr_whole c
      ((pdats m 2 c).share_full fun _ => rfl) (In2 m c) fun w => A_eq2 (In2 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (In2 m c) (Out2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3, the mean pool: a sequential grid with two scratch buffers carried from point to point, so its invariant is not the
    class invariant. The class invariant is what the segment's protocol makes from the register and the scoped buffers and takes
    apart again; `hin3` carries it into the region's invariant at the first point and `hout3` back from the one at the last. -/
def reg3 : Pipeline.RegionSeg (pcfgs (F := F)) adm (pdats m) () defs₀ Variants.none L lv 3 where
  win := launch3.win.to₀
  block_pos := launch3.block_pos
  stage_whole := launch3.stage_whole
  K := PEmpty
  osem k := k.elim
  ho := Pipeline.OwnSemFacts.none _
  hbody c := (body_obligation3 (In3 m) c).loose
  hwaits := Pipeline.hwaits_of_owed_zero _ _ _ _ L lv 3 fun _ _ => rfl
  pre c := iprop(StableHlo.held (c : Thread nD τ) (Pipeline.ucRefs τ sig) (V8 m (outs m) c) ∗ E 3 c)
  post c := iprop(StableHlo.held (c : Thread nD τ) (Pipeline.ucRefs τ sig) (V9 m (outs m) c) ∗ E 4 c)
  X c := iprop(∃ r, prngReg c r)
  Y c := iprop(∃ r, prngReg c r)
  Z c := Pipeline.unscopedRest (Ix := Unit) (Name := ℕ) (U := UR sig nD τ) (Lvl := ℕ) spec3 c (In3 m c)
  hentry c := by
    rw [Pipeline.ownSems0_none, V8_outs m c]
    have hsplit := Pipeline.arrays_of_unscopedBufs (p := 3) (pcfgs (F := F)) adm (pdats m) launch3.win launch3.arr_whole c
      ((pdats m 3 c).share_full fun _ => rfl) (In3 m c) fun w => A_eq3 (In3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = (dat3 (In3 m) c).Φ 0 from rfl]
    iintro ⟨Hp, -, Hr⟩
    iapply (hin3 (In3 m) c)
    unfold Pipeline.ΦA
    isplitl [Hr]; · iexact Hr
    iexact Hp
  hout c := by
    rw [Pipeline.ownSems0_none, show (pdats m 3 c).Φ (Fin.last _) = (dat3 (In3 m) c).Φ (Fin.last cfg3.N) from rfl]
    iintro H
    ihave H' := (hout3 (In3 m) c) $$ H
    unfold Pipeline.ΦA
    icases H' with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (In3 m c) (Out3 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- The launch element: the pipeline library's, at every pipeline's staging cells. -/
abbrev u₀ : UR sig nD τ := initOf (Pipeline.cells cfgs cellOf_inj) (Pipeline.launchToks cfgs cellOf_inj)

/-- The launch element is the pipeline library's element through the one-component embedding; no core has a ghost resource. -/
theorem hu₀ : (ownU (u₀ : UR sig nD τ) : sProp 𝕄)
    ⊢ |={Set.univ}=> iprop(BI.own (emb₁ (initOf (Pipeline.cells cfgs cellOf_inj) (Pipeline.launchToks cfgs cellOf_inj)))
        ∗ bigSep Finset.univ fun _ : Dev nD => (iprop(emp) : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- The last rest state owes nothing. -/
theorem hE4 (c : Dev nD) :
    (E 4 c : sProp 𝕄) ⊢ iprop(∃ W, owes (c : Thread nD τ) (0 : CellTallies nD τ sig Unit) W) := by
  iintro ⟨-, HO⟩; iexact HO

-- the conditional frame's implicit arguments are found by unifying its hypotheses with the records, which takes unfolding plain
-- definitions in a metavariable's type
set_option backward.isDefEq.respectTransparency.types false in
/-- THE FRAME at any `F`: from any memory with zero counters every weakly fair execution of @main terminates and every final memory
    holds each argument as launched. The conditional frame of the generated fold at the four records: each record's `pre` and `post`
    are the fold's thread states by definition; the rest state is made per core from what the launch deals (the register at its
    launch state, the dues at nothing) and ends owing nothing. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_cond m emb₁ () Variants.none L lv (fun _ _ => rfl) ρ (outs m) (pdats m) 0 (fun _ => iprop(emp)) u₀ hu₀ E
    (Pipeline.initEach L lv fun c => by
      iintro ⟨⟨-, HO, -, Hp, -⟩, -⟩
      imodintro
      isplitl [Hp]; · iexists _; iexact Hp
      iexists ∅; iexact HO)
    (hE4 (F := F))
    (reg0 m) (fun _ => .rfl) (fun _ => .rfl)
    (reg1 m) (fun _ => .rfl) (fun _ => .rfl)
    (reg2 m) (fun _ => .rfl) (fun _ => .rfl)
    (reg3 m) (fun _ => .rfl) (fun _ => .rfl)

-- the launch's implicit arguments are found by unifying its conclusion with this one, which takes unfolding plain definitions
-- in a metavariable's type
set_option backward.isDefEq.respectTransparency.types false in
/-- THE RUN with every final buffer named: every weakly fair execution of @main terminates, and in every final memory each
    unscoped buffer of each core holds the last valuation of the generated fold, read at `outs`. The launch over the ten segments:
    @main is their chain; the thread states chain by definition; the first is made per core from what the launch deals; the last
    is read against the final state buffer by buffer. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = V10 m (outs m) c b) := by
  refine Pipeline.θ_run_regions_kit_dev (pcfgs (F := F)) adm (pdats m) () cellOf_inj emb₁ defs₀ Variants.none L lv m ρ main
    (segs m (outs m) Variants.none L lv E () (pdats m) (reg0 m) (reg1 m) (reg2 m) (reg3 m))
    (fun c Q => by
      rewrite [main_chain c, Seg.run_eq_chain,
        show (segs m (outs m) Variants.none L lv E () (pdats m) (reg0 m) (reg1 m) (reg2 m) (reg3 m) c).map Seg.prog = [
          StableHlo.seq hostOps0,
          StableHlo.seq hostOps0_1,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      exact .rfl)
    (fun c => by simp only [segs, Seg.pipes_host, Seg.pipes_region, Seg.pipes_nil]; decide)
    0 (fun _ _ => rfl) (fun _ => iprop(emp)) u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V10 m (outs m) c))
    (hch := fun c => ⟨.rfl, .rfl, .rfl, .rfl, .rfl, .rfl, .rfl, .rfl, .rfl, .rfl, sep_mono .rfl (hE4 c)⟩)
    (hinit := ?_)
    (QY := fun c s => ∀ b ∈ Pipeline.ucRefs τ sig, s.mem ((c : Thread nD τ).1, b) = V10 m (outs m) c b)
    (hfin := fun c s' => ?_) (hQ := fun _ h => h)
  · -- the launch, per core: the unscoped buffers are held at the launch memory, the register and the dues make the rest state
    refine Pipeline.initEach L lv fun c => ?_
    rw [show unscopedBufs c (fun b => m ((c : Thread nD τ).loc b))
        = StableHlo.held (c : Thread nD τ) (Pipeline.ucRefs τ sig) (V0 m c) from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: every held buffer read against the final state
    iintro ⟨Hh, HSI⟩
    unfold StableHlo.held
    imodintro
    iapply (pointsTo_read_all (Pipeline.ucRefs τ sig) (fun b => ((c : Thread nD τ).1, b)) (V10 m (outs m) c) s')
    isplitl [Hh] <;> iassumption

end Cert.KernelIdeal.Hand

end
-- ==== Proof.K.Reg0.lean ====
/- Region 0 of @main (the first matrix product, o = x · w with both factors cast to bf16), at the contents
   `V` its arrays hold when the region is entered, for any float model `F`:
   each window's block at a grid point, what one run of the body leaves in the output window's buffer,
   the body's triple, the pipeline's proof data, and the body obligation at every grid point. -/
import proofs.«421031_j46042049413263_1_alg».proof.Proof.Gen.Kernel.Launch
import proofs.«421031_j46042049413263_1_alg».proof.Proof.Gen.Kernel.Skeleton
import proofs.«421031_j46042049413263_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with an axis of 5000 rows is decided coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`: the rows 5000·t … 5000·t+4999 of x (window 0) or of the output
    (window 2), all of w (window 1), read off the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x window's buffer holds its block at every grid point: it is fetched at every point, the block is whole
    (100000 = 20 · 5000, nothing is cut off), and the body leaves it as it was. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The w window's buffer holds all of w at every grid point although it is fetched at the first point only: its
    block index never moves, so at an unfetched point the buffer still holds the previous point's block, which
    is this point's, and the body leaves it as it was. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read or written whole -/

abbrev r0_0 : Rect S5000x128 := Rect.unit (s := S5000x128) ![0, 0] S5000x128.size inb_S5000x128_S5000x128_0_0
abbrev r0_1 : Rect S128x64 := Rect.unit (s := S128x64) ![0, 0] S128x64.size inb_S128x64_S128x64_0_0
abbrev r0_2 : Rect S5000x64 := Rect.unit (s := S5000x64) ![0, 0] S5000x64.size inb_S5000x64_S5000x64_0_0

/-! ## What the body leaves in the output window's buffer -/

/-- The output buffer after the body, from the x block `x0` and from `x1` = w: one store of the whole 5000 × 64
    buffer, whose value is the matrix product of the two factors cast to bf16, accumulated onto zero. -/
def out0_2 (x0 : Vec F S5000x128 .f32) (x1 : Vec F S128x64 .f32) : Vec F S5000x64 .f32 :=
  View.canon [⟨r0_2, k0_pay1 (View.ld x0 r0_0) (View.ld x1 r0_1)⟩]

/-- The one store is of the whole buffer, so every index of the buffer lies in it. -/
theorem cover0_2 (p0 : Vec F S5000x64 .f32) (y : S5000x64.Idx) :
    ∃ pc ∈ ([⟨r0_2, p0⟩] : List (View.Piece (Elt F) S5000x64 .f32)), y ∈ pc.1.set :=
  View.cover_of_tiled [⟨r0_2, p0⟩] S5000x64.size (by rfl) y

/-! ## The body's triple -/

set_option maxHeartbeats 1000000 in
/-- The body on whole buffers — x's at `x0`, w's at `x1`, the output's at anything — runs to the continuation with
    the two inputs' buffers as they were and the output's at `out0_2 x0 x1`: three whole loads (the third, of the
    output buffer, is read and dropped) and one whole store. The grid coordinate is not used by the body. -/
theorem sound_kernel0 (c : Dev nD) (E : Set ℕ) (i : grid0.Coords)
    (arg1 : Memref sig .tc .vmem S5000x128 .f32) (harg1 : arg1.IsWhole) (arg2 : Memref sig .tc .vmem S128x64 .f32) (harg2 : arg2.IsWhole)
    (arg3 : Memref sig .tc .vmem S5000x64 .f32) (harg3 : arg3.IsWhole)
    (x0 : Vec F S5000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them; after the body at point `t` the
    x and w buffers at their blocks and the output buffer at `out0_2` of the two; the invariant is the untouched
    scoped rest with the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's buffer holds its block at every grid point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic grid point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every grid point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
import proofs.«421031_j46042049413263_1_alg».proof.Proof.Gen.Kernel.Launch
import proofs.«421031_j46042049413263_1_alg».proof.Proof.Gen.Kernel.Skeleton
import proofs.«421031_j46042049413263_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 1: normalise, rectify, multiply

The second pipeline of the program. At each of its 20 points the body reads a 5000 x 64 block `h` of the
activations, three 1 x 64 rows `b`, `scale`, `beta` and a 64 x 64 matrix `w`, and stores
`dot (bf16 (max ((h + b) * scale + beta) 0)) (bf16 w)` over the whole 5000 x 64 output block.

Everything is stated at a parameter `V`: the contents of the core's buffers when the region is entered.
The rows and the matrix are moved into their staging buffers at the first point only; their block index never
moves, so the body finds the same block at every point.
-/

-- membership in a rectangle with an axis of length 5000 is decided coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the activations' block) holds its block in its current staging buffer at every point, moved there at
    that point or not, for any proof data whose array is `V`'s and whose body leaves the block in place: where it
    was not moved the block index has not changed since the point before; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the row b) holds its block in its current staging buffer at every point, moved there at
    that point or not, for any proof data whose array is `V`'s and whose body leaves the block in place: where it
    was not moved the block index has not changed since the point before; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the row scale) holds its block in its current staging buffer at every point, moved there at
    that point or not, for any proof data whose array is `V`'s and whose body leaves the block in place: where it
    was not moved the block index has not changed since the point before; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 (the row beta) holds its block in its current staging buffer at every point, moved there at
    that point or not, for any proof data whose array is `V`'s and whose body leaves the block in place: where it
    was not moved the block index has not changed since the point before; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4 (the matrix w) holds its block in its current staging buffer at every point, moved there at
    that point or not, for any proof data whose array is `V`'s and whose body leaves the block in place: where it
    was not moved the block index has not changed since the point before; the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole 5000 x 64 block, the whole 1 x 64 row, the whole 64 x 64 matrix. -/
abbrev r1_0 : Rect S5000x64 := Rect.unit (s := S5000x64) ![0, 0] S5000x64.size inb_S5000x64_S5000x64_0_0
abbrev r1_1 : Rect S1x64 := Rect.unit (s := S1x64) ![0, 0] S1x64.size inb_S1x64_S1x64_0_0
abbrev r1_2 : Rect S64x64 := Rect.unit (s := S64x64) ![0, 0] S64x64.size inb_S64x64_S64x64_0_0

/-! ## What the body leaves in the output window's buffer -/

/-- Window 5's staging buffer after the body, from the five input blocks: one store over the whole block, of
    the product of the rectified, normalised activations with the matrix, both rounded to bf16. -/
def out1_5 (x0 : Vec F S5000x64 .f32) (x1 : Vec F S1x64 .f32) (x2 : Vec F S1x64 .f32) (x3 : Vec F S1x64 .f32) (x4 : Vec F S64x64 .f32) : Vec F S5000x64 .f32 :=
  View.canon [⟨r1_0, k1_pay1 (View.ld x0 r1_0) (View.ld x1 r1_1) (View.ld x2 r1_1) (View.ld x3 r1_1) (View.ld x4 r1_2)⟩]

/-- The one store is over the whole block, so it covers it. -/
theorem cover1_5 (p0 : Vec F S5000x64 .f32) (y : S5000x64.Idx) :
    ∃ pc ∈ ([⟨r1_0, p0⟩] : List (View.Piece (Elt F) S5000x64 .f32)), y ∈ pc.1.set :=
  View.cover_of_tiled [⟨r1_0, p0⟩] S5000x64.size (by rfl) y

/-! ## The body's triple -/

set_option maxHeartbeats 1000000 in
/-- The body on whole staging buffers — the five inputs' at contents `x0 … x4`, the output's at anything — runs to
    a state in which the inputs' are as they were and the output's holds `out1_5 x0 … x4`: five loads of the
    inputs, a load of the output that is not used, one store over the whole output block. -/
theorem sound_kernel1 (c : Dev nD) (E : Set ℕ) (i : grid1.Coords)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S5000x64 .f32) (harg6 : arg6.IsWhole)
    (x0 : Vec F S5000x64 .f32) (x1 : Vec F S1x64 .f32) (x2 : Vec F S1x64 .f32) (x3 : Vec F S1x64 .f32) (x4 : Vec F S64x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E
          (cc1__post_bn_relu_matmul_kernel i arg1 harg1 arg2 harg2 arg3 harg3 arg4 harg4 arg5 harg5 arg6 harg6) K := by
  simp only [cc1__post_bn_relu_matmul_kernel_eq_skeleton]; unfold cc1__post_bn_relu_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of the pipeline on core `c`: the arrays as the region finds them; after the body at point `t`
    each input's buffer at its block and the output's at `out1_5` of the five input blocks; the invariant is the
    untouched rest of the core's state; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the contents at the region's entry. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`: the invariant, what the core owes, and each window's current
    staging buffer at what the pipeline has put there, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
import proofs.«421031_j46042049413263_1_alg».proof.Proof.Gen.Kernel.Launch
import proofs.«421031_j46042049413263_1_alg».proof.Proof.Gen.Kernel.Skeleton
import proofs.«421031_j46042049413263_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 2: the finalize call, on a grid of 50 row blocks

Ten inputs (a 2000x64 row block of the activations, three 1x64 rows, a 64x64 weight, three more
1x64 rows, a second 64x64 weight, a last 1x64 row) and one output, the 2000x64 row block of the
result.  Every point of the grid runs the same straight-line body: it reads each input buffer whole,
and writes the output buffer whole, once.  So the region has one control case, and what it leaves in
the output block at a point is one function of the ten input blocks at that point.

Everything is stated for an arbitrary float type, and at arbitrary contents of the buffers when the
region is entered.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of every buffer of the core when the region is entered
variable (V : (c : Dev nD) → (b : Ref sig .tc) → Buf (Elt F) ((c : Thread nD τ).loc b))

/-! ## The windows' blocks -/

/-- The block of window `w` at point `t`, read off the window's array at the entry contents. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's buffer holds the window's block at every point, whether the block was fetched
at that point or at an earlier one: where it is not fetched its block index has not moved, and the
body leaves an input's buffer as it found it.  Window 0's block index moves at every point; windows
1 to 9 are whole arrays, fetched once, at the first point. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer is read, or written, whole -/

/-- The whole of a 2000x64 buffer. -/
abbrev r2_0 : Rect S2000x64 := Rect.unit (s := S2000x64) ![0, 0] S2000x64.size inb_S2000x64_S2000x64_0_0
/-- The whole of a 1x64 buffer. -/
abbrev r2_1 : Rect S1x64 := Rect.unit (s := S1x64) ![0, 0] S1x64.size inb_S1x64_S1x64_0_0
/-- The whole of a 64x64 buffer. -/
abbrev r2_2 : Rect S64x64 := Rect.unit (s := S64x64) ![0, 0] S64x64.size inb_S64x64_S64x64_0_0

/-! ## What the body leaves in the output buffer -/

/-- The output buffer after the body, as a function of the ten input blocks.  With
`h = relu ((x0 + x1) * x2 + x3)` and `g = relu ((h · x4 + x5) * x6 + x7)` (the products taken on
operands rounded to the short float type, the rows broadcast along the 2000 rows), the value stored
is `e / max (sqrt (Σ_j e²)) 1e-12` row by row, where `e = g · x8 + x9`: one store, of the whole buffer. -/
def out2_10 (x0 : Vec F S2000x64 .f32) (x1 : Vec F S1x64 .f32) (x2 : Vec F S1x64 .f32) (x3 : Vec F S1x64 .f32) (x4 : Vec F S64x64 .f32)
    (x5 : Vec F S1x64 .f32) (x6 : Vec F S1x64 .f32) (x7 : Vec F S1x64 .f32) (x8 : Vec F S64x64 .f32) (x9 : Vec F S1x64 .f32) : Vec F S2000x64 .f32 :=
  View.canon [⟨r2_0, k2_pay1
    (k2_pay2 (View.ld x0 r2_0) (View.ld x1 r2_1) (View.ld x2 r2_1) (View.ld x3 r2_1) (View.ld x4 r2_2) (View.ld x5 r2_1) (View.ld x6 r2_1) (View.ld x7 r2_1))
    (k2_pay3 (View.ld x8 r2_2))
    (constant S2000x64 .f32 0x00000000#32)
    (View.ld x9 r2_1)⟩]

/-- The one store is of the whole buffer, so it covers every index. -/
theorem cover2_10 (p0 : Vec F S2000x64 .f32) (y : S2000x64.Idx) :
    ∃ pc ∈ ([⟨r2_0, p0⟩] : List (View.Piece (Elt F) S2000x64 .f32)), y ∈ pc.1.set :=
  View.cover_of_tiled [⟨r2_0, p0⟩] S2000x64.size (by rfl) y

/-! ## The body's triple -/

set_option maxHeartbeats 1000000 in
/-- The body, run on eleven whole buffers of which the first ten hold `x0 … x9` and the last
anything, ends with the first ten as they were and the last at `out2_10 x0 … x9`. -/
theorem sound_kernel2 (c : Dev nD) (E : Set ℕ) (i : grid2.Coords)
    (arg1 : Memref sig .tc .vmem S2000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S1x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S64x64 .f32) (harg9 : arg9.IsWhole) (arg10 : Memref sig .tc .vmem S1x64 .f32) (harg10 : arg10.IsWhole)
    (arg11 : Memref sig .tc .vmem S2000x64 .f32) (harg11 : arg11.IsWhole)
    (x0 : Vec F S2000x64 .f32) (x1 : Vec F S1x64 .f32) (x2 : Vec F S1x64 .f32) (x3 : Vec F S1x64 .f32) (x4 : Vec F S64x64 .f32)
    (x5 : Vec F S1x64 .f32) (x6 : Vec F S1x64 .f32) (x7 : Vec F S1x64 .f32) (x8 : Vec F S64x64 .f32) (x9 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9
            ∗ owns (c : Thread nD τ) arg11 fullShare (out2_10 x0 x1 x2 x3 x4 x5 x6 x7 x8 x9)) -∗ K ⟨⟩))
      ⊢ wp frame (wpE (defs₀ (F := F)) Variants.none c none) E
          (cc2__finalize_kernel i arg1 harg1 arg2 harg2 arg3 harg3 arg4 harg4 arg5 harg5 arg6 harg6 arg7 harg7 arg8 harg8 arg9 harg9 arg10 harg10 arg11 harg11) K := by
  simp only [cc2__finalize_kernel_eq_skeleton]; unfold cc2__finalize_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  try dsimp only
  exact View.read_writes_eq_canon _ _ _ (cover2_10 _)

/-! ## The pipeline's proof data -/

/-- The proof data of the region on core `c`: the arrays at the entry contents; after the body at point
`t` each input's buffer at its block and the output's at `out2_10` of the ten input blocks; the
invariant is the rest of the core's memory, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => out2_10 (iblk2 V c 0 t) (iblk2 V c 1 t) (iblk2 V c 2 t) (iblk2 V c 3 t) (iblk2 V c 4 t)
        (iblk2 V c 5 t) (iblk2 V c 6 t) (iblk2 V c 7 t) (iblk2 V c 8 t) (iblk2 V c 9 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-! What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t =
    out2_10 (iblk2 V c 0 t) (iblk2 V c 1 t) (iblk2 V c 2 t) (iblk2 V c 3 t) (iblk2 V c 4 t)
      (iblk2 V c 5 t) (iblk2 V c 6 t) (iblk2 V c 7 t) (iblk2 V c 8 t) (iblk2 V c 9 t) := by dsimp only [dat2]

/-! Each input's buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d

/-! ## The body obligation, at a generic point -/

/-- What the body is called with at point `t`: the invariant, the core's debt, and each window's current
buffer, an input's at its block and the output's at what the previous points left there, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d)))

/-- and what it returns: the same, each buffer at what the body leaves in it. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t))

set_option maxHeartbeats 1000000 in
/-- The body at any point: the inputs' buffers hold their blocks, so the body's triple applies; the
invariant and the core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel2 c Set.univ _ _ _ _ _ _ _ _ _ _ _ _ _ _ _ _ _ _ _ _ _ _ _
    (iblk2 V c 0 t) (iblk2 V c 1 t) (iblk2 V c 2 t) (iblk2 V c 3 t) (iblk2 V c 4 t)
    (iblk2 V c 5 t) (iblk2 V c 6 t) (iblk2 V c 7 t) (iblk2 V c 8 t) (iblk2 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body obligation of the region, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Reg3.lean ====
/- Region 3 of @main (the readout's two segment sums: for each of the 256 graphs, the sum of the embedding rows
   whose graph id is that graph, and the number of such rows), at the contents `V` its arrays hold when the
   region is entered, for any float model `F`.
   The 20 grid points run in order over blocks of 5000 rows. Two accumulators live in scratch between the points:
   at the first point both are set to zero; at every point the block's one-hot matrix (row r, column g is 1 when
   row r's graph id is g) transposed times the block's rows is added to the first, and transposed times a column of
   ones to the second; and at every point both outputs are stored from the accumulators. So after point n the
   outputs and the accumulators hold the sums over the blocks 0 … n.
   Here: each window's block at a grid point, one step of the accumulation, what the four buffers hold after each
   point (by recursion on the point), the invariant that carries the accumulators between points, the body's triple
   in its two cases (first point / later point), the pipeline's proof data, and the body obligation. -/
import proofs.«421031_j46042049413263_1_alg».proof.Proof.Gen.Kernel.Launch
import proofs.«421031_j46042049413263_1_alg».proof.Proof.Gen.Kernel.Skeleton
import proofs.«421031_j46042049413263_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership in a rectangle with an axis of 5000 rows is decided coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`: rows 5000·t … 5000·t+4999 of the graph ids (window 0) or of the
    embedding (window 1), all of an output (windows 2, 3), read off the array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window is fetched at every point and its block lies inside its array, so for any proof data whose
    array is `V`'s and whose body leaves the block in place the current staging buffer holds the block. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's one condition: is this the first point? -/

/-- The condition of the body's conditional, from the grid coordinate: i = 0, as the comparison chain computes it. -/
abbrev cond3_0 (i : grid3.Coords) : Prop := (Scalar.cmpi .ne (Scalar.extui (Scalar.cmpi .eq (BitVec.ofNat 32 (i 0).val) 0#32)) 0#32) = 1#1

/-- It holds at the first point only: decided over the 20 points. -/
theorem hcond3_0 : ∀ t : Fin cfg3.N, cond3_0 (grid3.coords t) ↔ t.val = 0 :=
  (by decide +kernel : ∀ t : Fin grid3.N, cond3_0 (grid3.coords t) ↔ t.val = 0)

/-! ## One step of the accumulation -/

/-- The accumulators' starting values: all zeros. -/
def zero3_0 : Vec F S256x64 .f32 := k3_pay1 (F := F)
def zero3_1 : Vec F S256x1 .f32 := k3_pay2 (F := F)

/-- The sums after one more block: `a + onehot(b)ᵀ · bf16(e)`, for the block's graph ids `b` and rows `e`. -/
def step3_0 (b : Vec F S5000x1 .i32) (e : Vec F S5000x64 .f32) (a : Vec F S256x64 .f32) : Vec F S256x64 .f32 := k3_pay4 b e a
/-- The counts after one more block: `a + onehot(b)ᵀ · 1`. -/
def step3_1 (b : Vec F S5000x1 .i32) (a : Vec F S256x1 .f32) : Vec F S256x1 .f32 := k3_pay5 b a

/-! ## What the buffers hold after each point -/

/-- After the body at point `n`: (window 2's buffer, window 3's buffer, the sums' accumulator, the counts'
    accumulator). At point 0 one step from zero; at point n + 1 one step from the accumulators point n left. Each
    output's buffer is a copy of its accumulator. -/
def outsAt3 (c : Dev nD) : (n : ℕ) → n < cfg3.N → Vec F S256x64 .f32 × Vec F S256x1 .f32 × Vec F S256x64 .f32 × Vec F S256x1 .f32
  | 0, hn =>
    (step3_0 (iblk3 V c 0 ⟨0, hn⟩) (iblk3 V c 1 ⟨0, hn⟩) zero3_0, step3_1 (iblk3 V c 0 ⟨0, hn⟩) zero3_1,
     step3_0 (iblk3 V c 0 ⟨0, hn⟩) (iblk3 V c 1 ⟨0, hn⟩) zero3_0, step3_1 (iblk3 V c 0 ⟨0, hn⟩) zero3_1)
  | n + 1, hn =>
    (step3_0 (iblk3 V c 0 ⟨n + 1, hn⟩) (iblk3 V c 1 ⟨n + 1, hn⟩) (outsAt3 c n (Nat.lt_of_succ_lt hn)).2.2.1,
     step3_1 (iblk3 V c 0 ⟨n + 1, hn⟩) (outsAt3 c n (Nat.lt_of_succ_lt hn)).2.2.2,
     step3_0 (iblk3 V c 0 ⟨n + 1, hn⟩) (iblk3 V c 1 ⟨n + 1, hn⟩) (outsAt3 c n (Nat.lt_of_succ_lt hn)).2.2.1,
     step3_1 (iblk3 V c 0 ⟨n + 1, hn⟩) (outsAt3 c n (Nat.lt_of_succ_lt hn)).2.2.2)

/-- `outsAt3` at the first point. -/
theorem outsAt3_A (c : Dev nD) (t : Fin cfg3.N) (h0 : t.val = 0) :
    outsAt3 V c t.val t.isLt =
      (step3_0 (iblk3 V c 0 t) (iblk3 V c 1 t) zero3_0, step3_1 (iblk3 V c 0 t) zero3_1,
       step3_0 (iblk3 V c 0 t) (iblk3 V c 1 t) zero3_0, step3_1 (iblk3 V c 0 t) zero3_1) := by
  obtain ⟨n, hn⟩ := t
  cases n with
  | zero => rfl
  | succ n => exact absurd h0 (Nat.succ_ne_zero n)

/-- `outsAt3` at a later point, from what the point before left. -/
theorem outsAt3_B (c : Dev nD) (t : Fin cfg3.N) (h0 : ¬t.val = 0) :
    outsAt3 V c t.val t.isLt =
      (step3_0 (iblk3 V c 0 t) (iblk3 V c 1 t) (outsAt3 V c (t.val - 1) (Nat.lt_of_le_of_lt (Nat.sub_le _ _) t.isLt)).2.2.1,
       step3_1 (iblk3 V c 0 t) (outsAt3 V c (t.val - 1) (Nat.lt_of_le_of_lt (Nat.sub_le _ _) t.isLt)).2.2.2,
       step3_0 (iblk3 V c 0 t) (iblk3 V c 1 t) (outsAt3 V c (t.val - 1) (Nat.lt_of_le_of_lt (Nat.sub_le _ _) t.isLt)).2.2.1,
       step3_1 (iblk3 V c 0 t) (outsAt3 V c (t.val - 1) (Nat.lt_of_le_of_lt (Nat.sub_le _ _) t.isLt)).2.2.2) := by
  obtain ⟨n, hn⟩ := t
  cases n with
  | zero => exact absurd rfl h0
  | succ n => rfl

/-! ## The invariant that carries the accumulators -/

/-- The two accumulators as whole memrefs. -/
abbrev scM3_0 : Memref sig .tc .vmem S256x64 .f32 := Memref.whole cc3_scratch0
abbrev scM3_1 : Memref sig .tc .vmem S256x1 .f32 := Memref.whole cc3_scratch1

/-- The other scoped buffers of the core (other calls' staging and scratch), never opened here. -/
abbrev rest3 (c : Dev nD) : sProp 𝕄 :=
  Pipeline.scopedRestBut (Ix := Unit) (Name := ℕ) (U := UR sig nD τ) (Lvl := ℕ) (Val := Elt F) spec3 c [cc3_scratch0, cc3_scratch1]

/-- What the launch hands the region, with the two accumulators split off as memrefs owned at some contents. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d)) ∗ rest3 (F := F) c) ∗ (∃ r, prngReg c r)) := by
  unfold Pipeline.ΦA; rw [scopedRest3_split]; simp only [scM3_0, scM3_1, owns_whole]; try rfl

/-- The invariant before position `n`: before the first point what the launch hands over (the accumulators at
    anything); afterwards the same with each accumulator at what the point before left in it. -/
def PhiS3 (c : Dev nD) : (n : ℕ) → n ≤ cfg3.N → sProp 𝕄
  | 0, _ => Pipeline.ΦA spec3 c
  | n + 1, hn => iprop(iprop(iprop(owns (c : Thread nD τ) scM3_0 fullShare (outsAt3 V c n hn).2.2.1 ∗ owns (c : Thread nD τ) scM3_1 fullShare (outsAt3 V c n hn).2.2.2) ∗ rest3 (F := F) c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(iprop(owns (c : Thread nD τ) scM3_0 fullShare (outsAt3 V c n hn).2.2.1 ∗ owns (c : Thread nD τ) scM3_1 fullShare (outsAt3 V c n hn).2.2.2) ∗ rest3 (F := F) c) ∗ (∃ r, prngReg c r)) := rfl

theorem PhiS3_pos (c : Dev nD) (n : ℕ) (h : n ≤ cfg3.N) (hz : n ≠ 0) :
    PhiS3 V c n h = iprop(iprop(iprop(owns (c : Thread nD τ) scM3_0 fullShare (outsAt3 V c (n - 1) (by omega)).2.2.1 ∗ owns (c : Thread nD τ) scM3_1 fullShare (outsAt3 V c (n - 1) (by omega)).2.2.2) ∗ rest3 (F := F) c) ∗ (∃ r, prngReg c r)) := by
  cases n with
  | zero => exact absurd rfl hz
  | succ n => rfl

/-! ## The pipeline's proof data -/

/-- The proof data of pipeline 3 on core `c`: the arrays as the region finds them; after the body at point `t`
    each input's buffer at its block and each output's at `outsAt3`'s component; the invariant `PhiS3`; nothing
    owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
    | ⟨3, _⟩ => (outsAt3 V c t.val t.isLt).2.1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t.val t.isLt).1 := by dsimp only [dat3]
theorem after3_3 (c : Dev nD) (t : Fin cfg3.N) : (dat3 V c).after 3 t = (outsAt3 V c t.val t.isLt).2.1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point the invariant gives back what the launch handed over: the accumulators' contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

theorem hout3 (c : Dev nD) : (dat3 V c).Φ (Fin.last cfg3.N) ⊢ Pipeline.ΦA spec3 c :=
  Phi_out3 V c _ (by rw [Fin.val_last]; have : cfg3.N = 20 := N_3; omega)

/-! ## The body's triple, in its two cases -/

/-- The offsets `![0, 0]` are zero on both axes. -/
theorem off2_zero : (![0, 0] : Fin 2 → ℕ) = fun _ => 0 := by
  funext a; fin_cases a <;> rfl

/-- A buffer whose last store went through the whole-shape rectangle at zero offsets reads that store's payload,
    whatever it held and whatever was stored before. -/
theorem read_writes_whole_last {sg : RefSig} {κ : Kind} {sp : Space} {S : Shape} {e : EltTy} (v : View sg κ sp S e)
    (f : v.ty.Contents (Elt F)) {off : Fin S.rank → ℕ} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩), View.canon_cons_unit_zero h]

set_option maxHeartbeats 1000000 in
/-- At the first point, on whole memrefs — the inputs' at their blocks `x0`, `x1`, the outputs' and the
    accumulators' at anything — the body runs to the continuation holding the inputs' as they were and, in each
    output and each accumulator, one step from zero: the accumulators are zeroed, read back, increased and stored,
    and each output is stored from its accumulator's read-back. -/
theorem run3_A (c : Dev nD) (E : Set ℕ) (i : grid3.Coords)
    (arg1 : Memref sig .tc .vmem S5000x1 .i32) (harg1 : arg1.IsWhole) (arg2 : Memref sig .tc .vmem S5000x64 .f32) (harg2 : arg2.IsWhole)
    (arg3 : Memref sig .tc .vmem S256x64 .f32) (harg3 : arg3.IsWhole) (arg4 : Memref sig .tc .vmem S256x1 .f32) (harg4 : arg4.IsWhole)
    (arg5 : Memref sig .tc .vmem S256x64 .f32) (harg5 : arg5.IsWhole) (arg6 : Memref sig .tc .vmem S256x1 .f32) (harg6 : arg6.IsWhole)
    (hc : cond3_0 i) (x0 : Vec F S5000x1 .i32) (x1 : Vec F S5000x64 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare (step3_0 x0 x1 zero3_0) ∗ owns (c : Thread nD τ) arg4 fullShare (step3_1 x0 zero3_1)
            ∗ owns (c : Thread nD τ) arg5 fullShare (step3_0 x0 x1 zero3_0) ∗ owns (c : Thread nD τ) arg6 fullShare (step3_1 x0 zero3_1)) -∗ K ⟨⟩))
      ⊢ wp frame (wpE (defs₀ (F := F)) Variants.none c none) E (cc3__meanpool_kernel i arg1 harg1 arg2 harg2 arg3 harg3 arg4 harg4 arg5 harg5 arg6 harg6) K := by
  simp only [cc3__meanpool_kernel_eq_skeleton]; unfold cc3__meanpool_kernel_skel
  simp only [k3_part1_eq_skeleton]
  unfold owns
  iintro ⟨⟨%f0, %hf0, H0⟩, ⟨%f1, %hf1, H1⟩, ⟨%d2, %f2, -, H2⟩, ⟨%d3, %f3, -, H3⟩, ⟨%d4, %f4, -, H4⟩, ⟨%d5, %f5, -, H5⟩, Hk⟩
  subst hf0; subst hf1
  sl_exec (disch := first | exact hc)
  sl_step
  -- the sums' accumulator after the step: the last store's payload, whose third operand is the read-back of the zeros
  have hS0 : arg5.view.read (Elt F) (arg5.view.writes (Elt F) f4 (run3_A.sl.H4_2 c arg1 arg2 arg5 f0 f1))
      = step3_0 (arg1.view.read (Elt F) f0) (arg2.view.read (Elt F) f1) zero3_0 := by
    unfold run3_A.sl.H4_2
    rw [read_writes_whole_last _ _ off2_zero]
    unfold run3_A.sl.v15 run3_A.sl.H4_1
    rw [View.readCov_cons_toLoadRect]
    simp only [View.readAt_eq_ld, View.ld_unit_zero (S := S5000x1) off2_zero, View.ld_unit_zero (S := S5000x64) off2_zero]
    unfold step3_0 zero3_0; rfl
  -- the counts' accumulator likewise
  have hS1 : arg6.view.read (Elt F) (arg6.view.writes (Elt F) f5 (run3_A.sl.H5_2 c arg1 arg6 f0))
      = step3_1 (arg1.view.read (Elt F) f0) zero3_1 := by
    unfold run3_A.sl.H5_2
    rw [read_writes_whole_last _ _ off2_zero]
    unfold run3_A.sl.v21 run3_A.sl.H5_1
    rw [View.readCov_cons_toLoadRect]
    simp only [View.readAt_eq_ld, View.ld_unit_zero (S := S5000x1) off2_zero]
    unfold step3_1 zero3_1; rfl
  -- each output: its one store's payload is its accumulator's read-back
  have hO0 : arg3.view.read (Elt F) (arg3.view.writes (Elt F) f2
        [⟨Rect.unit (s := S256x64) ![0, 0] S256x64.size inb_S256x64_S256x64_0_0, run3_A.sl.v27 c arg1 arg2 arg5 f0 f1⟩])
      = step3_0 (arg1.view.read (Elt F) f0) (arg2.view.read (Elt F) f1) zero3_0 := by
    rw [read_writes_whole_last _ _ off2_zero]
    unfold run3_A.sl.v27 run3_A.sl.H4_2
    rw [View.readCov_cons_toLoadRect]
    unfold run3_A.sl.v15 run3_A.sl.H4_1
    rw [View.readCov_cons_toLoadRect]
    simp only [View.readAt_eq_ld, View.ld_unit_zero (S := S5000x1) off2_zero, View.ld_unit_zero (S := S5000x64) off2_zero]
    unfold step3_0 zero3_0; rfl
  have hO1 : arg4.view.read (Elt F) (arg4.view.writes (Elt F) f3
        [⟨Rect.unit (s := S256x1) ![0, 0] S256x1.size inb_S256x1_S256x1_0_0, run3_A.sl.v c arg1 arg6 f0⟩])
      = step3_1 (arg1.view.read (Elt F) f0) zero3_1 := by
    rw [read_writes_whole_last _ _ off2_zero]
    unfold run3_A.sl.v run3_A.sl.H5_2
    rw [View.readCov_cons_toLoadRect]
    unfold run3_A.sl.v21 run3_A.sl.H5_1
    rw [View.readCov_cons_toLoadRect]
    simp only [View.readAt_eq_ld, View.ld_unit_zero (S := S5000x1) off2_zero]
    unfold step3_1 zero3_1; rfl
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro; exact hO0
  isplitl [H3]
  · iexists _; isplitr
    swap; · iexact H3
    ipureintro; exact hO1
  isplitl [H4]
  · iexists _; isplitr
    swap; · iexact H4
    ipureintro; exact hS0
  iexists _; isplitr
  swap; · iexact H5
  ipureintro; exact hS1

set_option maxHeartbeats 1000000 in
/-- At a later point, the accumulators at what the point before left (`a0`, `a1`): one step from those. -/
theorem run3_B (c : Dev nD) (E : Set ℕ) (i : grid3.Coords)
    (arg1 : Memref sig .tc .vmem S5000x1 .i32) (harg1 : arg1.IsWhole) (arg2 : Memref sig .tc .vmem S5000x64 .f32) (harg2 : arg2.IsWhole)
    (arg3 : Memref sig .tc .vmem S256x64 .f32) (harg3 : arg3.IsWhole) (arg4 : Memref sig .tc .vmem S256x1 .f32) (harg4 : arg4.IsWhole)
    (arg5 : Memref sig .tc .vmem S256x64 .f32) (harg5 : arg5.IsWhole) (arg6 : Memref sig .tc .vmem S256x1 .f32) (harg6 : arg6.IsWhole)
    (hc : ¬cond3_0 i) (x0 : Vec F S5000x1 .i32) (x1 : Vec F S5000x64 .f32) (a0 : Vec F S256x64 .f32) (a1 : Vec F S256x1 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ owns (c : Thread nD τ) arg5 fullShare a0 ∗ owns (c : Thread nD τ) arg6 fullShare a1
        ∗ (iprop(owns (c : Thread nD τ) arg1 fullShare x0 ∗ owns (c : Thread nD τ) arg2 fullShare x1
            ∗ owns (c : Thread nD τ) arg3 fullShare (step3_0 x0 x1 a0) ∗ owns (c : Thread nD τ) arg4 fullShare (step3_1 x0 a1)
            ∗ owns (c : Thread nD τ) arg5 fullShare (step3_0 x0 x1 a0) ∗ owns (c : Thread nD τ) arg6 fullShare (step3_1 x0 a1)) -∗ K ⟨⟩))
      ⊢ wp frame (wpE (defs₀ (F := F)) Variants.none c none) E (cc3__meanpool_kernel i arg1 harg1 arg2 harg2 arg3 harg3 arg4 harg4 arg5 harg5 arg6 harg6) K := by
  simp only [cc3__meanpool_kernel_eq_skeleton]; unfold cc3__meanpool_kernel_skel
  simp only [k3_part1_eq_skeleton]
  unfold owns
  iintro ⟨⟨%f0, %hf0, H0⟩, ⟨%f1, %hf1, H1⟩, ⟨%d2, %f2, -, H2⟩, ⟨%d3, %f3, -, H3⟩, ⟨%f4, %hf4, H4⟩, ⟨%f5, %hf5, H5⟩, Hk⟩
  subst hf0; subst hf1; subst hf4; subst hf5
  sl_exec (disch := first | exact hc)
  sl_step
  -- the sums' accumulator after the step: its one store's payload, whose third operand is what the buffer held
  have hS0 : arg5.view.read (Elt F) (arg5.view.writes (Elt F) f4 (run3_B.sl.H4_1 c arg1 arg2 arg5 f0 f1 f4))
      = step3_0 (arg1.view.read (Elt F) f0) (arg2.view.read (Elt F) f1) (arg5.view.read (Elt F) f4) := by
    unfold run3_B.sl.H4_1
    rw [read_writes_whole_last _ _ off2_zero]
    simp only [View.readAt_eq_ld, View.ld_unit_zero (S := S5000x1) off2_zero, View.ld_unit_zero (S := S5000x64) off2_zero, View.ld_unit_zero (S := S256x64) off2_zero]
    unfold step3_0; rfl
  have hS1 : arg6.view.read (Elt F) (arg6.view.writes (Elt F) f5 (run3_B.sl.H5_1 c arg1 arg6 f0 f5))
      = step3_1 (arg1.view.read (Elt F) f0) (arg6.view.read (Elt F) f5) := by
    unfold run3_B.sl.H5_1
    rw [read_writes_whole_last _ _ off2_zero]
    simp only [View.readAt_eq_ld, View.ld_unit_zero (S := S5000x1) off2_zero, View.ld_unit_zero (S := S256x1) off2_zero]
    unfold step3_1; rfl
  have hO0 : arg3.view.read (Elt F) (arg3.view.writes (Elt F) f2
        [⟨Rect.unit (s := S256x64) ![0, 0] S256x64.size inb_S256x64_S256x64_0_0, run3_B.sl.v27 c arg1 arg2 arg5 f0 f1 f4⟩])
      = step3_0 (arg1.view.read (Elt F) f0) (arg2.view.read (Elt F) f1) (arg5.view.read (Elt F) f4) := by
    rw [read_writes_whole_last _ _ off2_zero]
    unfold run3_B.sl.v27 run3_B.sl.H4_1
    rw [View.readCov_cons_toLoadRect]
    simp only [View.readAt_eq_ld, View.ld_unit_zero (S := S5000x1) off2_zero, View.ld_unit_zero (S := S5000x64) off2_zero, View.ld_unit_zero (S := S256x64) off2_zero]
    unfold step3_0; rfl
  have hO1 : arg4.view.read (Elt F) (arg4.view.writes (Elt F) f3
        [⟨Rect.unit (s := S256x1) ![0, 0] S256x1.size inb_S256x1_S256x1_0_0, run3_B.sl.v c arg1 arg6 f0 f5⟩])
      = step3_1 (arg1.view.read (Elt F) f0) (arg6.view.read (Elt F) f5) := by
    rw [read_writes_whole_last _ _ off2_zero]
    unfold run3_B.sl.v run3_B.sl.H5_1
    rw [View.readCov_cons_toLoadRect]
    simp only [View.readAt_eq_ld, View.ld_unit_zero (S := S5000x1) off2_zero, View.ld_unit_zero (S := S256x1) off2_zero]
    unfold step3_1; rfl
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro; exact hO0
  isplitl [H3]
  · iexists _; isplitr
    swap; · iexact H3
    ipureintro; exact hO1
  isplitl [H4]
  · iexists _; isplitr
    swap; · iexact H4
    ipureintro; exact hS0
  iexists _; isplitr
  swap; · iexact H5
  ipureintro; exact hS1

/-! ## The body obligation, at a generic point -/

/-- What the body is called with at point `t`: the invariant, the core's debts, and each window's current staging
    buffer at what the pipeline left in it, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns: the invariant at the next position, the same debts, each buffer at what the proof data
    says the body leaves. No window is ever idle: both outputs are stored at every point. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

set_option maxHeartbeats 4800000 in
/-- The body at any point. The inputs' buffers hold their blocks; the outputs' hold anything, which is all the
    body needs of them (it overwrites each whole). At the first point the invariant hands over the accumulators at
    anything and the first case's triple applies; at a later point it hands them over at what the point before left
    and the second case's applies. Either way the accumulators come back at this point's contents, which is the
    invariant at the next position, and each output's buffer at this point's contents. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  rw [after3_0, after3_1, after3_2, after3_3]
  by_cases h0 : t.val = 0
  · rw [outsAt3_A V c t h0]
    (try dsimp only)
    rw [PhiS3_castSucc V c t, PhiS3_zero V c _ _ h0, PhiA3_eq]
    iintro ⟨⟨⟨⟨HS0, HS1⟩, HR⟩, Hg⟩, Ho, ⟨%d0, H0⟩, ⟨%d1, H1⟩, ⟨%d2, H2⟩, ⟨%d3, H3⟩⟩
    iapply (run3_A c Set.univ (grid3.coords t) _ _ _ _ _ _ _ _ _ _ _ _ ((hcond3_0 t).mpr h0) (iblk3 V c 0 t) (iblk3 V c 1 t) _)
    isplitl [H0]; · iexact H0
    isplitl [H1]; · iexact H1
    isplitl [H2]; · iexists _; iexact H2
    isplitl [H3]; · iexists _; iexact H3
    isplitl [HS0]; · iexact HS0
    isplitl [HS1]; · iexact HS1
    iintro ⟨H0, H1, H2, H3, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    iexact H3
  · rw [outsAt3_B V c t h0]
    (try dsimp only)
    rw [PhiS3_castSucc V c t, PhiS3_pos V c _ _ h0]
    iintro ⟨⟨⟨⟨HS0, HS1⟩, HR⟩, Hg⟩, Ho, ⟨%d0, H0⟩, ⟨%d1, H1⟩, ⟨%d2, H2⟩, ⟨%d3, H3⟩⟩
    iapply (run3_B c Set.univ (grid3.coords t) _ _ _ _ _ _ _ _ _ _ _ _ (fun h => h0 ((hcond3_0 t).mp h)) (iblk3 V c 0 t) (iblk3 V c 1 t) _ _ _)
    isplitl [H0]; · iexact H0
    isplitl [H1]; · iexact H1
    isplitl [H2]; · iexists _; iexact H2
    isplitl [H3]; · iexists _; iexact H3
    isplitl [HS0]; · iexact HS0
    isplitl [HS1]; · iexact HS1
    iintro ⟨H0, H1, H2, H3, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Run.lean ====
import proofs.«421031_j46042049413263_1_alg».proof.Proof.K.Reg0
import proofs.«421031_j46042049413263_1_alg».proof.Proof.K.Reg1
import proofs.«421031_j46042049413263_1_alg».proof.Proof.K.Reg2
import proofs.«421031_j46042049413263_1_alg».proof.Proof.K.Reg3
import proofs.«421031_j46042049413263_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Tactic

/-! # The run of @main over its four regions

The contents every region leaves in its output arrays, named stage by stage; the proof data of the four pipelines, each at the
contents its region is entered from; the four regions as segments over the thread state "every unscoped buffer at the boundary's
contents, the generator register at some state, nothing owed"; and the launch over the ten segments, once with the frame claim's
post and once with every unscoped buffer's final contents named. Everything is stated at any float model `F`. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents the regions leave, stage by stage

A region's exit contents are its entry contents with its arrays at what the pipeline's write-backs leave. Region `k + 1`'s entry
contents depend on what regions `0 … k` left, so the family `outs` is built in four stages: each stage knows the regions before
it, and the valuations of the generated fold read a stage only at the regions it knows. -/

/-- Region 0's entry contents, read at the TensorCore's references. -/
abbrev In0 : (c : Dev nD) → (b : Ref sig .tc) → Buf (Elt F) ((c : Thread nD τ).loc b) := fun c b => V2 m c b

/-- Region 0's exit contents: its three arrays at what the pipeline leaves, every other buffer as entered. -/
def X3 (c : Dev nD) : Valuation τ sig (Elt F) :=
  Pipeline.withArrays spec0 c (V2 m c) fun w => (dat0 (In0 m) c).arrAt w cfg0.N

/-- Stage 1: region 0 known. -/
def o3 : Outs (F := F) := fun _ r c => X3 m c (Proc.devRef .tc r)

/-- Region 1's entry contents. -/
abbrev In1 : (c : Dev nD) → (b : Ref sig .tc) → Buf (Elt F) ((c : Thread nD τ).loc b) := fun c b => V4 m (o3 m) c b

/-- Region 1's exit contents. -/
def X5 (c : Dev nD) : Valuation τ sig (Elt F) :=
  Pipeline.withArrays spec1 c (V4 m (o3 m) c) fun w => (dat1 (In1 m) c).arrAt w cfg1.N

/-- Stage 2: regions 0 and 1 known. -/
def o5 : Outs (F := F) := fun j r c =>
  match j with
  | 3 => X3 m c (Proc.devRef .tc r)
  | _ => X5 m c (Proc.devRef .tc r)

/-- Region 2's entry contents. -/
abbrev In2 : (c : Dev nD) → (b : Ref sig .tc) → Buf (Elt F) ((c : Thread nD τ).loc b) := fun c b => V6 m (o5 m) c b

/-- Region 2's exit contents. -/
def X7 (c : Dev nD) : Valuation τ sig (Elt F) :=
  Pipeline.withArrays spec2 c (V6 m (o5 m) c) fun w => (dat2 (In2 m) c).arrAt w cfg2.N

/-- Stage 3: regions 0, 1 and 2 known. -/
def o7 : Outs (F := F) := fun j r c =>
  match j with
  | 3 => X3 m c (Proc.devRef .tc r)
  | 5 => X5 m c (Proc.devRef .tc r)
  | _ => X7 m c (Proc.devRef .tc r)

/-- Region 3's entry contents. -/
abbrev In3 : (c : Dev nD) → (b : Ref sig .tc) → Buf (Elt F) ((c : Thread nD τ).loc b) := fun c b => V8 m (o7 m) c b

/-- Region 3's exit contents. -/
def X9 (c : Dev nD) : Valuation τ sig (Elt F) :=
  Pipeline.withArrays spec3 c (V8 m (o7 m) c) fun w => (dat3 (In3 m) c).arrAt w cfg3.N

/-- What every region leaves: at boundary `j` the exit contents of the region that ends there. -/
def outs : Outs (F := F) := fun j r c =>
  match j with
  | 3 => X3 m c (Proc.devRef .tc r)
  | 5 => X5 m c (Proc.devRef .tc r)
  | 7 => X7 m c (Proc.devRef .tc r)
  | _ => X9 m c (Proc.devRef .tc r)

/-! The generated fold read at `outs` is the fold read at the stage that knows the regions before the boundary: the fold reads the
family only at those regions' outputs, where the stage and `outs` are the same term. -/

theorem V4_outs (c : Dev nD) : V4 m (outs m) c = V4 m (o3 m) c := rfl
theorem V6_outs (c : Dev nD) : V6 m (outs m) c = V6 m (o5 m) c := rfl
theorem V8_outs (c : Dev nD) : V8 m (outs m) c = V8 m (o7 m) c := rfl

/-! ### A stage's exit valuation at its own arrays and off them -/

theorem X3_arr (c : Dev nD) (w : Fin cfg0.W) :
    X3 m c (Proc.devRef .tc (Pipeline.arrRef spec0 w)) = (dat0 (In0 m) c).arrAt w cfg0.N := by
  unfold X3; exact Pipeline.withArrays_arr spec0 launch0.win.arr_inj c _ _ w
theorem X5_arr (c : Dev nD) (w : Fin cfg1.W) :
    X5 m c (Proc.devRef .tc (Pipeline.arrRef spec1 w)) = (dat1 (In1 m) c).arrAt w cfg1.N := by
  unfold X5; exact Pipeline.withArrays_arr spec1 launch1.win.arr_inj c _ _ w
theorem X7_arr (c : Dev nD) (w : Fin cfg2.W) :
    X7 m c (Proc.devRef .tc (Pipeline.arrRef spec2 w)) = (dat2 (In2 m) c).arrAt w cfg2.N := by
  unfold X7; exact Pipeline.withArrays_arr spec2 launch2.win.arr_inj c _ _ w
theorem X9_arr (c : Dev nD) (w : Fin cfg3.W) :
    X9 m c (Proc.devRef .tc (Pipeline.arrRef spec3 w)) = (dat3 (In3 m) c).arrAt w cfg3.N := by
  unfold X9; exact Pipeline.withArrays_arr spec3 launch3.win.arr_inj c _ _ w

/-! ### `outs` at the five output arrays

Each is the stage's exit valuation at one of its own arrays. That valuation chooses, at a reference, the window whose array it is;
the arrays of one pipeline being distinct, the choice is that window (`X3_arr` … `X9_arr`). These are equations to rewrite
with, not unfoldings. -/

theorem outs_3 (c : Dev nD) : outs m 3 main_v15 c = (dat0 (In0 m) c).arrAt 2 cfg0.N :=
  X3_arr m c 2

theorem outs_5 (c : Dev nD) : outs m 5 main_v51 c = (dat1 (In1 m) c).arrAt 5 cfg1.N :=
  X5_arr m c 5

theorem outs_7 (c : Dev nD) : outs m 7 main_v95 c = (dat2 (In2 m) c).arrAt 10 cfg2.N :=
  X7_arr m c 10

theorem outs_9_0 (c : Dev nD) : outs m 9 main_v97_0 c = (dat3 (In3 m) c).arrAt 2 cfg3.N :=
  X9_arr m c 2

theorem outs_9_1 (c : Dev nD) : outs m 9 main_v97_1 c = (dat3 (In3 m) c).arrAt 3 cfg3.N :=
  X9_arr m c 3

/-- The same five with the entry contents written through `outs` itself. -/
theorem outs_5' (c : Dev nD) : outs m 5 main_v51 c = (dat1 (fun c b => V4 m (outs m) c b) c).arrAt 5 cfg1.N := outs_5 m c
theorem outs_7' (c : Dev nD) : outs m 7 main_v95 c = (dat2 (fun c b => V6 m (outs m) c b) c).arrAt 10 cfg2.N := outs_7 m c
theorem outs_9_0' (c : Dev nD) : outs m 9 main_v97_0 c = (dat3 (fun c b => V8 m (outs m) c b) c).arrAt 2 cfg3.N := outs_9_0 m c
theorem outs_9_1' (c : Dev nD) : outs m 9 main_v97_1 c = (dat3 (fun c b => V8 m (outs m) c b) c).arrAt 3 cfg3.N := outs_9_1 m c

/-! ## The proof data family and the thread state -/

/-- Every pipeline's proof data, each at its region's entry contents: a literal match, so that the family at a numeral is
    that region's data. -/
def pdats : (p : Fin 4) → (c : Dev nD) → Dat τ (Elt F) Unit ℕ (UR sig nD τ) ℕ (Pipeline.pin (pcfgs (F := F)) adm p) c
  | ⟨0, _⟩ => fun c => dat0 (In0 m) c
  | ⟨1, _⟩ => fun c => dat1 (In1 m) c
  | ⟨2, _⟩ => fun c => dat2 (In2 m) c
  | ⟨3, _⟩ => fun c => dat3 (In3 m) c

/-- No core owes another anything: no level is assigned. -/
abbrev L : GSem nD τ sig → Finset Unit := fun _ => ∅
abbrev lv : GSem nD τ sig → Unit → ℕ := fun _ _ => 0

/-- What rides beside the buffers through every segment: the core's generator register at some state and its dues, at nothing.
    The same at all five boundaries between regions. -/
abbrev E : Fin 5 → Dev nD → sProp 𝕄 := fun _ c =>
  iprop((∃ r, prngReg c r) ∗ ∃ W, owes (c : Thread nD τ) (0 : CellTallies nD τ sig Unit) W)

/-! ## Each region's exit contents against what its pipeline leaves

For `Pipeline.unscopedBufs_of_arrays`: the exit valuation of the generated fold has every array of the region at what the pipeline
leaves there (`hF`), and agrees with the entry contents off the arrays (`hrest`). An input window's array is never written
(`Dat.arrAt_in`), is the entry contents there (`A_eq`), and the fold's update at the outputs misses it; an output window's array is
where the fold's update lands (`Function.update_self`), at `outs`. -/

/-- The exit contents of regions 0 … 3, read at the TensorCore's references. -/
abbrev Out0 : (c : Dev nD) → (b : Ref sig .tc) → Buf (Elt F) ((c : Thread nD τ).loc b) := fun c b => V3 m (outs m) c b
abbrev Out1 : (c : Dev nD) → (b : Ref sig .tc) → Buf (Elt F) ((c : Thread nD τ).loc b) := fun c b => V5 m (outs m) c b
abbrev Out2 : (c : Dev nD) → (b : Ref sig .tc) → Buf (Elt F) ((c : Thread nD τ).loc b) := fun c b => V7 m (outs m) c b
abbrev Out3 : (c : Dev nD) → (b : Ref sig .tc) → Buf (Elt F) ((c : Thread nD τ).loc b) := fun c b => V9 m (outs m) c b

/-! ### Region 0 -/

theorem hF0_in (c : Dev nD) (w : Fin cfg0.W) (hin : (cfg0.win w).isOut = false)
    (hne : Pipeline.arrRef spec0 w ∉ ([main_v15] : List (Ref sig .tc))) :
    (dat0 (In0 m) c).arrAt w cfg0.N = Out0 m c (Pipeline.arrRef spec0 w) :=
  ((dat0 (In0 m) c).arrAt_in w hin _).trans ((A_eq0 (In0 m) c w).trans (V3_of m (outs m) c _ hne).symm)

theorem hF0 (c : Dev nD) (w : Fin cfg0.W) : (dat0 (In0 m) c).arrAt w cfg0.N = Out0 m c (Pipeline.arrRef spec0 w) := by
  by_cases hw : w = 2
  · subst hw
    exact (outs_3 m c).symm.trans
      (Function.update_self (β := fun b : DevRef τ sig => b.ty.Contents (Elt F))
        (Proc.devRef .tc main_v15) (outs m 3 main_v15 c) (V2 m c)).symm
  · exact hF0_in m c w ((by decide : ∀ w : Fin cfg0.W, w ≠ 2 → (cfg0.win w).isOut = false) w hw)
      ((by decide : ∀ w : Fin cfg0.W, w ≠ 2 → Pipeline.arrRef spec0 w ∉ ([main_v15] : List (Ref sig .tc))) w hw)

theorem hrest0 (c : Dev nD) : ∀ b, b ∉ Finset.univ.image (Pipeline.arrRef spec0) → Out0 m c b = In0 m c b :=
  fun b hb => V3_of m (outs m) c b fun h =>
    hb (Finset.mem_image.mpr ⟨2, Finset.mem_univ _, (List.mem_singleton.mp h).symm⟩)

/-! ### Region 1 -/

theorem hF1_in (c : Dev nD) (w : Fin cfg1.W) (hin : (cfg1.win w).isOut = false)
    (hne : Pipeline.arrRef spec1 w ∉ ([main_v51] : List (Ref sig .tc))) :
    (dat1 (In1 m) c).arrAt w cfg1.N = Out1 m c (Pipeline.arrRef spec1 w) :=
  ((dat1 (In1 m) c).arrAt_in w hin _).trans ((A_eq1 (In1 m) c w).trans
    ((congrFun (V4_outs m c) _).symm.trans (V5_of m (outs m) c _ hne).symm))

theorem hF1 (c : Dev nD) (w : Fin cfg1.W) : (dat1 (In1 m) c).arrAt w cfg1.N = Out1 m c (Pipeline.arrRef spec1 w) := by
  by_cases hw : w = 5
  · subst hw
    exact (outs_5 m c).symm.trans
      (Function.update_self (β := fun b : DevRef τ sig => b.ty.Contents (Elt F))
        (Proc.devRef .tc main_v51) (outs m 5 main_v51 c) (V4 m (outs m) c)).symm
  · exact hF1_in m c w ((by decide : ∀ w : Fin cfg1.W, w ≠ 5 → (cfg1.win w).isOut = false) w hw)
      ((by decide : ∀ w : Fin cfg1.W, w ≠ 5 → Pipeline.arrRef spec1 w ∉ ([main_v51] : List (Ref sig .tc))) w hw)

theorem hrest1 (c : Dev nD) : ∀ b, b ∉ Finset.univ.image (Pipeline.arrRef spec1) → Out1 m c b = In1 m c b :=
  fun b hb => (V5_of m (outs m) c b fun h =>
    hb (Finset.mem_image.mpr ⟨5, Finset.mem_univ _, (List.mem_singleton.mp h).symm⟩)).trans (congrFun (V4_outs m c) _)

/-! ### Region 2 -/

theorem hF2_in (c : Dev nD) (w : Fin cfg2.W) (hin : (cfg2.win w).isOut = false)
    (hne : Pipeline.arrRef spec2 w ∉ ([main_v95] : List (Ref sig .tc))) :
    (dat2 (In2 m) c).arrAt w cfg2.N = Out2 m c (Pipeline.arrRef spec2 w) :=
  ((dat2 (In2 m) c).arrAt_in w hin _).trans ((A_eq2 (In2 m) c w).trans
    ((congrFun (V6_outs m c) _).symm.trans (V7_of m (outs m) c _ hne).symm))

theorem hF2 (c : Dev nD) (w : Fin cfg2.W) : (dat2 (In2 m) c).arrAt w cfg2.N = Out2 m c (Pipeline.arrRef spec2 w) := by
  by_cases hw : w = 10
  · subst hw
    exact (outs_7 m c).symm.trans
      (Function.update_self (β := fun b : DevRef τ sig => b.ty.Contents (Elt F))
        (Proc.devRef .tc main_v95) (outs m 7 main_v95 c) (V6 m (outs m) c)).symm
  · exact hF2_in m c w ((by decide : ∀ w : Fin cfg2.W, w ≠ 10 → (cfg2.win w).isOut = false) w hw)
      ((by decide : ∀ w : Fin cfg2.W, w ≠ 10 → Pipeline.arrRef spec2 w ∉ ([main_v95] : List (Ref sig .tc))) w hw)

theorem hrest2 (c : Dev nD) : ∀ b, b ∉ Finset.univ.image (Pipeline.arrRef spec2) → Out2 m c b = In2 m c b :=
  fun b hb => (V7_of m (outs m) c b fun h =>
    hb (Finset.mem_image.mpr ⟨10, Finset.mem_univ _, (List.mem_singleton.mp h).symm⟩)).trans (congrFun (V6_outs m c) _)

/-! ### Region 3: two output windows, so the fold updates twice; the first update is read through the second -/

theorem hF3_in (c : Dev nD) (w : Fin cfg3.W) (hin : (cfg3.win w).isOut = false)
    (hne : Pipeline.arrRef spec3 w ∉ ([main_v97_0, main_v97_1] : List (Ref sig .tc))) :
    (dat3 (In3 m) c).arrAt w cfg3.N = Out3 m c (Pipeline.arrRef spec3 w) :=
  ((dat3 (In3 m) c).arrAt_in w hin _).trans ((A_eq3 (In3 m) c w).trans
    ((congrFun (V8_outs m c) _).symm.trans (V9_of m (outs m) c _ hne).symm))

theorem hF3 (c : Dev nD) (w : Fin cfg3.W) : (dat3 (In3 m) c).arrAt w cfg3.N = Out3 m c (Pipeline.arrRef spec3 w) := by
  by_cases hw2 : w = 2
  · subst hw2
    have h01 : (Proc.devRef .tc main_v97_0 : DevRef τ sig) ≠ Proc.devRef .tc main_v97_1 :=
      StableHlo.devRef_ne_of_ne (show main_v97_0 ≠ main_v97_1 by decide)
    exact (outs_9_0 m c).symm.trans
      ((Function.update_self (β := fun b : DevRef τ sig => b.ty.Contents (Elt F))
          (Proc.devRef .tc main_v97_0) (outs m 9 main_v97_0 c) (V8 m (outs m) c)).symm.trans
        (Function.update_of_ne (β := fun b : DevRef τ sig => b.ty.Contents (Elt F)) h01 (outs m 9 main_v97_1 c)
          (Function.update (V8 m (outs m) c) (Proc.devRef .tc main_v97_0) (outs m 9 main_v97_0 c))).symm)
  by_cases hw3 : w = 3
  · subst hw3
    exact (outs_9_1 m c).symm.trans
      (Function.update_self (β := fun b : DevRef τ sig => b.ty.Contents (Elt F))
        (Proc.devRef .tc main_v97_1) (outs m 9 main_v97_1 c)
        (Function.update (V8 m (outs m) c) (Proc.devRef .tc main_v97_0) (outs m 9 main_v97_0 c))).symm
  · exact hF3_in m c w ((by decide : ∀ w : Fin cfg3.W, w ≠ 2 → w ≠ 3 → (cfg3.win w).isOut = false) w hw2 hw3)
      ((by decide : ∀ w : Fin cfg3.W, w ≠ 2 → w ≠ 3 →
        Pipeline.arrRef spec3 w ∉ ([main_v97_0, main_v97_1] : List (Ref sig .tc))) w hw2 hw3)

theorem hrest3 (c : Dev nD) : ∀ b, b ∉ Finset.univ.image (Pipeline.arrRef spec3) → Out3 m c b = In3 m c b :=
  fun b hb => (V9_of m (outs m) c b fun h => by
    rcases List.mem_cons.mp h with e | h
    · exact hb (Finset.mem_image.mpr ⟨2, Finset.mem_univ _, e.symm⟩)
    · exact hb (Finset.mem_image.mpr ⟨3, Finset.mem_univ _, (List.mem_singleton.mp h).symm⟩)).trans (congrFun (V8_outs m c) _)

/-! ## The regions as segments

Each region is entered from every unscoped buffer at the fold's contents before it, beside the rest state, and left at the contents
after it. At entry its arrays are split out of the unscoped buffers; at exit they are put back at the exit contents (`hF`, `hrest`).
The generator register goes into the pipeline's invariant and comes back; nothing is owed; no kernel has a semaphore of its own. -/

-- a library lemma stated over the pinned configuration unifies with it only when unification may unfold plain definitions
-- in a metavariable's type
set_option backward.isDefEq.respectTransparency.types false in
/-- REGION 0, the first matmul: one control case, so its invariant is the class invariant at every point. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (In0 m) c).loose
  hwaits := Pipeline.hwaits_of_owed_zero _ _ _ _ L lv 0 fun _ _ => rfl
  pre c := iprop(StableHlo.held (c : Thread nD τ) (Pipeline.ucRefs τ sig) (V2 m c) ∗ E 0 c)
  post c := iprop(StableHlo.held (c : Thread nD τ) (Pipeline.ucRefs τ sig) (V3 m (outs m) c) ∗ E 1 c)
  X c := iprop(∃ r, prngReg c r)
  Y c := iprop(∃ r, prngReg c r)
  Z c := Pipeline.unscopedRest (Ix := Unit) (Name := ℕ) (U := UR sig nD τ) (Lvl := ℕ) spec0 c (In0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (In0 m c) fun w => A_eq0 (In0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (In0 m c) (Out0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1, batch norm, relu and the second matmul: one control case. Its entry contents are the fold's at `outs`, which is the
    fold's at the stage that knows region 0 (`V4_outs`): the proof data are stated at the latter. -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (In1 m) c).loose
  hwaits := Pipeline.hwaits_of_owed_zero _ _ _ _ L lv 1 fun _ _ => rfl
  pre c := iprop(StableHlo.held (c : Thread nD τ) (Pipeline.ucRefs τ sig) (V4 m (outs m) c) ∗ E 1 c)
  post c := iprop(StableHlo.held (c : Thread nD τ) (Pipeline.ucRefs τ sig) (V5 m (outs m) c) ∗ E 2 c)
  X c := iprop(∃ r, prngReg c r)
  Y c := iprop(∃ r, prngReg c r)
  Z c := Pipeline.unscopedRest (Ix := Unit) (Name := ℕ) (U := UR sig nD τ) (Lvl := ℕ) spec1 c (In1 m c)
  hentry c := by
    rw [Pipeline.ownSems0_none, V4_outs m c]
    have hsplit := Pipeline.arrays_of_unscopedBufs (p := 1) (pcfgs (F := F)) adm (pdats m) launch1.win launch1.arr_whole c
      ((pdats m 1 c).share_full fun _ => rfl) (In1 m c) fun w => A_eq1 (In1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (In1 m c) (Out1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2, the finalize kernel over eleven windows: one control case; entered at the fold's contents at the stage that knows
    regions 0 and 1 (`V6_outs`). -/
def reg2 : Pipeline.RegionSeg (pcfgs (F := F)) adm (pdats m) () defs₀ Variants.none L lv 2 where
  win := launch2.win.to₀
  block_pos := launch2.block_pos
  stage_whole := launch2.stage_whole
  K := PEmpty
  osem k := k.elim
  ho := Pipeline.OwnSemFacts.none _
  hbody c := (body_obligation2 (In2 m) c).loose
  hwaits := Pipeline.hwaits_of_owed_zero _ _ _ _ L lv 2 fun _ _ => rfl
  pre c := iprop(StableHlo.held (c : Thread nD τ) (Pipeline.ucRefs τ sig) (V6 m (outs m) c) ∗ E 2 c)
  post c := iprop(StableHlo.held (c : Thread nD τ) (Pipeline.ucRefs τ sig) (V7 m (outs m) c) ∗ E 3 c)
  X c := iprop(∃ r, prngReg c r)
  Y c := iprop(∃ r, prngReg c r)
  Z c := Pipeline.unscopedRest (Ix := Unit) (Name := ℕ) (U := UR sig nD τ) (Lvl := ℕ) spec2 c (In2 m c)
  hentry c := by
    rw [Pipeline.ownSems0_none, V6_outs m c]
    have hsplit := Pipeline.arrays_of_unscopedBufs (p := 2) (pcfgs (F := F)) adm (pdats m) launch2.win launch2.arr_whole c
      ((pdats m 2 c).share_full fun _ => rfl) (In2 m c) fun w => A_eq2 (In2 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (In2 m c) (Out2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3, the mean pool: a sequential grid with two scratch buffers carried from point to point, so its invariant is not the
    class invariant. The class invariant is what the segment's protocol makes from the register and the scoped buffers and takes
    apart again; `hin3` carries it into the region's invariant at the first point and `hout3` back from the one at the last. -/
def reg3 : Pipeline.RegionSeg (pcfgs (F := F)) adm (pdats m) () defs₀ Variants.none L lv 3 where
  win := launch3.win.to₀
  block_pos := launch3.block_pos
  stage_whole := launch3.stage_whole
  K := PEmpty
  osem k := k.elim
  ho := Pipeline.OwnSemFacts.none _
  hbody c := (body_obligation3 (In3 m) c).loose
  hwaits := Pipeline.hwaits_of_owed_zero _ _ _ _ L lv 3 fun _ _ => rfl
  pre c := iprop(StableHlo.held (c : Thread nD τ) (Pipeline.ucRefs τ sig) (V8 m (outs m) c) ∗ E 3 c)
  post c := iprop(StableHlo.held (c : Thread nD τ) (Pipeline.ucRefs τ sig) (V9 m (outs m) c) ∗ E 4 c)
  X c := iprop(∃ r, prngReg c r)
  Y c := iprop(∃ r, prngReg c r)
  Z c := Pipeline.unscopedRest (Ix := Unit) (Name := ℕ) (U := UR sig nD τ) (Lvl := ℕ) spec3 c (In3 m c)
  hentry c := by
    rw [Pipeline.ownSems0_none, V8_outs m c]
    have hsplit := Pipeline.arrays_of_unscopedBufs (p := 3) (pcfgs (F := F)) adm (pdats m) launch3.win launch3.arr_whole c
      ((pdats m 3 c).share_full fun _ => rfl) (In3 m c) fun w => A_eq3 (In3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = (dat3 (In3 m) c).Φ 0 from rfl]
    iintro ⟨Hp, -, Hr⟩
    iapply (hin3 (In3 m) c)
    unfold Pipeline.ΦA
    isplitl [Hr]; · iexact Hr
    iexact Hp
  hout c := by
    rw [Pipeline.ownSems0_none, show (pdats m 3 c).Φ (Fin.last _) = (dat3 (In3 m) c).Φ (Fin.last cfg3.N) from rfl]
    iintro H
    ihave H' := (hout3 (In3 m) c) $$ H
    unfold Pipeline.ΦA
    icases H' with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (In3 m c) (Out3 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- The launch element: the pipeline library's, at every pipeline's staging cells. -/
abbrev u₀ : UR sig nD τ := initOf (Pipeline.cells cfgs cellOf_inj) (Pipeline.launchToks cfgs cellOf_inj)

/-- The launch element is the pipeline library's element through the one-component embedding; no core has a ghost resource. -/
theorem hu₀ : (ownU (u₀ : UR sig nD τ) : sProp 𝕄)
    ⊢ |={Set.univ}=> iprop(BI.own (emb₁ (initOf (Pipeline.cells cfgs cellOf_inj) (Pipeline.launchToks cfgs cellOf_inj)))
        ∗ bigSep Finset.univ fun _ : Dev nD => (iprop(emp) : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- The last rest state owes nothing. -/
theorem hE4 (c : Dev nD) :
    (E 4 c : sProp 𝕄) ⊢ iprop(∃ W, owes (c : Thread nD τ) (0 : CellTallies nD τ sig Unit) W) := by
  iintro ⟨-, HO⟩; iexact HO

-- the conditional frame's implicit arguments are found by unifying its hypotheses with the records, which takes unfolding plain
-- definitions in a metavariable's type
set_option backward.isDefEq.respectTransparency.types false in
/-- THE FRAME at any `F`: from any memory with zero counters every weakly fair execution of @main terminates and every final memory
    holds each argument as launched. The conditional frame of the generated fold at the four records: each record's `pre` and `post`
    are the fold's thread states by definition; the rest state is made per core from what the launch deals (the register at its
    launch state, the dues at nothing) and ends owing nothing. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_cond m emb₁ () Variants.none L lv (fun _ _ => rfl) ρ (outs m) (pdats m) 0 (fun _ => iprop(emp)) u₀ hu₀ E
    (Pipeline.initEach L lv fun c => by
      iintro ⟨⟨-, HO, -, Hp, -⟩, -⟩
      imodintro
      isplitl [Hp]; · iexists _; iexact Hp
      iexists ∅; iexact HO)
    (hE4 (F := F))
    (reg0 m) (fun _ => .rfl) (fun _ => .rfl)
    (reg1 m) (fun _ => .rfl) (fun _ => .rfl)
    (reg2 m) (fun _ => .rfl) (fun _ => .rfl)
    (reg3 m) (fun _ => .rfl) (fun _ => .rfl)

-- the launch's implicit arguments are found by unifying its conclusion with this one, which takes unfolding plain definitions
-- in a metavariable's type
set_option backward.isDefEq.respectTransparency.types false in
/-- THE RUN with every final buffer named: every weakly fair execution of @main terminates, and in every final memory each
    unscoped buffer of each core holds the last valuation of the generated fold, read at `outs`. The launch over the ten segments:
    @main is their chain; the thread states chain by definition; the first is made per core from what the launch deals; the last
    is read against the final state buffer by buffer. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = V10 m (outs m) c b) := by
  refine Pipeline.θ_run_regions_kit_dev (pcfgs (F := F)) adm (pdats m) () cellOf_inj emb₁ defs₀ Variants.none L lv m ρ main
    (segs m (outs m) Variants.none L lv E () (pdats m) (reg0 m) (reg1 m) (reg2 m) (reg3 m))
    (fun c Q => by
      rewrite [main_chain c, Seg.run_eq_chain,
        show (segs m (outs m) Variants.none L lv E () (pdats m) (reg0 m) (reg1 m) (reg2 m) (reg3 m) c).map Seg.prog = [
          StableHlo.seq hostOps0,
          StableHlo.seq hostOps0_1,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      exact .rfl)
    (fun c => by simp only [segs, Seg.pipes_host, Seg.pipes_region, Seg.pipes_nil]; decide)
    0 (fun _ _ => rfl) (fun _ => iprop(emp)) u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V10 m (outs m) c))
    (hch := fun c => ⟨.rfl, .rfl, .rfl, .rfl, .rfl, .rfl, .rfl, .rfl, .rfl, .rfl, sep_mono .rfl (hE4 c)⟩)
    (hinit := ?_)
    (QY := fun c s => ∀ b ∈ Pipeline.ucRefs τ sig, s.mem ((c : Thread nD τ).1, b) = V10 m (outs m) c b)
    (hfin := fun c s' => ?_) (hQ := fun _ h => h)
  · -- the launch, per core: the unscoped buffers are held at the launch memory, the register and the dues make the rest state
    refine Pipeline.initEach L lv fun c => ?_
    rw [show unscopedBufs c (fun b => m ((c : Thread nD τ).loc b))
        = StableHlo.held (c : Thread nD τ) (Pipeline.ucRefs τ sig) (V0 m c) from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: every held buffer read against the final state
    iintro ⟨Hh, HSI⟩
    unfold StableHlo.held
    imodintro
    iapply (pointsTo_read_all (Pipeline.ucRefs τ sig) (fun b => ((c : Thread nD τ).1, b)) (V10 m (outs m) c) s')
    isplitl [Hh] <;> iassumption

end Cert.Kernel.Hand

end
-- ==== Proof.Frames.lean ====
import proofs.«421031_j46042049413263_1_alg».proof.Defs
import proofs.«421031_j46042049413263_1_alg».proof.Proof.KI.Run
import proofs.«421031_j46042049413263_1_alg».proof.Proof.K.Run
import proofs.«421031_j46042049413263_1_alg».proof.Proof.RefRun
import proofs.«421031_j46042049413263_1_alg».proof.Proof.Gen.Pre_finite_inputs

/-!
# The three frame claims

Each of the three programs runs to the end without a fault and leaves its seventeen argument arrays as it found
them. For the two kernels this is the hand frame of the four pipelines and the host stretches between them; for the
reference it is its run with every buffer's final contents named, of which only the arguments are kept.
None of the three needs the precondition on the inputs.
-/

noncomputable section

namespace Cert.Proof.Frames

open Idealize.ShloMosaic Idealize.SL.Sem

/-- The word-level kernel. -/
theorem frame_k : Cert.frame_Kernel (hKernel := Cert.Kernel.Gen.facts) (hPre_finite_inputs := Cert.Pre_finite_inputs.Gen.facts) :=
  fun m ρ _ => Cert.Kernel.Hand.frame m ρ

/-- The kernel at the ideal values. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The reference at the ideal values: its run's post names the two results and then the seventeen arguments;
    the frame keeps the arguments. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.Value.run (F := Ideal) m ρ)

end Cert.Proof.Frames

end
-- ==== Proof.LibPlainMatmul.lean ====
/-
  A plain matrix product into a zero accumulator, read at one entry over the extended reals.

  For `a : [M, K]` and `b : [K, N]` under the dimension numbers "contract the left operand's axis 1 with the right
  operand's axis 0, no batch axis" (`DotDims.plain M K N`), the product accumulated into the zero splat is, at entry
  `(i, l)`, the sum over the contracted coordinate `k` of `a (i, k) * b (k, l)`: the contraction index of these
  dimension numbers has one axis of extent `K`, so the sum over it is re-indexed by its one coordinate, and the operand
  indices at `(i, l)` and `k` are `(i, k)` and `(k, l)`. Nothing is assumed of the entries (they may be infinite).
-/
import Idealize.ShloMosaic.PureOps.Ideal.Laws
import Idealize.ShloMosaic.Lib.ValueIdx

noncomputable section

namespace Idealize.ShloMosaic.PlainMatmul

open Idealize.ShloMosaic Idealize.ShloMosaic.ValueIdx

variable (M K N : Nat)

/-- The left operand is read on row `i` of the output entry, -/
theorem lhs_row (j : (⟨2, ![M, N]⟩ : Shape).Idx) (q : (DotDims.plain M K N).contr.Idx) :
    ((DotDims.plain M K N).lhsIdx j q 0).val = (j 0).val := rfl
/-- at the contracted coordinate; -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- the right operand at the contracted coordinate, -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- on column `l` of the output entry. -/
theorem rhs_col (j : (⟨2, ![M, N]⟩ : Shape).Idx) (q : (DotDims.plain M K N).contr.Idx) :
    ((DotDims.plain M K N).rhsIdx j q 1).val = (j 1).val := rfl

/-- THE PRODUCT AT AN ENTRY: `(a · b) (i, l) = ∑ k, a (i, k) * b (k, l)`, into the zero accumulator. -/
theorem matmul_zero_apply {φ₁ φ₂ : FTy} (prec : Option ContractPrecision)
    (a : FVec Ideal ⟨2, ![M, K]⟩ φ₁) (b : FVec Ideal ⟨2, ![K, N]⟩ φ₂) (i : Fin M) (l : Fin N) :
    FloatOps.matmul (DotDims.plain M K N) prec a b (constant (F := Ideal) ⟨2, ![M, N]⟩ .f32 0x00000000#32) (ix2 i l)
      = ∑ k : Fin K, a (ix2 i k) * b (ix2 k l) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i l) ((contrEquiv1 (DotDims.plain M K N) K rfl rfl).symm k) = ix2 i k :=
    funext fun c => Fin.ext (by
      match c with
      | ⟨0, _⟩ => exact lhs_row M K N _ _
      | ⟨1, _⟩ => exact (lhs_col M K N _ _).trans hk)
  have er : (DotDims.plain M K N).rhsIdx (ix2 i l) ((contrEquiv1 (DotDims.plain M K N) K rfl rfl).symm k) = ix2 k l :=
    funext fun c => Fin.ext (by
      match c with
      | ⟨0, _⟩ => exact (rhs_row M K N _ _).trans hk
      | ⟨1, _⟩ => exact rhs_col M K N _ _)
  rw [el, er]

end Idealize.ShloMosaic.PlainMatmul

end
-- ==== Proof.KI.Val0.lean ====
/- What region 0 leaves in its output array, at the ideal (extended-real) reading of floats, entry by entry:
   for any contents `V` the region finds, the 100000 × 64 output array ends holding the matrix product of the
   100000 × 128 array x and the 128 × 64 array w,   o (i, l) = ∑ k, x (i, k) · w (k, l).
   The casts to bf16 are the identity on ideal values, and a product accumulated onto zero is the plain sum.
   Grid point t writes rows 5000·t … 5000·t + 4999; the twenty blocks fill the array. -/
import proofs.«421031_j46042049413263_1_alg».proof.Proof.KI.Reg0
import proofs.«421031_j46042049413263_1_alg».proof.Proof.LibPlainMatmul
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

-- the buffers' contents when the region is entered, read as ideal values
variable (V : (c : Dev nD) → (b : Ref sig .tc) → Buf (Elt Ideal) ((c : Thread nD τ).loc b))

/-! ## The product, as one function of the two arrays -/

/-- The matrix product of a 100000 × 128 array and a 128 × 64 array, entry by entry. -/
def prod0 (a : S100000x128.Idx → Elt Ideal .f32) (b : S128x64.Idx → Elt Ideal .f32) : S100000x64.Idx → Elt Ideal .f32 :=
  fun j => ∑ k : Fin 128, a (ix2 (j 0 : Fin 100000) k) * b (ix2 k (j 1 : Fin 64))

theorem prod0_apply (a : S100000x128.Idx → Elt Ideal .f32) (b : S128x64.Idx → Elt Ideal .f32) (i : Fin 100000) (l : Fin 64) :
    prod0 a b (ix2 i l) = ∑ k : Fin 128, a (ix2 i k) * b (ix2 k l) := rfl

/-! ## One run of the body, at an entry of its block -/

/-- Both offsets of a whole-buffer access are zero. -/
theorem zeroOffsets : (![0, 0] : Fin 2 → Nat) = fun _ => 0 := funext fun a => by fin_cases a <;> rfl

/-- The body's value at entry (p, q) of the 5000 × 64 block: the casts to bf16 change nothing on ideal values, and
    the product accumulated onto the zero block is the sum over the contracted coordinate. -/
theorem pay0_apply (x0 : Vec Ideal S5000x128 .f32) (x1 : Vec Ideal S128x64 .f32) (p : Fin 5000) (q : Fin 64) :
    k0_pay1 x0 x1 (ix2 p q) = ∑ k : Fin 128, x0 (ix2 p k) * x1 (ix2 k q) := by
  unfold k0_pay1
  exact PlainMatmul.matmul_zero_apply 5000 128 64 none _ _ p q

/-! ## Where the blocks sit -/

/-- Over the twenty grid points: the x block and the output block are block t down the rows and block 0 across;
    the w block is always block (0, 0). -/
theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Block t of the product, for arrays typed by their shapes: entry (p, q) of the output block is entry
    (5000·t + p, q) of the array; row p of the x block is row 5000·t + p of x; the w block is all of w. -/
theorem blockProd0 (a : S100000x128.Idx → Elt Ideal .f32) (b : S128x64.Idx → Elt Ideal .f32) (t : Fin cfg0.N) (p : Fin 5000) (q : Fin 64) :
    ∑ k : Fin 128, a (((cfg0.win 0).blk t).view.emb (ix2 p k)) * b (((cfg0.win 1).blk t).view.emb (ix2 k q))
      = prod0 a b (((cfg0.win 2).blk t).view.emb (ix2 p q)) := by
  obtain ⟨e0, e1, e2, e3, e4, e5⟩ := blockIdx0 t
  refine Finset.sum_congr rfl fun k _ => ?_
  have hx : ((cfg0.win 0).blk t).view.emb (ix2 p k) = ix2 ((((cfg0.win 2).blk t).view.emb (ix2 p q)) 0 : Fin 100000) k := by
    funext d; apply Fin.ext
    match d with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have hw : ((cfg0.win 1).blk t).view.emb (ix2 k q) = ix2 k ((((cfg0.win 2).blk t).view.emb (ix2 p q)) 1 : Fin 64) := by
    funext d; apply Fin.ext
    match d with
    | ⟨0, _⟩ => show win0_1.index t (0 : Fin 2) * 128 + 1 * k.val = k.val; omega
    | ⟨1, _⟩ => show win0_1.index t (1 : Fin 2) * 64 + 1 * q.val = win0_2.index t (1 : Fin 2) * 64 + 1 * q.val; omega
  rw [hx, hw]
  rfl

/-- What grid point t writes back is block t of the product of the two arrays as the region finds them. -/
theorem flushed0_2_eq (c : Dev nD) (t : Fin cfg0.N) :
    (dat0 V c).flushed 2 t = ((cfg0.win 2).blk t).view.read (Elt Ideal) (prod0 (V c main_arg0) (V c main_arg3)) := by
  show (cfg0.win 2).cut (grid0.coords t) ((dat0 V c).after 2 t) = _
  rw [after0_2]
  unfold out0_2
  rw [View.canon_unit_zero zeroOffsets]
  simp only [View.ld_unit_zero (S := S5000x128) zeroOffsets, View.ld_unit_zero (S := S128x64) zeroOffsets]
  funext j
  obtain ⟨p, q, rfl⟩ : ∃ (p : Fin 5000) (q : Fin 64), j = ix2 p q := ⟨j 0, j 1, eq_ix2 j⟩
  show k0_pay1 (iblk0 V c 0 t) (iblk0 V c 1 t) (ix2 p q)
    = prod0 (V c main_arg0) (V c main_arg3) (((cfg0.win 2).blk t).view.emb (ix2 p q))
  rw [pay0_apply]
  exact blockProd0 (V c main_arg0) (V c main_arg3) t p q

/-! ## The blocks fill the array -/

/-- An entry of the array is in grid point t's block iff each coordinate is in the block's range on its axis. -/
theorem mem_outBlock0 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v15).slice (win0_2.rect t)).set ↔ _
  rw [View.set_slice_whole, Rect.mem_set_unit]
  exact Iff.rfl

/-- Row r of the array is in the block of grid point r / 5000, which is written back (every point is). -/
theorem outBlocks_cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  refine ⟨⟨(i 0).val / 5000, by rw [hN]; omega⟩, flush0_2 _, ?_⟩
  rw [mem_outBlock0]
  obtain ⟨-, -, -, -, e4, e5⟩ := blockIdx0 ⟨(i 0).val / 5000, by rw [hN]; omega⟩
  intro a
  match a with
  | ⟨0, _⟩ =>
    show win0_2.index _ (0 : Fin 2) * 5000 ≤ (i 0).val ∧ (i 0).val < win0_2.index _ (0 : Fin 2) * 5000 + 5000
    rw [e4]; show (i 0).val / 5000 * 5000 ≤ (i 0).val ∧ (i 0).val < (i 0).val / 5000 * 5000 + 5000; omega
  | ⟨1, _⟩ =>
    show win0_2.index _ (1 : Fin 2) * 64 ≤ (i 1).val ∧ (i 1).val < win0_2.index _ (1 : Fin 2) * 64 + 64
    rw [e5]; omega

/-! ## The output array after the region -/

/-- The output array after the last grid point is the product of x and w as the region found them. -/
theorem arrAt0_2 (c : Dev nD) : (dat0 V c).arrAt 2 cfg0.N = prod0 (V c main_arg0) (V c main_arg3) :=
  (dat0 V c).arrAt_eq_of_cover 2 (prod0 (V c main_arg0) (V c main_arg3)) (fun t _ => flushed0_2_eq V c t) outBlocks_cover0

/-- x, w and the output array after the region, typed by their shapes. -/
abbrev xArr0 (c : Dev nD) : S100000x128.Idx → Elt Ideal .f32 := V c main_arg0
abbrev wArr0 (c : Dev nD) : S128x64.Idx → Elt Ideal .f32 := V c main_arg3
abbrev oArr0 (c : Dev nD) : S100000x64.Idx → Elt Ideal .f32 := (dat0 V c).arrAt 2 cfg0.N

/-- Entry (i, l) of the output array: o (i, l) = ∑ k, x (i, k) · w (k, l). -/
theorem arrAt0_2_apply (c : Dev nD) (i : Fin 100000) (l : Fin 64) :
    oArr0 V c (ix2 i l) = ∑ k : Fin 128, xArr0 V c (ix2 i k) * wArr0 V c (ix2 k l) := by
  show (dat0 V c).arrAt 2 cfg0.N (ix2 i l) = _
  rw [arrAt0_2]; rfl

end Cert.KernelIdeal.Hand

end
-- ==== Proof.KI.HostStages.lean ====
import proofs.«421031_j46042049413263_1_alg».proof.Proof.Gen.KernelIdeal.Regions
import Idealize.ShloMosaic.Lib.StableHlo.Run
import Idealize.ShloMosaic.PureOps.Ideal

/-!
# What the host stretches compute between the regions

The program is a graph convolution network's forward pass: four kernel regions, and between them
stretches of host operations. This module reads every buffer a later region, or the result, takes
from a host stretch, as an explicit composition of named functions applied to the launch contents
and to what the regions left (`outs`), at the ideal instance.

* the edge lists with one self loop per node appended, and the symmetric normalisation
  `deg^(-1/2)` of the in-degrees (`srcL`, `dstL`, `dinv`);
* one propagation step `conv`: gather the source rows, scale each edge by
  `dinv[src] * dinv[dst]`, sum into the target rows — stated once and used for both layers;
* the parameter rows (a vector as a `1 × 64` row; a batch-norm scale `g / sqrt(1 + ε)`);
* the graph index column;
* the readout `pool`: mean over each graph, then row-wise `L2` normalisation.
-/

set_option maxRecDepth 1264

noncomputable section

namespace Cert.KernelIdeal.HandValue

open Idealize.ShloMosaic Idealize.ShloMosaic.TcCoe Idealize.ShloMosaic.StableHlo
open Cert.KernelIdeal Cert.KernelIdeal.Gen

/-! ## The edge lists and the normalisation -/

/-- Row `0` of the `2 × E` edge array, as a list: the edges' sources. -/
def edgeRow0 (e : IVec S2x3200000 32) : IVec S3200000 32 :=
  shapeCast S3200000 (extractStridedSlice S1x3200000 ![0, 0] e slices_S2x3200000_S1x3200000_0_0)
    shapeCasts_S1x3200000_S3200000

/-- Row `1` of the `2 × E` edge array, as a list: the edges' targets. -/
def edgeRow1 (e : IVec S2x3200000 32) : IVec S3200000 32 :=
  shapeCast S3200000 (extractStridedSlice S1x3200000 ![1, 0] e slices_S2x3200000_S1x3200000_1_0)
    shapeCasts_S1x3200000_S3200000

/-- An edge list followed by one self loop per node: `0, 1, …, N - 1` appended. -/
def withLoops (r : IVec S3200000 32) : IVec S3300000 32 :=
  concatenate S3300000 0 [⟨S3200000, r⟩, ⟨S100000, iotaInDim S100000 32 0⟩]
    concatenates_S3200000_S100000_S3300000_d0

/-- The constant vector `0` over the nodes. -/
def zeroN : FVec Ideal S100000 .f32 :=
  broadcastInDim S100000 ![] bcast_S_S100000 (constant (F := Ideal) S_ .f32 0x00000000#32)

/-- An index list as a column of indices. -/
def col (ix : IVec S3300000 32) : IVec S3300000x1 32 :=
  broadcastInDim S3300000x1 ![0] bcast_S3300000_S3300000x1_0 ix

/-- The in-degree of every node: a one summed in at each edge's target. -/
def degOf (dst : IVec S3300000 32) : FVec Ideal S100000 .f32 :=
  Host.scatterAdd (F := Ideal) scatter_S100000_S3300000x1_S3300000_n_0_0_1 zeroN (col dst)
    (broadcastInDim S3300000 ![] bcast_S_S3300000 (constant (F := Ideal) S_ .f32 0x3F800000#32))

/-- The normalisation `deg^(-1/2)` where the degree is positive, `0` elsewhere. -/
def dinvOf (dst : IVec S3300000 32) : FVec Ideal S100000 .f32 :=
  select (cmpf (F := Ideal) .ogt (degOf dst) zeroN) (Host.rsqrt (F := Ideal) (degOf dst)) zeroN

variable (m : (ℓ : Loc nD τ sig) → Buf (Elt Ideal) ℓ) (outs : Outs (F := Ideal)) (c : Dev nD)

/-- The sources of all edges, self loops included. -/
def srcL : IVec S3300000 32 := withLoops (edgeRow0 (m ((c : Thread nD τ).loc main_arg1)))
/-- The targets of all edges, self loops included. -/
def dstL : IVec S3300000 32 := withLoops (edgeRow1 (m ((c : Thread nD τ).loc main_arg1)))
/-- The normalisation of the graph with self loops. -/
def dinv : FVec Ideal S100000 .f32 := dinvOf (dstL m c)

section
variable (W : Valuation τ sig (Elt Ideal))

/-- The first stretch leaves the source list in `main_v5`. -/
theorem hostOps0_main_v5 :
    StableHlo.after hostOps0 W (Proc.devRef .tc main_v5) = withLoops (edgeRow0 (W (Proc.devRef .tc main_arg1))) := by
  after_results; rfl

/-- The first stretch leaves the target list in `main_v6`. -/
theorem hostOps0_main_v6 :
    StableHlo.after hostOps0 W (Proc.devRef .tc main_v6) = withLoops (edgeRow1 (W (Proc.devRef .tc main_arg1))) := by
  after_results; rfl

/-- The first stretch leaves the test `deg > 0` in `main_v12`. -/
theorem hostOps0_main_v12 :
    StableHlo.after hostOps0 W (Proc.devRef .tc main_v12)
      = cmpf (F := Ideal) .ogt (degOf (withLoops (edgeRow1 (W (Proc.devRef .tc main_arg1))))) zeroN := by
  after_results; rfl

/-- The first stretch leaves `deg^(-1/2)` in `main_v13`. -/
theorem hostOps0_main_v13 :
    StableHlo.after hostOps0 W (Proc.devRef .tc main_v13)
      = Host.rsqrt (F := Ideal) (degOf (withLoops (edgeRow1 (W (Proc.devRef .tc main_arg1))))) := by
  after_results; rfl

/-- The first stretch leaves the scalar `0` in `main_cst_2`. -/
theorem hostOps0_main_cst_2 :
    StableHlo.after hostOps0 W (Proc.devRef .tc main_cst_2) = constant (F := Ideal) S_ .f32 0x00000000#32 := by
  after_results

/-- The outlined selection: where the test holds the second operand, elsewhere the scalar spread over the nodes. -/
theorem hostOps0_1_main_v14 :
    StableHlo.after hostOps0_1 W (Proc.devRef .tc main_v14)
      = select (W (Proc.devRef .tc main_v12)) (W (Proc.devRef .tc main_v13))
          (broadcastInDim S100000 ![] bcast_S_S100000 (W (Proc.devRef .tc main_cst_2))) := by
  after_results; rfl
end

/-- Before region 0, `main_v5` holds the source list. -/
theorem V2_main_v5 : V2 m c main_v5 = srcL m c :=
  (V2_of m c main_v5 (by decide)).trans (hostOps0_main_v5 (V0 m c))

/-- Before region 0, `main_v6` holds the target list. -/
theorem V2_main_v6 : V2 m c main_v6 = dstL m c :=
  (V2_of m c main_v6 (by decide)).trans (hostOps0_main_v6 (V0 m c))

/-- Before region 0, `main_v14` holds the normalisation: the selection applied to the first stretch's test,
    inverse square root and zero. -/
theorem V2_main_v14 : V2 m c main_v14 = dinv m c := by
  refine (hostOps0_1_main_v14 (V1 m c)).trans ?_
  show select (StableHlo.after hostOps0 (V0 m c) (Proc.devRef .tc main_v12))
      (StableHlo.after hostOps0 (V0 m c) (Proc.devRef .tc main_v13))
      (broadcastInDim S100000 ![] bcast_S_S100000 (StableHlo.after hostOps0 (V0 m c) (Proc.devRef .tc main_cst_2))) = _
  rw [hostOps0_main_v12, hostOps0_main_v13, hostOps0_main_cst_2]
  rfl

/-- Region 0's two windows read the launch's node features and first weight matrix. -/
theorem V2_main_arg0 : V2 m c main_arg0 = m ((c : Thread nD τ).loc main_arg0) :=
  (V2_of m c main_arg0 (by decide)).trans <| (V1_of m c main_arg0 (by decide)).trans rfl
theorem V2_main_arg3 : V2 m c main_arg3 = m ((c : Thread nD τ).loc main_arg3) :=
  (V2_of m c main_arg3 (by decide)).trans <| (V1_of m c main_arg3 (by decide)).trans rfl

/-! ## One propagation step -/

/-- An index list with its negative entries wrapped around (`i < 0` reads as `i + N`), as a column of indices. -/
def wrapCol (ix : IVec S3300000 32) : IVec S3300000x1 32 :=
  col (select (cmpi .slt ix (broadcastInDim S3300000 ![] bcast_S_S3300000 (constantI S_ 32 0#32)))
    (addi ix (broadcastInDim S3300000 ![] bcast_S_S3300000 (constantI S_ 32 100000#32))) ix)

/-- The weight of every edge: `dinv[src] * dinv[dst]`. -/
def edgeW (src dst : IVec S3300000 32) (dinv : FVec Ideal S100000 .f32) : FVec Ideal S3300000 .f32 :=
  mulf (F := Ideal) (Host.gather gather_S100000_S3300000x1_S3300000_n_0_n_n_0_1_1 dinv (wrapCol src))
    (Host.gather gather_S100000_S3300000x1_S3300000_n_0_n_n_0_1_1 dinv (wrapCol dst))

/-- One weight per edge, repeated along the 64 features. -/
def spreadE (w : FVec Ideal S3300000 .f32) : FVec Ideal S3300000x64 .f32 :=
  broadcastInDim S3300000x64 ![0, 1] bcast_S3300000x1_S3300000x64_0_1
    (broadcastInDim S3300000x1 ![0] bcast_S3300000_S3300000x1_0 w)

/-- One propagation step of the normalised adjacency: every edge takes its source's row of `h`, scales it by
    the edge's weight, and the scaled rows are summed into the edge's target row, from zero. -/
def conv (h : FVec Ideal S100000x64 .f32) (src dst : IVec S3300000 32) (dinv : FVec Ideal S100000 .f32) :
    FVec Ideal S100000x64 .f32 :=
  Host.scatterAdd (F := Ideal) scatter_S100000x64_S3300000x1_S3300000x64_1_0_0_1
    (broadcastInDim S100000x64 ![] bcast_S_S100000x64 (constant (F := Ideal) S_ .f32 0x00000000#32))
    (col dst)
    (mulf (F := Ideal) (Host.gather gather_S100000x64_S3300000x1_S3300000x64_1_0_n_n_0_1_164 h (wrapCol src))
      (spreadE (edgeW src dst dinv)))

section
variable (W : Valuation τ sig (Elt Ideal))

/-- The stretch after region 0 leaves in `main_v43` one propagation step of `main_v15`. -/
theorem hostOps1_main_v43 :
    StableHlo.after hostOps1 W (Proc.devRef .tc main_v43)
      = conv (W (Proc.devRef .tc main_v15)) (W (Proc.devRef .tc main_v5)) (W (Proc.devRef .tc main_v6))
          (W (Proc.devRef .tc main_v14)) := by
  after_results_simp; rfl

/-- The stretch after region 1 leaves in `main_v79` one propagation step of `main_v51`. -/
theorem hostOps2_main_v79 :
    StableHlo.after hostOps2 W (Proc.devRef .tc main_v79)
      = conv (W (Proc.devRef .tc main_v51)) (W (Proc.devRef .tc main_v5)) (W (Proc.devRef .tc main_v6))
          (W (Proc.devRef .tc main_v14)) := by
  after_results_simp; rfl
end

/-! ### What the regions and the later stretches leave of the graph data -/

/-- A reference that neither of the first two stretches writes and that is not region 0's output still holds its
    launch contents when the stretch after region 0 starts. -/
theorem V3_launch (r : Ref sig .tc) (h0 : r ∉ hostOps0_W) (h1 : r ∉ hostOps0_1_W)
    (h2 : r ∉ ([main_v15] : List (Ref sig .tc))) : V3 m outs c r = m ((c : Thread nD τ).loc r) :=
  (V3_of m outs c r h2).trans <| (V2_of m c r h1).trans <| (V1_of m c r h0).trans rfl

/-- … and likewise when the stretch after region 1 starts. -/
theorem V5_launch (r : Ref sig .tc) (h0 : r ∉ hostOps0_W) (h1 : r ∉ hostOps0_1_W)
    (h2 : r ∉ ([main_v15] : List (Ref sig .tc))) (h3 : r ∉ hostOps1_W)
    (h4 : r ∉ ([main_v51] : List (Ref sig .tc))) : V5 m outs c r = m ((c : Thread nD τ).loc r) :=
  (V5_of m outs c r h4).trans <| (V4_of m outs c r h3).trans <| V3_launch m outs c r h0 h1 h2

/-- … and when the stretch after region 2 starts. -/
theorem V7_launch (r : Ref sig .tc) (h0 : r ∉ hostOps0_W) (h1 : r ∉ hostOps0_1_W)
    (h2 : r ∉ ([main_v15] : List (Ref sig .tc))) (h3 : r ∉ hostOps1_W)
    (h4 : r ∉ ([main_v51] : List (Ref sig .tc))) (h5 : r ∉ hostOps2_W)
    (h6 : r ∉ ([main_v95] : List (Ref sig .tc))) : V7 m outs c r = m ((c : Thread nD τ).loc r) :=
  (V7_of m outs c r h6).trans <| (V6_of m outs c r h5).trans <| V5_launch m outs c r h0 h1 h2 h3 h4

/-- Region 0 leaves `outs 3` in its output array. -/
theorem V3_main_v15 : V3 m outs c main_v15 = outs 3 main_v15 c := Function.update_self ..
theorem V3_main_v5 : V3 m outs c main_v5 = srcL m c := (V3_of m outs c main_v5 (by decide)).trans (V2_main_v5 m c)
theorem V3_main_v6 : V3 m outs c main_v6 = dstL m c := (V3_of m outs c main_v6 (by decide)).trans (V2_main_v6 m c)
theorem V3_main_v14 : V3 m outs c main_v14 = dinv m c := (V3_of m outs c main_v14 (by decide)).trans (V2_main_v14 m c)

/-- Region 1 leaves `outs 5` in its output array. -/
theorem V5_main_v51 : V5 m outs c main_v51 = outs 5 main_v51 c := Function.update_self ..
theorem V5_main_v5 : V5 m outs c main_v5 = srcL m c :=
  (V5_of m outs c main_v5 (by decide)).trans <| (V4_of m outs c main_v5 (by decide)).trans (V3_main_v5 m outs c)
theorem V5_main_v6 : V5 m outs c main_v6 = dstL m c :=
  (V5_of m outs c main_v6 (by decide)).trans <| (V4_of m outs c main_v6 (by decide)).trans (V3_main_v6 m outs c)
theorem V5_main_v14 : V5 m outs c main_v14 = dinv m c :=
  (V5_of m outs c main_v14 (by decide)).trans <| (V4_of m outs c main_v14 (by decide)).trans (V3_main_v14 m outs c)

/-- Region 1 reads, as its first window's array, one propagation step of what region 0 left. -/
theorem V4_main_v43 : V4 m outs c main_v43 = conv (outs 3 main_v15 c) (srcL m c) (dstL m c) (dinv m c) := by
  refine (hostOps1_main_v43 (V3 m outs c)).trans ?_
  rw [V3_main_v15, V3_main_v5, V3_main_v6, V3_main_v14]

/-- Region 2 reads, as its first window's array, one propagation step of what region 1 left. -/
theorem V6_main_v79 : V6 m outs c main_v79 = conv (outs 5 main_v51 c) (srcL m c) (dstL m c) (dinv m c) := by
  refine (hostOps2_main_v79 (V5 m outs c)).trans ?_
  rw [V5_main_v51, V5_main_v5, V5_main_v6, V5_main_v14]

/-! ## The parameter rows -/

/-- A vector of 64 features as a `1 × 64` row. -/
def row (v : FVec Ideal S64 .f32) : FVec Ideal S1x64 .f32 := shapeCast S1x64 v shapeCasts_S64_S1x64

/-- A batch-norm scale in evaluation mode: `g / sqrt(1 + ε)`, the constant `1 + ε` as the program writes it. -/
def bnScale (g : FVec Ideal S64 .f32) : FVec Ideal S64 .f32 :=
  Host.divf (F := Ideal) g
    (broadcastInDim S64 ![] bcast_S_S64 (Host.sqrt (F := Ideal) (constant (F := Ideal) S_ .f32 0x3F800054#32)))

section
variable (W : Valuation τ sig (Elt Ideal))

theorem hostOps1_main_v48 :
    StableHlo.after hostOps1 W (Proc.devRef .tc main_v48) = row (W (Proc.devRef .tc main_arg4)) := by
  after_results_simp; rfl
theorem hostOps1_main_v49 :
    StableHlo.after hostOps1 W (Proc.devRef .tc main_v49) = row (bnScale (W (Proc.devRef .tc main_arg5))) := by
  after_results_simp; rfl
theorem hostOps1_main_v50 :
    StableHlo.after hostOps1 W (Proc.devRef .tc main_v50) = row (W (Proc.devRef .tc main_arg6)) := by
  after_results_simp; rfl

theorem hostOps2_main_v88 :
    StableHlo.after hostOps2 W (Proc.devRef .tc main_v88) = row (W (Proc.devRef .tc main_arg8)) := by
  after_results_simp; rfl
theorem hostOps2_main_v89 :
    StableHlo.after hostOps2 W (Proc.devRef .tc main_v89) = row (bnScale (W (Proc.devRef .tc main_arg9))) := by
  after_results_simp; rfl
theorem hostOps2_main_v90 :
    StableHlo.after hostOps2 W (Proc.devRef .tc main_v90) = row (W (Proc.devRef .tc main_arg10)) := by
  after_results_simp; rfl
theorem hostOps2_main_v91 :
    StableHlo.after hostOps2 W (Proc.devRef .tc main_v91) = row (W (Proc.devRef .tc main_arg12)) := by
  after_results_simp; rfl
theorem hostOps2_main_v92 :
    StableHlo.after hostOps2 W (Proc.devRef .tc main_v92) = row (bnScale (W (Proc.devRef .tc main_arg13))) := by
  after_results_simp; rfl
theorem hostOps2_main_v93 :
    StableHlo.after hostOps2 W (Proc.devRef .tc main_v93) = row (W (Proc.devRef .tc main_arg14)) := by
  after_results_simp; rfl
theorem hostOps2_main_v94 :
    StableHlo.after hostOps2 W (Proc.devRef .tc main_v94) = row (W (Proc.devRef .tc main_arg16)) := by
  after_results_simp; rfl
end

/-- Region 1's bias row: the first layer's bias. -/
theorem V4_main_v48 : V4 m outs c main_v48 = row (m ((c : Thread nD τ).loc main_arg4)) := by
  refine (hostOps1_main_v48 (V3 m outs c)).trans ?_
  rw [V3_launch m outs c main_arg4 (by decide) (by decide) (by decide)]
/-- Region 1's scale row: the first layer's batch-norm scale. -/
theorem V4_main_v49 : V4 m outs c main_v49 = row (bnScale (m ((c : Thread nD τ).loc main_arg5))) := by
  refine (hostOps1_main_v49 (V3 m outs c)).trans ?_
  rw [V3_launch m outs c main_arg5 (by decide) (by decide) (by decide)]
/-- Region 1's shift row: the first layer's batch-norm shift. -/
theorem V4_main_v50 : V4 m outs c main_v50 = row (m ((c : Thread nD τ).loc main_arg6)) := by
  refine (hostOps1_main_v50 (V3 m outs c)).trans ?_
  rw [V3_launch m outs c main_arg6 (by decide) (by decide) (by decide)]
/-- Region 1's weight matrix is the launch's. -/
theorem V4_main_arg7 : V4 m outs c main_arg7 = m ((c : Thread nD τ).loc main_arg7) :=
  (V4_of m outs c main_arg7 (by decide)).trans (V3_launch m outs c main_arg7 (by decide) (by decide) (by decide))

/-- Region 2's rows: the second layer's bias, scale and shift, then the projector's. -/
theorem V6_main_v88 : V6 m outs c main_v88 = row (m ((c : Thread nD τ).loc main_arg8)) := by
  refine (hostOps2_main_v88 (V5 m outs c)).trans ?_
  rw [V5_launch m outs c main_arg8 (by decide) (by decide) (by decide) (by decide) (by decide)]
theorem V6_main_v89 : V6 m outs c main_v89 = row (bnScale (m ((c : Thread nD τ).loc main_arg9))) := by
  refine (hostOps2_main_v89 (V5 m outs c)).trans ?_
  rw [V5_launch m outs c main_arg9 (by decide) (by decide) (by decide) (by decide) (by decide)]
theorem V6_main_v90 : V6 m outs c main_v90 = row (m ((c : Thread nD τ).loc main_arg10)) := by
  refine (hostOps2_main_v90 (V5 m outs c)).trans ?_
  rw [V5_launch m outs c main_arg10 (by decide) (by decide) (by decide) (by decide) (by decide)]
theorem V6_main_v91 : V6 m outs c main_v91 = row (m ((c : Thread nD τ).loc main_arg12)) := by
  refine (hostOps2_main_v91 (V5 m outs c)).trans ?_
  rw [V5_launch m outs c main_arg12 (by decide) (by decide) (by decide) (by decide) (by decide)]
theorem V6_main_v92 : V6 m outs c main_v92 = row (bnScale (m ((c : Thread nD τ).loc main_arg13))) := by
  refine (hostOps2_main_v92 (V5 m outs c)).trans ?_
  rw [V5_launch m outs c main_arg13 (by decide) (by decide) (by decide) (by decide) (by decide)]
theorem V6_main_v93 : V6 m outs c main_v93 = row (m ((c : Thread nD τ).loc main_arg14)) := by
  refine (hostOps2_main_v93 (V5 m outs c)).trans ?_
  rw [V5_launch m outs c main_arg14 (by decide) (by decide) (by decide) (by decide) (by decide)]
theorem V6_main_v94 : V6 m outs c main_v94 = row (m ((c : Thread nD τ).loc main_arg16)) := by
  refine (hostOps2_main_v94 (V5 m outs c)).trans ?_
  rw [V5_launch m outs c main_arg16 (by decide) (by decide) (by decide) (by decide) (by decide)]
/-- Region 2's two weight matrices are the launch's. -/
theorem V6_main_arg11 : V6 m outs c main_arg11 = m ((c : Thread nD τ).loc main_arg11) :=
  (V6_of m outs c main_arg11 (by decide)).trans
    (V5_launch m outs c main_arg11 (by decide) (by decide) (by decide) (by decide) (by decide))
theorem V6_main_arg15 : V6 m outs c main_arg15 = m ((c : Thread nD τ).loc main_arg15) :=
  (V6_of m outs c main_arg15 (by decide)).trans
    (V5_launch m outs c main_arg15 (by decide) (by decide) (by decide) (by decide) (by decide))

/-! ## The graph index column -/

/-- The graph of every node, as an `N × 1` column. -/
def graphCol (b : IVec S100000 32) : IVec S100000x1 32 := shapeCast S100000x1 b shapeCasts_S100000_S100000x1

theorem hostOps3_main_v96 (W : Valuation τ sig (Elt Ideal)) :
    StableHlo.after hostOps3 W (Proc.devRef .tc main_v96) = graphCol (W (Proc.devRef .tc main_arg2)) := by
  after_results; rfl

/-- Region 3's index window reads the launch's graph indices as a column. -/
theorem V8_main_v96 : V8 m outs c main_v96 = graphCol (m ((c : Thread nD τ).loc main_arg2)) := by
  refine (hostOps3_main_v96 (V7 m outs c)).trans ?_
  rw [V7_launch m outs c main_arg2 (by decide) (by decide) (by decide) (by decide) (by decide) (by decide) (by decide)]

/-- Region 2 leaves `outs 7` in its output array. -/
theorem V7_main_v95 : V7 m outs c main_v95 = outs 7 main_v95 c := Function.update_self ..

/-- Region 3's value window reads what region 2 left. -/
theorem V8_main_v95 : V8 m outs c main_v95 = outs 7 main_v95 c :=
  (V8_of m outs c main_v95 (by decide)).trans (V7_main_v95 m outs c)

/-! ## The readout -/

/-- One value per graph, repeated along the 64 features. -/
def spreadG (v : FVec Ideal S256x1 .f32) : FVec Ideal S256x64 .f32 :=
  broadcastInDim S256x64 ![0, 1] bcast_S256x1_S256x64_0_1 v

/-- A scalar constant, one copy per graph. -/
def fillG (b : BitVec 32) : FVec Ideal S256x1 .f32 :=
  broadcastInDim S256x1 ![] bcast_S_S256x1 (constant (F := Ideal) S_ .f32 b)

/-- The mean of each graph's rows: the sums over the node counts, a count below one read as one. -/
def poolMean (sums : FVec Ideal S256x64 .f32) (cnts : FVec Ideal S256x1 .f32) : FVec Ideal S256x64 .f32 :=
  Host.divf (F := Ideal) sums (spreadG (maximumf (F := Ideal) cnts (fillG 0x3F800000#32)))

/-- The Euclidean norm of each row, bounded below by the constant `1e-12`. -/
def rowNorm (x : FVec Ideal S256x64 .f32) : FVec Ideal S256x1 .f32 :=
  maximumf (F := Ideal)
    (Host.sqrt (F := Ideal) (broadcastInDim S256x1 ![0] bcast_S256_S256x1_0
      (Host.reduceAdd (F := Ideal) (mulf (F := Ideal) x x) (constant (F := Ideal) S_ .f32 0x00000000#32)
        reducesTo_S256x64_S256_d1 h_S_)))
    (fillG 0x2B8CBCCC#32)

/-- A matrix with every row divided by its bounded norm. -/
def normalizeRows (x : FVec Ideal S256x64 .f32) : FVec Ideal S256x64 .f32 :=
  Host.divf (F := Ideal) x (spreadG (rowNorm x))

/-- The readout: the mean embedding of every graph, normalised row by row. -/
def pool (sums : FVec Ideal S256x64 .f32) (cnts : FVec Ideal S256x1 .f32) : FVec Ideal S256x64 .f32 :=
  normalizeRows (poolMean sums cnts)

theorem hostOps4_main_v109 (W : Valuation τ sig (Elt Ideal)) :
    StableHlo.after hostOps4 W (Proc.devRef .tc main_v109)
      = pool (W (Proc.devRef .tc main_v97_0)) (W (Proc.devRef .tc main_v97_1)) := by
  after_results; rfl

/-- Region 3 leaves `outs 9` in its two output arrays. -/
theorem V9_main_v97_0 : V9 m outs c main_v97_0 = outs 9 main_v97_0 c :=
  (Function.update_of_ne (StableHlo.devRef_ne_of_ne (by decide : main_v97_0 ≠ main_v97_1)) ..).trans
    (Function.update_self ..)
theorem V9_main_v97_1 : V9 m outs c main_v97_1 = outs 9 main_v97_1 c := Function.update_self ..

/-- The second result: the readout of region 3's sums and counts. -/
theorem V10_main_v109 : V10 m outs c main_v109 = pool (outs 9 main_v97_0 c) (outs 9 main_v97_1 c) := by
  refine (hostOps4_main_v109 (V9 m outs c)).trans ?_
  rw [V9_main_v97_0, V9_main_v97_1]

/-- The first result: what region 2 left, untouched by region 3 and by the last stretch. -/
theorem V10_main_v95 : V10 m outs c main_v95 = outs 7 main_v95 c :=
  (V10_of m outs c main_v95 (by decide)).trans <| (V9_of m outs c main_v95 (by decide)).trans (V8_main_v95 m outs c)

end Cert.KernelIdeal.HandValue
-- ==== Proof.KI.Val1.lean ====
import proofs.«421031_j46042049413263_1_alg».proof.Proof.KI.Reg1
import Idealize.ShloMosaic.Lib.Pipeline.Value
import Idealize.ShloMosaic.Lib.ValueIdx
import Idealize.ShloMosaic.PureOps.Ideal.Laws

/-!
# Region 1 at the ideal values: what its output array holds

Over the extended reals the body's rounding to bf16 is the identity and the product into the zero accumulator is
the plain sum over the contracted axis, so the 100000 x 64 output array ends holding, at row `i` and column `l`,

  sum over k < 64 of  max ((h i k + b k) * scale k + beta k) 0 * w k l,

where `h`, `b`, `scale`, `beta`, `w` are the five input arrays as the region finds them. The 20 output blocks of
5000 rows tile the array, and each point writes its own block of this one function.
-/

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-! ## The function -/

/-- Normalise each row by the three rows, rectify, multiply by the matrix. -/
def bnReluDot (h : FVec Ideal S100000x64 .f32) (b s be : FVec Ideal S1x64 .f32) (w : FVec Ideal S64x64 .f32) :
    FVec Ideal S100000x64 .f32 :=
  fun i => ∑ k : Fin 64,
    max ((h (ix2 (n0 := 100000) (n1 := 64) (i 0) k) + b (ix2 (n0 := 1) (n1 := 64) 0 k)) * s (ix2 (n0 := 1) (n1 := 64) 0 k)
      + be (ix2 (n0 := 1) (n1 := 64) 0 k)) 0 * w (ix2 (n0 := 64) (n1 := 64) k (i 1))

/-- The function at row `i`, column `l`. -/
theorem bnReluDot_apply (h : FVec Ideal S100000x64 .f32) (b s be : FVec Ideal S1x64 .f32) (w : FVec Ideal S64x64 .f32)
    (i : Fin 100000) (l : Fin 64) :
    bnReluDot h b s be w (ix2 i l)
      = ∑ k : Fin 64, max ((h (ix2 i k) + b (ix2 0 k)) * s (ix2 0 k) + be (ix2 0 k)) 0 * w (ix2 k l) := rfl

/-! ## The product's operand indices -/

/-- The left operand is read at the output's row and the contraction index, the right operand at the contraction
    index and the output's column. -/
theorem lhs_k1_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_k1_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_k1_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_k1_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The product into the zero accumulator, read at row `p` and column `q`: the sum over the contracted axis. -/
theorem dot_k1_apply (l : FVec Ideal S5000x64 .bf16) (r : FVec Ideal S64x64 .bf16) (p : Fin 5000) (q : Fin 64) :
    matmul (F := Ideal) dot_S5000x64_S64x64_S5000x64_1_0_0_1_n_n none l r (constant S5000x64 .f32 0x00000000#32) (ix2 p q)
      = ∑ k : Fin 64, l (ix2 p k) * r (ix2 k q) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs_k1_0 _ _
    | ⟨1, _⟩ => exact (lhs_k1_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhs_k1_0 _ _).trans hk
    | ⟨1, _⟩ => exact rhs_k1_1 _ _)
  rw [el, er]

/-! ## The body's result at an index -/

/-- A row spread over the 5000 rows of a block reads the row's entry in the same column. -/
theorem row_spread_apply (x : Vec Ideal S1x64 .f32) (p : Fin 5000) (k : Fin 64) :
    broadcastTo S5000x64 (shapeCast S1x64 x shapeCasts_S1x64_S1x64) broadcasts_S1x64_S5000x64 (ix2 p k) = x (ix2 0 k) := by
  rw [shapeCast_self]
  exact broadcastTo_apply x _ (ix2 p k) (ix2 0 k) (fun a => by
    match a with
    | ⟨0, _⟩ => rfl
    | ⟨1, _⟩ => rfl)

/-- The body's stored value at row `p`, column `q` of its block. -/
theorem k1_pay1_apply (x0 : Vec Ideal S5000x64 .f32) (x1 x2 x3 : Vec Ideal S1x64 .f32) (x4 : Vec Ideal S64x64 .f32)
    (p : Fin 5000) (q : Fin 64) :
    k1_pay1 (F := Ideal) x0 x1 x2 x3 x4 (ix2 p q)
      = ∑ k : Fin 64, max ((x0 (ix2 p k) + x1 (ix2 0 k)) * x2 (ix2 0 k) + x3 (ix2 0 k)) 0 * x4 (ix2 k q) := by
  unfold k1_pay1
  refine (dot_k1_apply _ _ p q).trans ?_
  refine Finset.sum_congr rfl fun k _ => ?_
  rw [truncf_apply, truncf_apply, maximumf_apply, addf_apply, mulf_apply, addf_apply, broadcast_apply,
    row_spread_apply, row_spread_apply, row_spread_apply, shapeCast_self]
  show max _ (Ideal.ofBits .f32 0x00000000#32) * _ = _
  rw [Ideal.ofBits_zero_f32]

/-- The same with the five blocks named by what they hold of five arrays: block row `p` is array row `i 0`, the
    rows and the matrix are whole, the block column is the array column. -/
theorem k1_pay1_eq_bnReluDot (x0 : Vec Ideal S5000x64 .f32) (x1 x2 x3 : Vec Ideal S1x64 .f32) (x4 : Vec Ideal S64x64 .f32)
    (H : FVec Ideal S100000x64 .f32) (B S' Be : FVec Ideal S1x64 .f32) (W : FVec Ideal S64x64 .f32)
    (p : Fin 5000) (q : Fin 64) (i : S100000x64.Idx) (hq : (i 1).val = q.val)
    (h0 : ∀ k : Fin 64, x0 (ix2 p k) = H (ix2 (n0 := 100000) (n1 := 64) (i 0) k))
    (h1 : ∀ k : Fin 64, x1 (ix2 0 k) = B (ix2 0 k)) (h2 : ∀ k : Fin 64, x2 (ix2 0 k) = S' (ix2 0 k))
    (h3 : ∀ k : Fin 64, x3 (ix2 0 k) = Be (ix2 0 k)) (h4 : ∀ k l : Fin 64, x4 (ix2 k l) = W (ix2 k l)) :
    k1_pay1 (F := Ideal) x0 x1 x2 x3 x4 (ix2 p q) = bnReluDot H B S' Be W i := by
  rw [k1_pay1_apply]
  unfold bnReluDot
  refine Finset.sum_congr rfl fun k _ => ?_
  have e : (i 1 : Fin 64) = q := Fin.ext hq
  rw [h0, h1, h2, h3, h4, e]

/-! ## From blocks to the array -/

theorem hz1 : (![0, 0] : Fin 2 → Nat) = fun _ => 0 := funext fun a => by fin_cases a <;> rfl

/-- The windows' block indices over the 20 points: the activations' block and the output's block are both the
    point's own, in the one column of blocks; the rows and the matrix stay at block (0, 0). -/
theorem idx_facts1 : ∀ t : Fin cfg1.N, win1_0.index t (0 : Fin 2) = t.val ∧ win1_0.index t (1 : Fin 2) = 0
    ∧ win1_5.index t (0 : Fin 2) = t.val ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

variable (V : (c : Dev nD) → (b : Ref sig .tc) → Buf (Elt Ideal) ((c : Thread nD τ).loc b))

/-- What point `t` writes back is block `t` of the one function of the five arrays. -/
theorem flushed1_5_eq (c : Dev nD) (t : Fin cfg1.N) :
    (dat1 V c).flushed 5 t = ((cfg1.win 5).blk t).view.read (Elt Ideal)
      (bnReluDot (V c main_v43) (V c main_v48) (V c main_v49) (V c main_v50) (V c main_arg7)) := by
  show (cfg1.win 5).cut (grid1.coords t) ((dat1 V c).after 5 t) = _
  rw [after1_5]
  unfold out1_5
  rw [View.canon_unit_zero hz1]
  simp only [View.ld_unit_zero (S := S5000x64) hz1, View.ld_unit_zero (S := S1x64) hz1, View.ld_unit_zero (S := S64x64) hz1]
  obtain ⟨e00, e01, e50, e51, e10, e11, e20, e21, e30, e31, e40, e41⟩ := idx_facts1 t
  funext j
  obtain ⟨p, q, rfl⟩ : ∃ (p : Fin 5000) (q : Fin 64), j = ix2 p q := ⟨j 0, j 1, eq_ix2 j⟩
  have hq : ((((cfg1.win 5).blk t).view.emb (ix2 p q)) 1).val = q.val := by
    show win1_5.index t (1 : Fin 2) * 64 + 1 * q.val = q.val; omega
  have h0 : ∀ k : Fin 64, (iblk1 V c 0 t : Vec Ideal S5000x64 .f32) (ix2 p k)
      = (V c main_v43 : FVec Ideal S100000x64 .f32) (ix2 (n0 := 100000) (n1 := 64) ((((cfg1.win 5).blk t).view.emb (ix2 p q)) 0) k) := fun k => by
    show V c main_v43 (((cfg1.win 0).blk t).view.emb (ix2 p k)) = V c main_v43 (ix2 (n0 := 100000) (n1 := 64) ((((cfg1.win 5).blk t).view.emb (ix2 p q)) 0) k)
    refine congrArg _ (funext fun a => Fin.ext ?_)
    match a with
    | ⟨0, _⟩ => show win1_0.index t (0 : Fin 2) * 5000 + 1 * p.val = win1_5.index t (0 : Fin 2) * 5000 + 1 * p.val; omega
    | ⟨1, _⟩ => show win1_0.index t (1 : Fin 2) * 64 + 1 * k.val = k.val; omega
  have h1 : ∀ k : Fin 64, (iblk1 V c 1 t : Vec Ideal S1x64 .f32) (ix2 0 k) = (V c main_v48 : FVec Ideal S1x64 .f32) (ix2 0 k) := fun k => by
    show V c main_v48 (((cfg1.win 1).blk t).view.emb (ix2 0 k)) = V c main_v48 (ix2 0 k)
    refine congrArg _ (funext fun a => Fin.ext ?_)
    match a with
    | ⟨0, _⟩ => show win1_1.index t (0 : Fin 2) * 1 + 1 * 0 = 0; omega
    | ⟨1, _⟩ => show win1_1.index t (1 : Fin 2) * 64 + 1 * k.val = k.val; omega
  have h2 : ∀ k : Fin 64, (iblk1 V c 2 t : Vec Ideal S1x64 .f32) (ix2 0 k) = (V c main_v49 : FVec Ideal S1x64 .f32) (ix2 0 k) := fun k => by
    show V c main_v49 (((cfg1.win 2).blk t).view.emb (ix2 0 k)) = V c main_v49 (ix2 0 k)
    refine congrArg _ (funext fun a => Fin.ext ?_)
    match a with
    | ⟨0, _⟩ => show win1_2.index t (0 : Fin 2) * 1 + 1 * 0 = 0; omega
    | ⟨1, _⟩ => show win1_2.index t (1 : Fin 2) * 64 + 1 * k.val = k.val; omega
  have h3 : ∀ k : Fin 64, (iblk1 V c 3 t : Vec Ideal S1x64 .f32) (ix2 0 k) = (V c main_v50 : FVec Ideal S1x64 .f32) (ix2 0 k) := fun k => by
    show V c main_v50 (((cfg1.win 3).blk t).view.emb (ix2 0 k)) = V c main_v50 (ix2 0 k)
    refine congrArg _ (funext fun a => Fin.ext ?_)
    match a with
    | ⟨0, _⟩ => show win1_3.index t (0 : Fin 2) * 1 + 1 * 0 = 0; omega
    | ⟨1, _⟩ => show win1_3.index t (1 : Fin 2) * 64 + 1 * k.val = k.val; omega
  have h4 : ∀ k l : Fin 64, (iblk1 V c 4 t : Vec Ideal S64x64 .f32) (ix2 k l) = (V c main_arg7 : FVec Ideal S64x64 .f32) (ix2 k l) := fun k l => by
    show V c main_arg7 (((cfg1.win 4).blk t).view.emb (ix2 k l)) = V c main_arg7 (ix2 k l)
    refine congrArg _ (funext fun a => Fin.ext ?_)
    match a with
    | ⟨0, _⟩ => show win1_4.index t (0 : Fin 2) * 64 + 1 * k.val = k.val; omega
    | ⟨1, _⟩ => show win1_4.index t (1 : Fin 2) * 64 + 1 * l.val = l.val; omega
  exact k1_pay1_eq_bnReluDot (iblk1 V c 0 t) (iblk1 V c 1 t) (iblk1 V c 2 t) (iblk1 V c 3 t) (iblk1 V c 4 t)
    (V c main_v43) (V c main_v48) (V c main_v49) (V c main_v50) (V c main_arg7) p q
    (((cfg1.win 5).blk t).view.emb (ix2 p q)) hq h0 h1 h2 h3 h4

/-- An index of the output array is in point `t`'s block iff each coordinate is in the block's range on its axis. -/
theorem mem_blk1_5 (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v51).slice (win1_5.rect t)).set ↔ _
  rw [View.set_slice_whole, Rect.mem_set_unit]
  exact Iff.rfl

/-- Every one of the 20 blocks of rows is some point's. -/
theorem idx_onto1_5 : ∀ q0 : Fin 20, ∃ t : Fin cfg1.N, win1_5.index t = ![q0.val, 0] :=
  (by decide +kernel : ∀ q0 : Fin 20, ∃ t : Fin grid1.N, win1_5.index t = ![q0.val, 0])

/-- The output blocks tile the array: row `r` is in the block of point `r / 5000`. -/
theorem cover1_5_arr (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht⟩ := idx_onto1_5 ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk1_5]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- The output array after the region: the one function of the five arrays as the region found them. -/
theorem arr1_5_eq (c : Dev nD) :
    (dat1 V c).arrAt 5 cfg1.N = bnReluDot (V c main_v43) (V c main_v48) (V c main_v49) (V c main_v50) (V c main_arg7) :=
  (dat1 V c).arrAt_eq_of_cover 5 _ (fun t _ => flushed1_5_eq V c t) cover1_5_arr

/-- Entry by entry: the array at row `i`, column `l` is the function there; `bnReluDot_apply` spells it as the sum. -/
theorem arr1_5_apply (c : Dev nD) (i : Fin 100000) (l : Fin 64) :
    (dat1 V c).arrAt 5 cfg1.N (ix2 i l)
      = bnReluDot (V c main_v43) (V c main_v48) (V c main_v49) (V c main_v50) (V c main_arg7) (ix2 i l) :=
  congrFun (arr1_5_eq V c) (ix2 i l)

end Cert.KernelIdeal.Hand

end
-- ==== Proof.Ref.HostChain.lean ====
import proofs.«421031_j46042049413263_1_alg».proof.Proof.KI.HostStages
import proofs.«421031_j46042049413263_1_alg».proof.Proof.RefRead

/-!
# The reference's host chain is the kernel program's

The reference computes the edge lists, the normalisation, both propagation steps and the readout with the
same host operations as the kernel program, over its own copies of the shapes and dimension records. This
module identifies the two: each record of one program equals the record of the same name of the other, and
each value of the reference that the kernel program also computes on the host is the named function of
`Cert.KernelIdeal.HandValue` applied to the reference's operands.

The one place where the texts differ is the node count of each graph: the reference holds it as a vector of
length 256, takes the maximum with one and then makes it a column; the kernel program holds a `256 × 1`
column from the start. The readout is therefore stated over any column that agrees with the reference's
vector entry by entry.
-/

set_option maxRecDepth 1264

noncomputable section

namespace Cert.Proof.HostChain

open Idealize.ShloMosaic
open Cert.KernelIdeal Cert.KernelIdeal.HandValue
open Cert.ReferenceIdeal.Read
open Idealize.ShloMosaic.ValueIdx (ix1 ix2 eq_ix1 eq_ix2)

/-! ## The two programs' records agree -/

/-- The scatter that sums edge rows into node rows. -/
theorem scatterRows_eq :
    Cert.KernelIdeal.scatter_S100000x64_S3300000x1_S3300000x64_1_0_0_1
      = Cert.ReferenceIdeal.scatter_S100000x64_S3300000x1_S3300000x64_1_0_0_1 := rfl
theorem scatterAdd_rows_eq :
    Host.scatterAdd (F := Ideal) (φ := .f32) (w := 32) Cert.KernelIdeal.scatter_S100000x64_S3300000x1_S3300000x64_1_0_0_1
      = Host.scatterAdd (F := Ideal) (φ := .f32) (w := 32)
          Cert.ReferenceIdeal.scatter_S100000x64_S3300000x1_S3300000x64_1_0_0_1 := rfl

/-- The scatter that counts the edges into each node. -/
theorem scatterDeg_eq :
    Cert.KernelIdeal.scatter_S100000_S3300000x1_S3300000_n_0_0_1
      = Cert.ReferenceIdeal.scatter_S100000_S3300000x1_S3300000_n_0_0_1 := rfl
theorem scatterAdd_deg_eq :
    Host.scatterAdd (F := Ideal) (φ := .f32) (w := 32) Cert.KernelIdeal.scatter_S100000_S3300000x1_S3300000_n_0_0_1
      = Host.scatterAdd (F := Ideal) (φ := .f32) (w := 32)
          Cert.ReferenceIdeal.scatter_S100000_S3300000x1_S3300000_n_0_0_1 := rfl

/-- The gather of one node row per edge. -/
theorem gatherRows_eq :
    Cert.KernelIdeal.gather_S100000x64_S3300000x1_S3300000x64_1_0_n_n_0_1_164
      = Cert.ReferenceIdeal.gather_S100000x64_S3300000x1_S3300000x64_1_0_n_n_0_1_164 := rfl
theorem gather_rows_eq :
    Host.gather (α := Ideal .f32) (w := 32) Cert.KernelIdeal.gather_S100000x64_S3300000x1_S3300000x64_1_0_n_n_0_1_164
      = Host.gather (α := Ideal .f32) (w := 32)
          Cert.ReferenceIdeal.gather_S100000x64_S3300000x1_S3300000x64_1_0_n_n_0_1_164 := rfl

/-- The gather of one node scalar per edge. -/
theorem gatherNode_eq :
    Cert.KernelIdeal.gather_S100000_S3300000x1_S3300000_n_0_n_n_0_1_1
      = Cert.ReferenceIdeal.gather_S100000_S3300000x1_S3300000_n_0_n_n_0_1_1 := rfl
theorem gather_node_eq :
    Host.gather (α := Ideal .f32) (w := 32) Cert.KernelIdeal.gather_S100000_S3300000x1_S3300000_n_0_n_n_0_1_1
      = Host.gather (α := Ideal .f32) (w := 32)
          Cert.ReferenceIdeal.gather_S100000_S3300000x1_S3300000_n_0_n_n_0_1_1 := rfl

/-- The row sum of a `256 × 64` matrix. -/
theorem reduceAdd_rows_eq (x : FVec Ideal S256x64 .f32) (v : FVec Ideal S_ .f32) :
    Host.reduceAdd (F := Ideal) x v Cert.KernelIdeal.Facts₀.reducesTo_S256x64_S256_d1 Cert.KernelIdeal.Facts₀.h_S_
      = Host.reduceAdd (F := Ideal) x v Cert.ReferenceIdeal.Facts₀.reducesTo_S256x64_S256_d1
          Cert.ReferenceIdeal.Facts₀.h_S_ := rfl

/-! ## The edge lists and the normalisation -/

section
variable (x1 : IVec S2x3200000 32)

/-- The reference's source list is the kernel program's. -/
theorem val_v5 : val_main_v5 (F := Ideal) x1 = withLoops (edgeRow0 x1) := rfl
/-- The reference's target list is the kernel program's. -/
theorem val_v6 : val_main_v6 (F := Ideal) x1 = withLoops (edgeRow1 x1) := rfl
/-- The reference's in-degrees. -/
theorem val_v10 : val_main_v10 (F := Ideal) x1 = degOf (withLoops (edgeRow1 x1)) := rfl
/-- The reference's normalisation. -/
theorem val_v14 : val_main_v14 (F := Ideal) x1 = dinvOf (withLoops (edgeRow1 x1)) := rfl

/-- The second layer's copies: the reference computes the same three values again. -/
theorem val_v59 : val_main_v59 (F := Ideal) x1 = withLoops (edgeRow0 x1) := rfl
theorem val_v60 : val_main_v60 (F := Ideal) x1 = withLoops (edgeRow1 x1) := rfl
theorem val_v64 : val_main_v64 (F := Ideal) x1 = degOf (withLoops (edgeRow1 x1)) := rfl
theorem val_v68 : val_main_v68 (F := Ideal) x1 = dinvOf (withLoops (edgeRow1 x1)) := rfl
end

/-! ## The two propagation steps -/

/-- The reference's first propagation is `conv` of its first product. -/
theorem val_v43 (x0 : FVec Ideal S100000x128 .f32) (x1 : IVec S2x3200000 32) (x3 : FVec Ideal S128x64 .f32) :
    val_main_v43 (F := Ideal) x0 x1 x3
      = conv (val_main_v15 (F := Ideal) x0 x3) (withLoops (edgeRow0 x1)) (withLoops (edgeRow1 x1))
          (dinvOf (withLoops (edgeRow1 x1))) := rfl

/-- The reference's second propagation is `conv` of its second product. -/
theorem val_v97 (x0 : FVec Ideal S100000x128 .f32) (x1 : IVec S2x3200000 32) (x3 : FVec Ideal S128x64 .f32)
    (x4 x5 x6 : FVec Ideal S64 .f32) (x7 : FVec Ideal S64x64 .f32) :
    val_main_v97 (F := Ideal) x0 x1 x3 x4 x5 x6 x7
      = conv (val_main_v69 (F := Ideal) x0 x1 x3 x4 x5 x6 x7) (withLoops (edgeRow0 x1)) (withLoops (edgeRow1 x1))
          (dinvOf (withLoops (edgeRow1 x1))) := rfl

/-! ## The readout -/

/-- The reference's bounded count column, `max(count, 1)` made a column, is the kernel program's maximum taken on
    a column, for any column that holds the reference's counts. -/
theorem val_v148 (x2 : IVec S100000 32) (cnts : FVec Ideal S256x1 .f32)
    (hc : ∀ g : Fin 256, cnts (ix2 g 0) = val_main_v145 (F := Ideal) x2 (ix1 g)) :
    val_main_v148 (F := Ideal) x2 = maximumf (F := Ideal) cnts (fillG 0x3F800000#32) := by
  funext i
  obtain ⟨g, z, rfl⟩ : ∃ (g : Fin 256) (z : Fin 1), i = ix2 g z := ⟨i 0, i 1, eq_ix2 i⟩
  obtain rfl : z = 0 := Subsingleton.elim _ _
  have hi : idx_main_v148 (ix2 g (0 : Fin 1)) = ix1 g := (eq_ix1 _).trans rfl
  rw [val_main_v148_apply, hi]
  show FloatOps.maximumf (val_main_v145 (F := Ideal) x2 (ix1 g)) _ = FloatOps.maximumf (cnts (ix2 g 0)) _
  rw [hc g]
  rfl

/-- The reference's second result is `pool` of its segment sums and of any column holding its segment counts. -/
theorem val_v158 (x0 : FVec Ideal S100000x128 .f32) (x1 : IVec S2x3200000 32) (x2 : IVec S100000 32)
    (x3 : FVec Ideal S128x64 .f32) (x4 x5 x6 : FVec Ideal S64 .f32) (x7 : FVec Ideal S64x64 .f32)
    (x8 x9 x10 : FVec Ideal S64 .f32) (x11 : FVec Ideal S64x64 .f32) (x12 x13 x14 : FVec Ideal S64 .f32)
    (x15 : FVec Ideal S64x64 .f32) (x16 : FVec Ideal S64 .f32) (cnts : FVec Ideal S256x1 .f32)
    (hc : ∀ g : Fin 256, cnts (ix2 g 0) = val_main_v145 (F := Ideal) x2 (ix1 g)) :
    val_main_v158 (F := Ideal) x0 x1 x2 x3 x4 x5 x6 x7 x8 x9 x10 x11 x12 x13 x14 x15 x16
      = pool (val_main_v141 (F := Ideal) x0 x1 x2 x3 x4 x5 x6 x7 x8 x9 x10 x11 x12 x13 x14 x15 x16) cnts := by
  unfold val_main_v158 val_main_v157 val_main_v156 val_main_v154 val_main_v153 val_main_v152 val_main_v151
    val_main_v150 val_main_v149
  rw [val_v148 x2 cnts hc]
  rfl

end Cert.Proof.HostChain
-- ==== Proof.Ref.R1.lean ====
import proofs.«421031_j46042049413263_1_alg».proof.Proof.RefRead
import proofs.«421031_j46042049413263_1_alg».proof.Proof.KI.Val1

/-!
# The reference's second layer head, read at an index

The stretch of the reference that the kernel's second pipeline replaces: add the bias row to the propagated
features, scale by `g1 / sqrt 1.00001`, add `be1`, rectify, multiply by `w2`. Read at row `i` and column `l`
over the extended reals it is

  sum over k < 64 of  max ((out1 i k + b1 k) * (g1 k / c) + be1 k) 0 * w2 k l,     c = sqrt of the word 0x3F800054,

with `out1` the propagated features, kept as the reference names them. The same sum is what the kernel's
pipeline leaves, once its three rows are identified with `b1`, `g1 / c`, `be1`.
-/

noncomputable section

namespace Cert.Proof.Stage1

open Cert.ReferenceIdeal Idealize.ShloMosaic Idealize.ShloMosaic.ValueIdx
open scoped BigOperators

/-- The square root of the word `0x3F800054` (1.00001 in f32), as the program prints it. -/
local notation "c₁" => Ideal.sqrt (Ideal.ofBits FTy.f32 0x3F800054#32)

variable (x0 : (⟨S100000x128, .f32⟩ : BufTy).Contents (Elt Ideal)) (x1 : (⟨S2x3200000, .i32⟩ : BufTy).Contents (Elt Ideal))
  (x3 : (⟨S128x64, .f32⟩ : BufTy).Contents (Elt Ideal)) (x4 x5 x6 : (⟨S64, .f32⟩ : BufTy).Contents (Elt Ideal))
  (x7 : (⟨S64x64, .f32⟩ : BufTy).Contents (Elt Ideal))

/-! ## The index maps of the layout operations, by coordinates -/

/-- A vector made a row and the row spread over all rows: entry `(i, k)` reads the vector at `k`. -/
theorem idx_v44_v45 (i : Fin 100000) (k : Fin 64) : Read.idx_main_v44 (Read.idx_main_v45 (ix2 i k)) = ix1 k :=
  funext fun a => Fin.ext (by match a with | ⟨0, _⟩ => rfl)
theorem idx_v51_v52 (i : Fin 100000) (k : Fin 64) : Read.idx_main_v51 (Read.idx_main_v52 (ix2 i k)) = ix1 k :=
  funext fun a => Fin.ext (by match a with | ⟨0, _⟩ => rfl)
theorem idx_v54_v55 (i : Fin 100000) (k : Fin 64) : Read.idx_main_v54 (Read.idx_main_v55 (ix2 i k)) = ix1 k :=
  funext fun a => Fin.ext (by match a with | ⟨0, _⟩ => rfl)
/-- The product's operands: row `i` of the left at `k`, column `l` of the right at `k`. -/
theorem lidx_v69 (i : Fin 100000) (l k : Fin 64) : Read.lidx_main_v69 (ix2 i l) k = ix2 i k :=
  funext fun a => Fin.ext (by match a with | ⟨0, _⟩ => rfl | ⟨1, _⟩ => rfl)
theorem ridx_v69 (i : Fin 100000) (l k : Fin 64) : Read.ridx_main_v69 (ix2 i l) k = ix2 k l :=
  funext fun a => Fin.ext (by match a with | ⟨0, _⟩ => rfl | ⟨1, _⟩ => rfl)

/-! ## The stages at an index -/

/-- The rectified, normalised features at row `i`, column `k`. -/
theorem val_main_v57_at (i : Fin 100000) (k : Fin 64) :
    Read.val_main_v57 (F := Ideal) x0 x1 x3 x4 x5 x6 (ix2 i k)
      = max ((Read.val_main_v43 (F := Ideal) x0 x1 x3 (ix2 i k) + x4 (ix1 k)) * Ideal.div (x5 (ix1 k)) c₁ + x6 (ix1 k)) 0 := by
  rw [Read.val_main_v57_apply, Read.val_main_v56_apply, Read.val_main_v53_apply, Read.val_main_v46_apply,
    Read.val_main_v45_apply, Read.val_main_v44_apply, Read.val_main_v52_apply, Read.val_main_v51_apply,
    Read.val_main_v50_apply, Read.val_main_v49_apply, Read.val_main_v48_apply, Read.val_main_v47_apply,
    Read.val_main_cst_9_apply, Read.val_main_v55_apply, Read.val_main_v54_apply, Read.val_main_call1_v0_apply,
    Read.val_main_call1_cst_apply, idx_v44_v45, idx_v51_v52, idx_v54_v55]
  simp only [Ideal.maximumf_def, Ideal.addf_def, Ideal.mulf_def, Ideal.hostDivf_def, Ideal.hostUnary_sqrt_def]
  show max _ (Ideal.ofBits .f32 0x00000000#32) = _
  rw [Ideal.ofBits_zero_f32]
  rfl

/-- (R1) The product with `w2` at row `i`, column `l`. -/
theorem val_main_v69_at (i : Fin 100000) (l : Fin 64) :
    Read.val_main_v69 (F := Ideal) x0 x1 x3 x4 x5 x6 x7 (ix2 i l)
      = ∑ k : Fin 64, max ((Read.val_main_v43 (F := Ideal) x0 x1 x3 (ix2 i k) + x4 (ix1 k)) * Ideal.div (x5 (ix1 k)) c₁
          + x6 (ix1 k)) 0 * x7 (ix2 k l) := by
  rw [Read.val_main_v69_apply]
  refine Finset.sum_congr rfl fun k _ => ?_
  rw [lidx_v69, ridx_v69, val_main_v57_at]

/-! ## The kernel's pipeline computes this stage -/

/-- The kernel's function of five arrays is the reference's stage, when the first array is the propagated
    features, the three rows are `b1`, `g1 / c`, `be1` laid as rows, and the matrix is `w2`. -/
theorem stage1_eq (h : FVec Ideal Cert.KernelIdeal.S100000x64 .f32) (b s be : FVec Ideal Cert.KernelIdeal.S1x64 .f32)
    (w : FVec Ideal Cert.KernelIdeal.S64x64 .f32)
    (hh : h = Read.val_main_v43 (F := Ideal) x0 x1 x3) (hb : ∀ k : Fin 64, b (ix2 0 k) = x4 (ix1 k))
    (hs : ∀ k : Fin 64, s (ix2 0 k) = Ideal.div (x5 (ix1 k)) c₁) (hbe : ∀ k : Fin 64, be (ix2 0 k) = x6 (ix1 k))
    (hw : w = x7) :
    Cert.KernelIdeal.Hand.bnReluDot h b s be w = Read.val_main_v69 (F := Ideal) x0 x1 x3 x4 x5 x6 x7 := by
  subst hh; subst hw
  funext j
  obtain ⟨i, l, rfl⟩ : ∃ (i : Fin 100000) (l : Fin 64), j = ix2 i l := ⟨j 0, j 1, eq_ix2 j⟩
  rw [Cert.KernelIdeal.Hand.bnReluDot_apply, val_main_v69_at]
  refine Finset.sum_congr rfl fun k _ => ?_
  rw [hb, hs, hbe]

end Cert.Proof.Stage1

end
-- ==== Proof.KI.Val2.lean ====
import proofs.«421031_j46042049413263_1_alg».proof.Proof.KI.Reg2
import Idealize.ShloMosaic.Lib.Pipeline.Value
import Idealize.ShloMosaic.Lib.ValueLayout
import Idealize.ShloMosaic.PureOps.Ideal.Laws

/-!
# What region 2 leaves in its output array, at the ideal values

Each row of the output depends on the same row of the activations and on the nine parameter arrays
only: with `h = relu ((x + b₁) * s₁ + t₁)`, `g = relu ((h · W₁ + b₂) * s₂ + t₂)` and
`e = g · W₂ + b₃`, the row is `e / max (sqrt (Σ_j e_j²)) 1e-12`.  At the ideal values rounding to the short
float type is the identity and a matrix product is the plain sum of products, so the body's value
at an index of a block is this formula of the block's row; the fifty blocks tile the 100000 rows, so
the array after the region is the formula of the array's rows.
-/

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

/-! ## The row formula -/

/-- One affine layer followed by relu, at column `k` of a row `r`: `max ((r k + b k) * s k + t k) 0`. -/
def r2AffRelu (r : Fin 64 → EReal) (b s t : S1x64.Idx → EReal) (k : Fin 64) : EReal :=
  max ((r k + b (ix2 (0 : Fin 1) k)) * s (ix2 (0 : Fin 1) k) + t (ix2 (0 : Fin 1) k)) 0

/-- A row times a 64x64 matrix, at column `j`: `Σ_k r k * W (k, j)`. -/
def r2RowDot (r : Fin 64 → EReal) (W : S64x64.Idx → EReal) (j : Fin 64) : EReal :=
  ∑ k : Fin 64, r k * W (ix2 k j)

/-- The row before normalisation: two affine-relu layers, each followed by a matrix product, and a
last bias. -/
def r2Emb (r : Fin 64 → EReal) (b1 s1 t1 : S1x64.Idx → EReal) (W1 : S64x64.Idx → EReal) (b2 s2 t2 : S1x64.Idx → EReal)
    (W2 : S64x64.Idx → EReal) (b3 : S1x64.Idx → EReal) (j : Fin 64) : EReal :=
  r2RowDot (r2AffRelu (r2RowDot (r2AffRelu r b1 s1 t1) W1) b2 s2 t2) W2 j + b3 (ix2 (0 : Fin 1) j)

/-- The output row: the row above divided by its Euclidean norm, the norm kept above `1e-12`. -/
def r2Row (r : Fin 64 → EReal) (b1 s1 t1 : S1x64.Idx → EReal) (W1 : S64x64.Idx → EReal) (b2 s2 t2 : S1x64.Idx → EReal)
    (W2 : S64x64.Idx → EReal) (b3 : S1x64.Idx → EReal) (l : Fin 64) : EReal :=
  Ideal.div (r2Emb r b1 s1 t1 W1 b2 s2 t2 W2 b3 l)
    (max (Ideal.sqrt (∑ j : Fin 64, r2Emb r b1 s1 t1 W1 b2 s2 t2 W2 b3 j * r2Emb r b1 s1 t1 W1 b2 s2 t2 W2 b3 j))
      (Ideal.ofBits .f32 0x2B8CBCCC#32))

/-! ## A column kept as a unit axis: two layout readings -/

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The block's matrix product read at an index -/

/-- The left operand's index at output `j` and contraction `q`: row of `j`, -/
theorem lhs_blockDot_0 (j : S2000x64.Idx) (q : dot_S2000x64_S64x64_S2000x64_1_0_0_1_n_n.contr.Idx) :
    (dot_S2000x64_S64x64_S2000x64_1_0_0_1_n_n.lhsIdx j q 0).val = (j 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
/-- column `q`; -/
theorem lhs_blockDot_1 (j : S2000x64.Idx) (q : dot_S2000x64_S64x64_S2000x64_1_0_0_1_n_n.contr.Idx) :
    (dot_S2000x64_S64x64_S2000x64_1_0_0_1_n_n.lhsIdx j q 1).val = (q ⟨0, by decide⟩).val :=
  dot_S2000x64_S64x64_S2000x64_1_0_0_1_n_n.lhsIdx_val_of_single rfl j q
/-- the right operand's: row `q`, -/
theorem rhs_blockDot_0 (j : S2000x64.Idx) (q : dot_S2000x64_S64x64_S2000x64_1_0_0_1_n_n.contr.Idx) :
    (dot_S2000x64_S64x64_S2000x64_1_0_0_1_n_n.rhsIdx j q 0).val = (q ⟨0, by decide⟩).val :=
  dot_S2000x64_S64x64_S2000x64_1_0_0_1_n_n.rhsIdx_val_of_single rfl j q
/-- column of `j`. -/
theorem rhs_blockDot_1 (j : S2000x64.Idx) (q : dot_S2000x64_S64x64_S2000x64_1_0_0_1_n_n.contr.Idx) :
    (dot_S2000x64_S64x64_S2000x64_1_0_0_1_n_n.rhsIdx j q 1).val = (j 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- The 2000x64 by 64x64 product into the zero accumulator, at `(p, q)`: `Σ_k L (p, k) * R (k, q)`. -/
theorem blockDot_apply {φ₁ φ₂ : FTy} (L : FVec Ideal S2000x64 φ₁) (R : FVec Ideal S64x64 φ₂) (p : Fin 2000) (q : Fin 64) :
    matmul dot_S2000x64_S64x64_S2000x64_1_0_0_1_n_n none L R (constant (F := Ideal) S2000x64 .f32 0x00000000#32) (ix2 p q)
      = ∑ k : Fin 64, L (ix2 p k) * R (ix2 k q) := by
  simp only [matmul]
  rw [Ideal.matmul_constant_zero_apply, ← Equiv.sum_comp (ValueIdx.contrEquiv1 dot_S2000x64_S64x64_S2000x64_1_0_0_1_n_n 64 rfl rfl).symm]
  refine Finset.sum_congr rfl fun k _ => ?_
  have hk := ValueIdx.contrEquiv1_symm_val dot_S2000x64_S64x64_S2000x64_1_0_0_1_n_n 64 rfl rfl k
  have el : dot_S2000x64_S64x64_S2000x64_1_0_0_1_n_n.lhsIdx (ix2 p q) ((ValueIdx.contrEquiv1 dot_S2000x64_S64x64_S2000x64_1_0_0_1_n_n 64 rfl rfl).symm k) = ix2 p k := funext fun a => Fin.ext (by
    match a with
    | ⟨0, _⟩ => exact lhs_blockDot_0 _ _
    | ⟨1, _⟩ => exact (lhs_blockDot_1 _ _).trans hk)
  have er : dot_S2000x64_S64x64_S2000x64_1_0_0_1_n_n.rhsIdx (ix2 p q) ((ValueIdx.contrEquiv1 dot_S2000x64_S64x64_S2000x64_1_0_0_1_n_n 64 rfl rfl).symm k) = ix2 k q := funext fun a => Fin.ext (by
    match a with
    | ⟨0, _⟩ => exact (rhs_blockDot_0 _ _).trans hk
    | ⟨1, _⟩ => exact rhs_blockDot_1 _ _)
  rw [el, er]

/-! ## The sum along a row -/

/-- The sum of a 2000x64 block along its rows, at row `p`: `Σ_k v (p, k)`. -/
theorem rowSum_apply (v : FVec Ideal S2000x64 .f32) (hφ : FKind.Formats .f32) (hacc : (0x00000000#32 : BitVec 32) = 0x00000000#32) (p : Fin 2000) :
    multiReduction (F := Ideal) .add [1] S2000 v 0x00000000#32 reduces_S2000x64_S2000 hφ hacc (ix1 p) = ∑ k : Fin 64, v (ix2 p k) := by
  refine (Ideal.multiReduction_add_single v 0x00000000#32 reduces_S2000x64_S2000 hφ hacc (ix1 p)).trans ?_
  refine Finset.sum_congr rfl fun k _ => congrArg v ?_
  funext a
  match a with
  | ⟨0, _⟩ => rfl
  | ⟨1, _⟩ => rfl

/-- The square root of a vector, at an index. -/
theorem sqrt_apply {s : Shape} {φ : FTy} (a : FVec Ideal s φ) (i : s.Idx) : sqrt a i = Ideal.sqrt (a i) := rfl

/-! ## The body's payloads at an index -/

/-- Rounding the second weight to the short float type is the identity at the ideal values. -/
theorem k2_pay3_apply (v35 : Vec Ideal S64x64 .f32) (j : S64x64.Idx) : k2_pay3 (F := Ideal) v35 j = v35 j := rfl

set_option maxHeartbeats 1000000 in
/-- The second hidden layer, as the body computes it from its first eight loads, at `(p, q)`: the
two affine-relu layers of row `p` with the first matrix product between them. -/
theorem k2_pay2_apply (v0 : Vec Ideal S2000x64 .f32) (v2 v6 v10 : Vec Ideal S1x64 .f32) (v17 : Vec Ideal S64x64 .f32)
    (v20 v24 v28 : Vec Ideal S1x64 .f32) (p : Fin 2000) (q : Fin 64) :
    k2_pay2 (F := Ideal) v0 v2 v6 v10 v17 v20 v24 v28 (ix2 p q)
      = r2AffRelu (r2RowDot (r2AffRelu (fun k => v0 (ix2 p k)) v2 v6 v10) v17) v20 v24 v28 q := by
  unfold k2_pay2 r2AffRelu r2RowDot
  simp only [truncf_apply, maximumf_apply, addf_apply, mulf_apply, broadcast_apply, shapeCast_self, broadcastTo_1b_ab_apply,
    blockDot_apply]
  have hz : (FloatOps.ofBits FTy.f32 0x00000000#32 : Ideal .f32) = 0 := Ideal.ofBits_zero_f32
  simp only [hz]

set_option maxHeartbeats 1000000 in
/-- The normalised row, as the body computes it from the second hidden layer `v34`, the second weight
`v36` and the last bias `v38`, at `(p, q)`: with `e j = Σ_k v34 (p, k) * v36 (k, j) + v38 (0, j)`, the value is
`e q / max (sqrt (Σ_j e j * e j)) 1e-12`. -/
theorem k2_pay1_apply (v34 : FVec Ideal S2000x64 .bf16) (v36 : FVec Ideal S64x64 .bf16) (v38 : Vec Ideal S1x64 .f32) (p : Fin 2000) (q : Fin 64) :
    k2_pay1 (F := Ideal) v34 v36 (constant (F := Ideal) S2000x64 .f32 0x00000000#32) v38 (ix2 p q)
      = Ideal.div (r2RowDot (fun k => v34 (ix2 p k)) v36 q + v38 (ix2 (0 : Fin 1) q))
          (max (Ideal.sqrt (∑ j : Fin 64, (r2RowDot (fun k => v34 (ix2 p k)) v36 j + v38 (ix2 (0 : Fin 1) j))
              * (r2RowDot (fun k => v34 (ix2 p k)) v36 j + v38 (ix2 (0 : Fin 1) j))))
            (Ideal.ofBits .f32 0x2B8CBCCC#32)) := by
  unfold k2_pay1 r2RowDot
  simp only [divf_apply, broadcastTo_a1_ab_apply, maximumf_apply, sqrt_apply, shapeCast_a_a1_apply, rowSum_apply, mulf_apply, addf_apply,
    broadcast_apply, shapeCast_self, broadcastTo_1b_ab_apply, blockDot_apply]
  refine congrArg (fun z => Ideal.div _ (max (Ideal.sqrt z) _)) ?_
  refine (rowSum_apply _ _ _ p).trans ?_
  simp only [mulf_apply, addf_apply, shapeCast_self, broadcastTo_1b_ab_apply, blockDot_apply]

/-! ## The block the body leaves, at an index -/

theorem zeroOffsets : (![0, 0] : Fin 2 → Nat) = fun _ => 0 := funext fun a => by fin_cases a <;> rfl

set_option maxHeartbeats 1000000 in
/-- What the body leaves in the output buffer, at `(p, q)`, is the row formula of row `p` of the first input
block and the nine parameter blocks, at column `q`. -/
theorem out2_10_apply (x0 : Vec Ideal S2000x64 .f32) (x1 x2 x3 : Vec Ideal S1x64 .f32) (x4 : Vec Ideal S64x64 .f32)
    (x5 x6 x7 : Vec Ideal S1x64 .f32) (x8 : Vec Ideal S64x64 .f32) (x9 : Vec Ideal S1x64 .f32) (p : Fin 2000) (q : Fin 64) :
    out2_10 (F := Ideal) x0 x1 x2 x3 x4 x5 x6 x7 x8 x9 (ix2 p q) = r2Row (fun k => x0 (ix2 p k)) x1 x2 x3 x4 x5 x6 x7 x8 x9 q := by
  unfold out2_10
  rw [View.canon_unit_zero zeroOffsets]
  simp only [View.ld_unit_zero (S := S2000x64) zeroOffsets, View.ld_unit_zero (S := S1x64) zeroOffsets, View.ld_unit_zero (S := S64x64) zeroOffsets]
  rw [k2_pay1_apply]
  unfold r2Row r2Emb
  simp only [r2RowDot, k2_pay2_apply, k2_pay3_apply]

/-! ## From blocks to the array -/

variable (V : (c : Dev nD) → (b : Ref sig .tc) → Buf (Elt Ideal) ((c : Thread nD τ).loc b))

/-- The array formula: row `i` of the result is the row formula of row `i` of the activations. -/
def r2Arr (a0 : S100000x64.Idx → EReal) (a1 a2 a3 : S1x64.Idx → EReal) (a4 : S64x64.Idx → EReal) (a5 a6 a7 : S1x64.Idx → EReal)
    (a8 : S64x64.Idx → EReal) (a9 : S1x64.Idx → EReal) : S100000x64.Idx → EReal :=
  fun i => r2Row (fun k => a0 (ix2 (i 0) k)) a1 a2 a3 a4 a5 a6 a7 a8 a9 (i 1)

/-- The block index maps over the grid: the activations' block and the output's block at point `t` are
both block row `t`, -/
theorem idx_rows2 : ∀ t : Fin cfg2.N, win2_10.index t (0 : Fin 2) = t.val ∧ win2_10.index t (1 : Fin 2) = 0
    ∧ win2_0.index t (0 : Fin 2) = t.val ∧ win2_0.index t (1 : Fin 2) = 0 :=
  (by decide +kernel : ∀ t : Fin grid2.N, _)

/-- and each parameter's block is the whole array, at every point. -/
theorem idx_params2 : ∀ t : Fin cfg2.N, (win2_1.index t (0 : Fin 2) = 0 ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0)
    ∧ (win2_9.index t (0 : Fin 2) = 0 ∧ win2_9.index t (1 : Fin 2) = 0) :=
  (by decide +kernel : ∀ t : Fin grid2.N, _)

/-- A parameter's block at any point is the parameter array itself. -/
theorem iblk2_1 (c : Dev nD) (t : Fin cfg2.N) : iblk2 V c 1 t = V c main_v88 := by
  obtain ⟨⟨e0, e1⟩, -⟩ := idx_params2 t
  funext y
  show V c main_v88 (((cfg2.win 1).blk t).view.emb y) = V c main_v88 y
  refine congrArg _ (funext fun a => Fin.ext ?_)
  match a with
  | ⟨0, _⟩ => show win2_1.index t (0 : Fin 2) * 1 + 1 * (y 0).val = (y 0).val; omega
  | ⟨1, _⟩ => show win2_1.index t (1 : Fin 2) * 64 + 1 * (y 1).val = (y 1).val; omega
theorem iblk2_2 (c : Dev nD) (t : Fin cfg2.N) : iblk2 V c 2 t = V c main_v89 := by
  obtain ⟨-, ⟨e0, e1⟩, -⟩ := idx_params2 t
  funext y
  show V c main_v89 (((cfg2.win 2).blk t).view.emb y) = V c main_v89 y
  refine congrArg _ (funext fun a => Fin.ext ?_)
  match a with
  | ⟨0, _⟩ => show win2_2.index t (0 : Fin 2) * 1 + 1 * (y 0).val = (y 0).val; omega
  | ⟨1, _⟩ => show win2_2.index t (1 : Fin 2) * 64 + 1 * (y 1).val = (y 1).val; omega
theorem iblk2_3 (c : Dev nD) (t : Fin cfg2.N) : iblk2 V c 3 t = V c main_v90 := by
  obtain ⟨-, -, ⟨e0, e1⟩, -⟩ := idx_params2 t
  funext y
  show V c main_v90 (((cfg2.win 3).blk t).view.emb y) = V c main_v90 y
  refine congrArg _ (funext fun a => Fin.ext ?_)
  match a with
  | ⟨0, _⟩ => show win2_3.index t (0 : Fin 2) * 1 + 1 * (y 0).val = (y 0).val; omega
  | ⟨1, _⟩ => show win2_3.index t (1 : Fin 2) * 64 + 1 * (y 1).val = (y 1).val; omega
theorem iblk2_4 (c : Dev nD) (t : Fin cfg2.N) : iblk2 V c 4 t = V c main_arg11 := by
  obtain ⟨-, -, -, ⟨e0, e1⟩, -⟩ := idx_params2 t
  funext y
  show V c main_arg11 (((cfg2.win 4).blk t).view.emb y) = V c main_arg11 y
  refine congrArg _ (funext fun a => Fin.ext ?_)
  match a with
  | ⟨0, _⟩ => show win2_4.index t (0 : Fin 2) * 64 + 1 * (y 0).val = (y 0).val; omega
  | ⟨1, _⟩ => show win2_4.index t (1 : Fin 2) * 64 + 1 * (y 1).val = (y 1).val; omega
theorem iblk2_5 (c : Dev nD) (t : Fin cfg2.N) : iblk2 V c 5 t = V c main_v91 := by
  obtain ⟨-, -, -, -, ⟨e0, e1⟩, -⟩ := idx_params2 t
  funext y
  show V c main_v91 (((cfg2.win 5).blk t).view.emb y) = V c main_v91 y
  refine congrArg _ (funext fun a => Fin.ext ?_)
  match a with
  | ⟨0, _⟩ => show win2_5.index t (0 : Fin 2) * 1 + 1 * (y 0).val = (y 0).val; omega
  | ⟨1, _⟩ => show win2_5.index t (1 : Fin 2) * 64 + 1 * (y 1).val = (y 1).val; omega
theorem iblk2_6 (c : Dev nD) (t : Fin cfg2.N) : iblk2 V c 6 t = V c main_v92 := by
  obtain ⟨-, -, -, -, -, ⟨e0, e1⟩, -⟩ := idx_params2 t
  funext y
  show V c main_v92 (((cfg2.win 6).blk t).view.emb y) = V c main_v92 y
  refine congrArg _ (funext fun a => Fin.ext ?_)
  match a with
  | ⟨0, _⟩ => show win2_6.index t (0 : Fin 2) * 1 + 1 * (y 0).val = (y 0).val; omega
  | ⟨1, _⟩ => show win2_6.index t (1 : Fin 2) * 64 + 1 * (y 1).val = (y 1).val; omega
theorem iblk2_7 (c : Dev nD) (t : Fin cfg2.N) : iblk2 V c 7 t = V c main_v93 := by
  obtain ⟨-, -, -, -, -, -, ⟨e0, e1⟩, -⟩ := idx_params2 t
  funext y
  show V c main_v93 (((cfg2.win 7).blk t).view.emb y) = V c main_v93 y
  refine congrArg _ (funext fun a => Fin.ext ?_)
  match a with
  | ⟨0, _⟩ => show win2_7.index t (0 : Fin 2) * 1 + 1 * (y 0).val = (y 0).val; omega
  | ⟨1, _⟩ => show win2_7.index t (1 : Fin 2) * 64 + 1 * (y 1).val = (y 1).val; omega
theorem iblk2_8 (c : Dev nD) (t : Fin cfg2.N) : iblk2 V c 8 t = V c main_arg15 := by
  obtain ⟨-, -, -, -, -, -, -, ⟨e0, e1⟩, -⟩ := idx_params2 t
  funext y
  show V c main_arg15 (((cfg2.win 8).blk t).view.emb y) = V c main_arg15 y
  refine congrArg _ (funext fun a => Fin.ext ?_)
  match a with
  | ⟨0, _⟩ => show win2_8.index t (0 : Fin 2) * 64 + 1 * (y 0).val = (y 0).val; omega
  | ⟨1, _⟩ => show win2_8.index t (1 : Fin 2) * 64 + 1 * (y 1).val = (y 1).val; omega
theorem iblk2_9 (c : Dev nD) (t : Fin cfg2.N) : iblk2 V c 9 t = V c main_v94 := by
  obtain ⟨-, -, -, -, -, -, -, -, e0, e1⟩ := idx_params2 t
  funext y
  show V c main_v94 (((cfg2.win 9).blk t).view.emb y) = V c main_v94 y
  refine congrArg _ (funext fun a => Fin.ext ?_)
  match a with
  | ⟨0, _⟩ => show win2_9.index t (0 : Fin 2) * 1 + 1 * (y 0).val = (y 0).val; omega
  | ⟨1, _⟩ => show win2_9.index t (1 : Fin 2) * 64 + 1 * (y 1).val = (y 1).val; omega

set_option maxHeartbeats 1000000 in
/-- What point `t` writes back is block `t` of the array formula of the ten arrays as the region finds
them: row `p` of the block is row `2000 t + p` of the array on both sides. -/
theorem flushed2_eq (c : Dev nD) (t : Fin cfg2.N) :
    (dat2 (F := Ideal) V c).flushed 10 t = ((cfg2.win 10).blk t).view.read (Elt Ideal)
      (r2Arr (V c main_v79) (V c main_v88) (V c main_v89) (V c main_v90) (V c main_arg11) (V c main_v91) (V c main_v92) (V c main_v93)
        (V c main_arg15) (V c main_v94)) := by
  show (cfg2.win 10).cut (grid2.coords t) ((dat2 V c).after 10 t) = _
  rw [after2_10]
  obtain ⟨o0, o1, r0, r1⟩ := idx_rows2 t
  funext j
  obtain ⟨p, q, rfl⟩ : ∃ (p : Fin 2000) (q : Fin 64), j = ix2 p q := ⟨j 0, j 1, eq_ix2 j⟩
  show out2_10 (F := Ideal) (iblk2 V c 0 t) (iblk2 V c 1 t) (iblk2 V c 2 t) (iblk2 V c 3 t) (iblk2 V c 4 t) (iblk2 V c 5 t) (iblk2 V c 6 t)
      (iblk2 V c 7 t) (iblk2 V c 8 t) (iblk2 V c 9 t) (ix2 p q)
    = r2Arr (V c main_v79) (V c main_v88) (V c main_v89) (V c main_v90) (V c main_arg11) (V c main_v91) (V c main_v92) (V c main_v93)
        (V c main_arg15) (V c main_v94) (((cfg2.win 10).blk t).view.emb (ix2 p q))
  rw [out2_10_apply, iblk2_1, iblk2_2, iblk2_3, iblk2_4, iblk2_5, iblk2_6, iblk2_7, iblk2_8, iblk2_9]
  unfold r2Arr
  have hq : ((cfg2.win 10).blk t).view.emb (ix2 p q) 1 = q :=
    Fin.ext (by show win2_10.index t (1 : Fin 2) * 64 + 1 * q.val = q.val; omega)
  have hrow : (fun k : Fin 64 => iblk2 V c 0 t (ix2 p k))
      = fun k : Fin 64 => V c main_v79 (ix2 (((cfg2.win 10).blk t).view.emb (ix2 p q) 0) k) := funext fun k => by
    show V c main_v79 (((cfg2.win 0).blk t).view.emb (ix2 p k)) = _
    refine congrArg _ (funext fun a => Fin.ext ?_)
    match a with
    | ⟨0, _⟩ => show win2_0.index t (0 : Fin 2) * 2000 + 1 * p.val = win2_10.index t (0 : Fin 2) * 2000 + 1 * p.val; omega
    | ⟨1, _⟩ => show win2_0.index t (1 : Fin 2) * 64 + 1 * k.val = k.val; omega
  rw [hrow, hq]

/-- An index of the array is in point `t`'s block iff each coordinate is in the block's range on its axis. -/
theorem mem_blk2 (t : Fin cfg2.N) (i : S100000x64.Idx) :
    i ∈ ((cfg2.win 10).blk t).view.set ↔ ∀ a : Fin 2, win2_10.index t a * S2000x64.size a ≤ (i a).val ∧ (i a).val < win2_10.index t a * S2000x64.size a + S2000x64.size a := by
  show i ∈ ((View.whole main_v95).slice (win2_10.rect t)).set ↔ _
  rw [View.set_slice_whole, Rect.mem_set_unit]
  exact Iff.rfl

/-- The fifty blocks of 2000 rows tile the 100000 rows: row `r` is in block `r / 2000`. -/
theorem cover2 (i : S100000x64.Idx) : ∃ t : Fin cfg2.N, (cfg2.win 10).flush t = true ∧ i ∈ ((cfg2.win 10).blk t).view.set := by
  have hi0 : (i 0).val < 100000 := (i 0).isLt
  have hi1 : (i 1).val < 64 := (i 1).isLt
  have ht : (i 0).val / 2000 < 50 := by omega
  refine ⟨⟨(i 0).val / 2000, ht⟩, flush2_10 _, ?_⟩
  obtain ⟨o0, o1, -, -⟩ := idx_rows2 ⟨(i 0).val / 2000, ht⟩
  have o0' : win2_10.index ⟨(i 0).val / 2000, ht⟩ (0 : Fin 2) = (i 0).val / 2000 := o0
  rw [mem_blk2]
  intro a
  match a with
  | ⟨0, _⟩ =>
    show win2_10.index ⟨(i 0).val / 2000, ht⟩ (0 : Fin 2) * 2000 ≤ (i 0).val ∧ (i 0).val < win2_10.index ⟨(i 0).val / 2000, ht⟩ (0 : Fin 2) * 2000 + 2000
    omega
  | ⟨1, _⟩ =>
    show win2_10.index ⟨(i 0).val / 2000, ht⟩ (1 : Fin 2) * 64 ≤ (i 1).val ∧ (i 1).val < win2_10.index ⟨(i 0).val / 2000, ht⟩ (1 : Fin 2) * 64 + 64
    omega

/-- The output array after the region is the array formula of the ten input arrays as the region finds them. -/
theorem final2 (c : Dev nD) : (dat2 (F := Ideal) V c).arrAt 10 cfg2.N
    = r2Arr (V c main_v79) (V c main_v88) (V c main_v89) (V c main_v90) (V c main_arg11) (V c main_v91) (V c main_v92) (V c main_v93)
        (V c main_arg15) (V c main_v94) :=
  (dat2 (F := Ideal) V c).arrAt_eq_of_cover 10 _ (fun t _ => flushed2_eq V c t) cover2

/-- Index by index: at row `i`, column `l`, the row formula of row `i` of the activations. -/
theorem val2 (c : Dev nD) (i : Fin 100000) (l : Fin 64) : (dat2 (F := Ideal) V c).arrAt 10 cfg2.N (ix2 i l)
    = r2Row (fun k => V c main_v79 (ix2 i k)) (V c main_v88) (V c main_v89) (V c main_v90) (V c main_arg11) (V c main_v91) (V c main_v92)
        (V c main_v93) (V c main_arg15) (V c main_v94) l := by
  rw [final2]
  rfl

end Cert.KernelIdeal.Hand

end
-- ==== Proof.KI.Val3.lean ====
/- What region 3 leaves in its two output arrays, at the ideal (extended-real) reading of floats, entry by entry:
   for any contents `V` the region finds, with b the 100000 × 1 column of graph ids and e the 100000 × 64 array of
   rows, the 256 × 64 output ends holding the segment sums   s (g, j) = ∑ n, [b n = g] · e (n, j),   and the
   256 × 1 output the segment counts   k (g, 0) = ∑ n, [b n = g].
   One step of the body adds, at entry (g, j), the block's rows whose id is g (the one-hot matrix transposed times the
   block; the casts to bf16 are the identity on ideal values; a product accumulated onto zero is the plain sum). So
   after grid point n the accumulators hold the sums over rows 0 … 5000·(n+1) − 1, by induction on the point; the
   outputs are copies of the accumulators, written back once, after the last point, when the sums run over all rows. -/
import proofs.«421031_j46042049413263_1_alg».proof.Proof.KI.Reg3
import Idealize.ShloMosaic.PureOps.Ideal.Laws
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

-- the buffers' contents when the region is entered, read as ideal values
variable (V : (c : Dev nD) → (b : Ref sig .tc) → Buf (Elt Ideal) ((c : Thread nD τ).loc b))

/-! ## The one-hot matrix of a block of graph ids -/

/-- A one-bit comparison result widened to 32 bits and read signed is 1 or 0. -/
theorem cmpEq_toInt (x y : BitVec 32) : (((IntOp.cmpi .eq x y).setWidth 32).toInt : ℝ) = if x = y then 1 else 0 := by
  by_cases h : x = y
  · subst h; simp [IntOp.cmpi]
  · have hb : (x == y) = false := beq_eq_false_iff_ne.mpr h
    simp [IntOp.cmpi, hb, h]

/-- Entry (r, g) of the block's one-hot matrix: 1 when row r's graph id is the word g, else 0. The id column is
    broadcast along the 256 columns, compared with the column number, and the comparison bit is widened, read as an
    integer and cast to a float; the cast to bf16 is the identity on ideal values. -/
theorem onehot3_apply (b : Vec Ideal S5000x1 .i32) (r : Fin 5000) (g : Fin 256) :
    k3_pay3 (F := Ideal) b (ix2 r g) = if b (ix2 r 0) = BitVec.ofNat 32 g.val then (1 : EReal) else 0 := by
  unfold k3_pay3
  show ((((IntOp.cmpi .eq (broadcastTo S5000x256 (shapeCast S5000x1 b shapeCasts_S5000x1_S5000x1) broadcasts_S5000x1_S5000x256 (ix2 r g))
      (iota .tc S5000x256 32 [1] iota_S5000x256_d1_w32 (ix2 r g))).setWidth 32).toInt : ℝ) : EReal) = _
  rw [shapeCast_self, broadcastTo_apply b broadcasts_S5000x1_S5000x256 (ix2 r g) (ix2 r (0 : Fin 1)) (fun a => by match a with | ⟨0, _⟩ => rfl | ⟨1, _⟩ => rfl),
    iota_single_apply, cmpEq_toInt]
  by_cases h : b (ix2 r 0) = BitVec.ofNat 32 g.val
  · rw [if_pos h, if_pos h]; rfl
  · rw [if_neg h, if_neg h]; rfl

/-! ## The two contractions over the block's rows -/

/-- `aᵀ · b` into the zero accumulator at entry (g, j), for a : [5000, 256] and b : [5000, 64]: the dimension
    numbers contract axis 0 of both, so the sum runs over the row r, of a (r, g) · b (r, j). -/
theorem tdot64_apply {φ₁ φ₂ : FTy} (a : FVec Ideal S5000x256 φ₁) (b : FVec Ideal S5000x64 φ₂) (g : Fin 256) (j : Fin 64) :
    FloatOps.matmul dot_S5000x256_S5000x64_S256x64_0_0_1_1_n_n none a b (constant (F := Ideal) S256x64 .f32 0x00000000#32) (ix2 g j)
      = ∑ r : Fin 5000, a (ix2 r g) * b (ix2 r j) := by
  rw [Ideal.matmul_constant_zero_apply, ← Equiv.sum_comp (contrEquiv1 dot_S5000x256_S5000x64_S256x64_0_0_1_1_n_n 5000 rfl rfl).symm]
  refine Finset.sum_congr rfl fun k _ => ?_
  have hk := contrEquiv1_symm_val dot_S5000x256_S5000x64_S256x64_0_0_1_1_n_n 5000 rfl rfl k
  have el : dot_S5000x256_S5000x64_S256x64_0_0_1_1_n_n.lhsIdx (ix2 g j) ((contrEquiv1 dot_S5000x256_S5000x64_S256x64_0_0_1_1_n_n 5000 rfl rfl).symm k) = ix2 k g :=
    funext fun c => Fin.ext (by
      match c with
      | ⟨0, _⟩ => exact (dot_S5000x256_S5000x64_S256x64_0_0_1_1_n_n.lhsIdx_val_of_single rfl _ _).trans hk
      | ⟨1, _⟩ => rfl)
  have er : dot_S5000x256_S5000x64_S256x64_0_0_1_1_n_n.rhsIdx (ix2 g j) ((contrEquiv1 dot_S5000x256_S5000x64_S256x64_0_0_1_1_n_n 5000 rfl rfl).symm k) = ix2 k j :=
    funext fun c => Fin.ext (by
      match c with
      | ⟨0, _⟩ => exact (dot_S5000x256_S5000x64_S256x64_0_0_1_1_n_n.rhsIdx_val_of_single rfl _ _).trans hk
      | ⟨1, _⟩ => rfl)
  rw [el, er]

/-- The same for b : [5000, 1], at entry (g, 0). -/
theorem tdot1_apply {φ₁ φ₂ : FTy} (a : FVec Ideal S5000x256 φ₁) (b : FVec Ideal S5000x1 φ₂) (g : Fin 256) :
    FloatOps.matmul dot_S5000x256_S5000x1_S256x1_0_0_1_1_n_n none a b (constant (F := Ideal) S256x1 .f32 0x00000000#32) (ix2 g (0 : Fin 1))
      = ∑ r : Fin 5000, a (ix2 r g) * b (ix2 r (0 : Fin 1)) := by
  rw [Ideal.matmul_constant_zero_apply, ← Equiv.sum_comp (contrEquiv1 dot_S5000x256_S5000x1_S256x1_0_0_1_1_n_n 5000 rfl rfl).symm]
  refine Finset.sum_congr rfl fun k _ => ?_
  have hk := contrEquiv1_symm_val dot_S5000x256_S5000x1_S256x1_0_0_1_1_n_n 5000 rfl rfl k
  have el : dot_S5000x256_S5000x1_S256x1_0_0_1_1_n_n.lhsIdx (ix2 g (0 : Fin 1)) ((contrEquiv1 dot_S5000x256_S5000x1_S256x1_0_0_1_1_n_n 5000 rfl rfl).symm k) = ix2 k g :=
    funext fun c => Fin.ext (by
      match c with
      | ⟨0, _⟩ => exact (dot_S5000x256_S5000x1_S256x1_0_0_1_1_n_n.lhsIdx_val_of_single rfl _ _).trans hk
      | ⟨1, _⟩ => rfl)
  have er : dot_S5000x256_S5000x1_S256x1_0_0_1_1_n_n.rhsIdx (ix2 g (0 : Fin 1)) ((contrEquiv1 dot_S5000x256_S5000x1_S256x1_0_0_1_1_n_n 5000 rfl rfl).symm k) = ix2 k (0 : Fin 1) :=
    funext fun c => Fin.ext (by
      match c with
      | ⟨0, _⟩ => exact (dot_S5000x256_S5000x1_S256x1_0_0_1_1_n_n.rhsIdx_val_of_single rfl _ _).trans hk
      | ⟨1, _⟩ => rfl)
  rw [el, er]

/-! ## One step of the accumulation, and its start, at an entry -/

/-- The sums after one more block, at entry (g, j): what was there plus, over the block's rows whose graph id is g,
    the row's entry j. -/
theorem pay4_apply (b : Vec Ideal S5000x1 .i32) (e : Vec Ideal S5000x64 .f32) (a : Vec Ideal S256x64 .f32) (g : Fin 256) (j : Fin 64) :
    k3_pay4 (F := Ideal) b e a (ix2 g j)
      = a (ix2 g j) + ∑ r : Fin 5000, (if b (ix2 r 0) = BitVec.ofNat 32 g.val then (1 : EReal) else 0) * e (ix2 r j) := by
  unfold k3_pay4
  rw [shapeCast_self]
  show a (ix2 g j) + FloatOps.matmul dot_S5000x256_S5000x64_S256x64_0_0_1_1_n_n none (k3_pay3 (F := Ideal) b)
      (truncf .bf16 (shapeCast S5000x64 e shapeCasts_S5000x64_S5000x64) bitsLt_bf16_f32) (constant (F := Ideal) S256x64 .f32 0x00000000#32) (ix2 g j) = _
  rw [tdot64_apply, shapeCast_self]
  refine congrArg (a (ix2 g j) + ·) (Finset.sum_congr rfl fun r _ => ?_)
  rw [onehot3_apply]; rfl

/-- The counts after one more block, at entry (g, 0): what was there plus, over the block's rows whose graph id is
    g, the bf16 word for 1.0. -/
theorem pay5_apply (b : Vec Ideal S5000x1 .i32) (a : Vec Ideal S256x1 .f32) (g : Fin 256) :
    k3_pay5 (F := Ideal) b a (ix2 g (0 : Fin 1))
      = a (ix2 g (0 : Fin 1)) + ∑ r : Fin 5000, (if b (ix2 r 0) = BitVec.ofNat 32 g.val then (1 : EReal) else 0) * Ideal.ofBits .bf16 0x3F80#16 := by
  unfold k3_pay5
  rw [shapeCast_self]
  show a (ix2 g (0 : Fin 1)) + FloatOps.matmul dot_S5000x256_S5000x1_S256x1_0_0_1_1_n_n none (k3_pay3 (F := Ideal) b)
      (broadcast S5000x1 (Scalar.ofBits (F := Ideal) .bf16 0x3F80#16)) (constant (F := Ideal) S256x1 .f32 0x00000000#32) (ix2 g (0 : Fin 1)) = _
  rw [tdot1_apply]
  refine congrArg (a (ix2 g (0 : Fin 1)) + ·) (Finset.sum_congr rfl fun r _ => ?_)
  rw [onehot3_apply]; rfl

/-- The accumulators start at zero. -/
theorem pay1_apply (i : S256x64.Idx) : k3_pay1 (F := Ideal) i = 0 := by
  unfold k3_pay1
  rw [shapeCast_self]
  exact Ideal.ofBits_zero_f32
theorem pay2_apply (i : S256x1.Idx) : k3_pay2 (F := Ideal) i = 0 := by
  unfold k3_pay2
  rw [shapeCast_self]
  exact Ideal.ofBits_zero_f32

/-! ## The arrays and the blocks, typed by their shapes -/

/-- The column of graph ids and the array of rows, as the region finds them. -/
abbrev bArr3 (c : Dev nD) : S100000x1.Idx → Elt Ideal .i32 := V c main_v96
abbrev eArr3 (c : Dev nD) : S100000x64.Idx → Elt Ideal .f32 := V c main_v95
/-- Their blocks at grid point `t`. -/
abbrev bblk3 (c : Dev nD) (t : Fin cfg3.N) : Vec Ideal S5000x1 .i32 := iblk3 V c 0 t
abbrev eblk3 (c : Dev nD) (t : Fin cfg3.N) : Vec Ideal S5000x64 .f32 := iblk3 V c 1 t

/-- Over the twenty grid points: the two input blocks are block t down the rows; each output block is the whole array. -/
theorem blockIdx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0 :=
  (by decide +kernel : ∀ t : Fin grid3.N, _)

/-- Row r of the id block at point t is row 5000·t + r of the id column. -/
theorem bblk3_apply (c : Dev nD) (t : Fin cfg3.N) (r : Fin 5000) (h : 5000 * t.val + r.val < 100000) :
    bblk3 V c t (ix2 r (0 : Fin 1)) = bArr3 V c (ix2 (⟨5000 * t.val + r.val, h⟩ : Fin 100000) (0 : Fin 1)) := by
  obtain ⟨e0, e1, -⟩ := blockIdx3 t
  show V c main_v96 (((cfg3.win 0).blk t).view.emb (ix2 r (0 : Fin 1))) = _
  refine congrArg (V c main_v96) (funext fun d => Fin.ext ?_)
  match d with
  | ⟨0, _⟩ => show win3_0.index t (0 : Fin 2) * 5000 + 1 * r.val = 5000 * t.val + r.val; omega
  | ⟨1, _⟩ => show win3_0.index t (1 : Fin 2) * 1 + 1 * 0 = 0; omega

/-- Entry (r, j) of the row block at point t is entry (5000·t + r, j) of the array of rows. -/
theorem eblk3_apply (c : Dev nD) (t : Fin cfg3.N) (r : Fin 5000) (j : Fin 64) (h : 5000 * t.val + r.val < 100000) :
    eblk3 V c t (ix2 r j) = eArr3 V c (ix2 (⟨5000 * t.val + r.val, h⟩ : Fin 100000) j) := by
  obtain ⟨-, -, e2, e3, -⟩ := blockIdx3 t
  show V c main_v95 (((cfg3.win 1).blk t).view.emb (ix2 r j)) = _
  refine congrArg (V c main_v95) (funext fun d => Fin.ext ?_)
  match d with
  | ⟨0, _⟩ => show win3_1.index t (0 : Fin 2) * 5000 + 1 * r.val = 5000 * t.val + r.val; omega
  | ⟨1, _⟩ => show win3_1.index t (1 : Fin 2) * 64 + 1 * j.val = j.val; omega

/-! ## Row m's contribution, for a natural m (zero past the last row) -/

/-- To the sum at entry (g, j): [b m = g] · e (m, j). -/
def term3_0 (bA : S100000x1.Idx → Elt Ideal .i32) (eA : S100000x64.Idx → Elt Ideal .f32) (g : Fin 256) (j : Fin 64) (m : ℕ) : EReal :=
  if h : m < 100000 then (if bA (ix2 (⟨m, h⟩ : Fin 100000) (0 : Fin 1)) = BitVec.ofNat 32 g.val then (1 : EReal) else 0) * eA (ix2 (⟨m, h⟩ : Fin 100000) j) else 0
/-- To the count at entry (g, 0): [b m = g] · 1.0 (the bf16 word). -/
def term3_1 (bA : S100000x1.Idx → Elt Ideal .i32) (g : Fin 256) (m : ℕ) : EReal :=
  if h : m < 100000 then (if bA (ix2 (⟨m, h⟩ : Fin 100000) (0 : Fin 1)) = BitVec.ofNat 32 g.val then (1 : EReal) else 0) * Ideal.ofBits .bf16 0x3F80#16 else 0

/-- Row r of the blocks at point t contributes what row 5000·t + r of the arrays does. -/
theorem blockTerm3_0 (c : Dev nD) (t : Fin cfg3.N) (r : Fin 5000) (g : Fin 256) (j : Fin 64) :
    (if bblk3 V c t (ix2 r (0 : Fin 1)) = BitVec.ofNat 32 g.val then (1 : EReal) else 0) * eblk3 V c t (ix2 r j)
      = term3_0 (bArr3 V c) (eArr3 V c) g j (5000 * t.val + r.val) := by
  have hN : cfg3.N = 20 := N_3
  have h : 5000 * t.val + r.val < 100000 := by have := t.isLt; have := r.isLt; omega
  unfold term3_0
  rw [dif_pos h, bblk3_apply V c t r h, eblk3_apply V c t r j h]
theorem blockTerm3_1 (c : Dev nD) (t : Fin cfg3.N) (r : Fin 5000) (g : Fin 256) :
    (if bblk3 V c t (ix2 r (0 : Fin 1)) = BitVec.ofNat 32 g.val then (1 : EReal) else 0) * Ideal.ofBits .bf16 0x3F80#16
      = term3_1 (bArr3 V c) g (5000 * t.val + r.val) := by
  have hN : cfg3.N = 20 := N_3
  have h : 5000 * t.val + r.val < 100000 := by have := t.isLt; have := r.isLt; omega
  unfold term3_1
  rw [dif_pos h, bblk3_apply V c t r h]

/-! ## The accumulators after each point: sums over the rows seen so far -/

/-- After point n the sums' accumulator holds, at (g, j), the contributions of rows 0 … 5000·(n+1) − 1. -/
theorem acc3_0_eq (c : Dev nD) : ∀ (n : ℕ) (hn : n < cfg3.N) (g : Fin 256) (j : Fin 64),
    (outsAt3 V c n hn).2.2.1 (ix2 g j) = ∑ m ∈ Finset.range (5000 * (n + 1)), term3_0 (bArr3 V c) (eArr3 V c) g j m
  | 0, hn, g, j => by
    show k3_pay4 (F := Ideal) (bblk3 V c ⟨0, hn⟩) (eblk3 V c ⟨0, hn⟩) (k3_pay1 (F := Ideal)) (ix2 g j) = _
    rw [pay4_apply (bblk3 V c ⟨0, hn⟩) (eblk3 V c ⟨0, hn⟩) (k3_pay1 (F := Ideal)) g j, pay1_apply, zero_add,
      ← Fin.sum_univ_eq_sum_range (fun m => term3_0 (bArr3 V c) (eArr3 V c) g j m) (5000 * (0 + 1))]
    refine Finset.sum_congr rfl fun r _ => ?_
    refine (blockTerm3_0 V c ⟨0, hn⟩ r g j).trans ?_
    show term3_0 (bArr3 V c) (eArr3 V c) g j (5000 * 0 + r.val) = term3_0 (bArr3 V c) (eArr3 V c) g j r.val
    rw [Nat.mul_zero, Nat.zero_add]
  | n + 1, hn, g, j => by
    show k3_pay4 (F := Ideal) (bblk3 V c ⟨n + 1, hn⟩) (eblk3 V c ⟨n + 1, hn⟩) (outsAt3 V c n (Nat.lt_of_succ_lt hn)).2.2.1 (ix2 g j) = _
    rw [pay4_apply (bblk3 V c ⟨n + 1, hn⟩) (eblk3 V c ⟨n + 1, hn⟩) (outsAt3 V c n (Nat.lt_of_succ_lt hn)).2.2.1 g j,
      acc3_0_eq c n (Nat.lt_of_succ_lt hn) g j,
      show 5000 * (n + 1 + 1) = 5000 * (n + 1) + 5000 from by ring,
      Finset.sum_range_add (fun m => term3_0 (bArr3 V c) (eArr3 V c) g j m) (5000 * (n + 1)) 5000,
      ← Fin.sum_univ_eq_sum_range (fun x => term3_0 (bArr3 V c) (eArr3 V c) g j (5000 * (n + 1) + x)) 5000]
    refine congrArg (_ + ·) (Finset.sum_congr rfl fun r _ => ?_)
    exact blockTerm3_0 V c ⟨n + 1, hn⟩ r g j

/-- After point n the counts' accumulator holds, at (g, 0), the count contributions of rows 0 … 5000·(n+1) − 1. -/
theorem acc3_1_eq (c : Dev nD) : ∀ (n : ℕ) (hn : n < cfg3.N) (g : Fin 256),
    (outsAt3 V c n hn).2.2.2 (ix2 g (0 : Fin 1)) = ∑ m ∈ Finset.range (5000 * (n + 1)), term3_1 (bArr3 V c) g m
  | 0, hn, g => by
    show k3_pay5 (F := Ideal) (bblk3 V c ⟨0, hn⟩) (k3_pay2 (F := Ideal)) (ix2 g (0 : Fin 1)) = _
    rw [pay5_apply (bblk3 V c ⟨0, hn⟩) (k3_pay2 (F := Ideal)) g, pay2_apply, zero_add,
      ← Fin.sum_univ_eq_sum_range (fun m => term3_1 (bArr3 V c) g m) (5000 * (0 + 1))]
    refine Finset.sum_congr rfl fun r _ => ?_
    refine (blockTerm3_1 V c ⟨0, hn⟩ r g).trans ?_
    show term3_1 (bArr3 V c) g (5000 * 0 + r.val) = term3_1 (bArr3 V c) g r.val
    rw [Nat.mul_zero, Nat.zero_add]
  | n + 1, hn, g => by
    show k3_pay5 (F := Ideal) (bblk3 V c ⟨n + 1, hn⟩) (outsAt3 V c n (Nat.lt_of_succ_lt hn)).2.2.2 (ix2 g (0 : Fin 1)) = _
    rw [pay5_apply (bblk3 V c ⟨n + 1, hn⟩) (outsAt3 V c n (Nat.lt_of_succ_lt hn)).2.2.2 g,
      acc3_1_eq c n (Nat.lt_of_succ_lt hn) g,
      show 5000 * (n + 1 + 1) = 5000 * (n + 1) + 5000 from by ring,
      Finset.sum_range_add (fun m => term3_1 (bArr3 V c) g m) (5000 * (n + 1)) 5000,
      ← Fin.sum_univ_eq_sum_range (fun x => term3_1 (bArr3 V c) g (5000 * (n + 1) + x)) 5000]
    refine congrArg (_ + ·) (Finset.sum_congr rfl fun r _ => ?_)
    exact blockTerm3_1 V c ⟨n + 1, hn⟩ r g

/-- Each output's buffer is a copy of its accumulator, at every point. -/
theorem outs3_copy (c : Dev nD) : ∀ (n : ℕ) (hn : n < cfg3.N),
    (outsAt3 V c n hn).1 = (outsAt3 V c n hn).2.2.1 ∧ (outsAt3 V c n hn).2.1 = (outsAt3 V c n hn).2.2.2
  | 0, _ => ⟨rfl, rfl⟩
  | _ + 1, _ => ⟨rfl, rfl⟩

/-! ## All rows, in the form the reference's segment sums are read in -/

/-- A graph number below 256, as a 32-bit word, reads signed as itself. -/
theorem toInt_graphWord (g : Fin 256) : (BitVec.ofNat 32 g.val).toInt = (g.val : ℤ) := by
  have hg := g.isLt
  have h1 : (BitVec.ofNat 32 g.val).toNat = g.val := by rw [BitVec.toNat_ofNat]; omega
  rw [BitVec.toInt_eq_toNat_of_lt (by rw [h1]; omega), h1]

/-- A word is graph g's word iff it reads signed as g. -/
theorem word_eq_iff (b : BitVec 32) (g : Fin 256) : b = BitVec.ofNat 32 g.val ↔ b.toInt = (g.val : ℤ) :=
  ⟨fun h => h ▸ toInt_graphWord g, fun h => BitVec.eq_of_toInt_eq (h.trans (toInt_graphWord g).symm)⟩

/-- The bf16 word 0x3F80 is 1. -/
theorem one_bf16 : Ideal.ofBits .bf16 0x3F80#16 = 1 := by
  simp [Ideal.ofBits, Ideal.ieee, -EReal.coe_mul]; norm_num

/-- The segment sums and counts of rows `eA` by the ids `bA`: entry (g, j) sums the rows whose id reads signed
    as g; entry (g, 0) counts them. -/
def sums3 (bA : S100000x1.Idx → Elt Ideal .i32) (eA : S100000x64.Idx → Elt Ideal .f32) : S256x64.Idx → Elt Ideal .f32 :=
  fun i => ∑ n : Fin 100000, if (bA (ix2 n (0 : Fin 1))).toInt = (((i 0 : Fin 256).val : ℕ) : ℤ) then eA (ix2 n (i 1 : Fin 64)) else 0
def counts3 (bA : S100000x1.Idx → Elt Ideal .i32) : S256x1.Idx → Elt Ideal .f32 :=
  fun i => ∑ n : Fin 100000, if (bA (ix2 n (0 : Fin 1))).toInt = (((i 0 : Fin 256).val : ℕ) : ℤ) then (1 : EReal) else 0

theorem sums3_apply (bA : S100000x1.Idx → Elt Ideal .i32) (eA : S100000x64.Idx → Elt Ideal .f32) (g : Fin 256) (j : Fin 64) :
    sums3 bA eA (ix2 g j) = ∑ n : Fin 100000, if (bA (ix2 n (0 : Fin 1))).toInt = (g.val : ℤ) then eA (ix2 n j) else 0 := rfl
theorem counts3_apply (bA : S100000x1.Idx → Elt Ideal .i32) (g : Fin 256) :
    counts3 bA (ix2 g (0 : Fin 1)) = ∑ n : Fin 100000, if (bA (ix2 n (0 : Fin 1))).toInt = (g.val : ℤ) then (1 : EReal) else 0 := rfl

/-- The contributions of all 100000 rows are the segment sum. -/
theorem sum_terms3_0 (bA : S100000x1.Idx → Elt Ideal .i32) (eA : S100000x64.Idx → Elt Ideal .f32) (g : Fin 256) (j : Fin 64) :
    ∑ m ∈ Finset.range 100000, term3_0 bA eA g j m = sums3 bA eA (ix2 g j) := by
  rw [sums3_apply, ← Fin.sum_univ_eq_sum_range (fun m => term3_0 bA eA g j m) 100000]
  refine Finset.sum_congr rfl fun n _ => ?_
  unfold term3_0
  rw [dif_pos n.isLt]
  show (if bA (ix2 n (0 : Fin 1)) = BitVec.ofNat 32 g.val then (1 : EReal) else 0) * eA (ix2 n j) = _
  by_cases h : bA (ix2 n (0 : Fin 1)) = BitVec.ofNat 32 g.val
  · rw [if_pos h, if_pos ((word_eq_iff _ g).mp h), one_mul]
  · rw [if_neg h, if_neg (fun h' => h ((word_eq_iff _ g).mpr h')), zero_mul]

theorem sum_terms3_1 (bA : S100000x1.Idx → Elt Ideal .i32) (g : Fin 256) :
    ∑ m ∈ Finset.range 100000, term3_1 bA g m = counts3 bA (ix2 g (0 : Fin 1)) := by
  rw [counts3_apply, ← Fin.sum_univ_eq_sum_range (fun m => term3_1 bA g m) 100000]
  refine Finset.sum_congr rfl fun n _ => ?_
  unfold term3_1
  rw [dif_pos n.isLt, one_bf16, mul_one]
  show (if bA (ix2 n (0 : Fin 1)) = BitVec.ofNat 32 g.val then (1 : EReal) else 0) = _
  by_cases h : bA (ix2 n (0 : Fin 1)) = BitVec.ofNat 32 g.val
  · rw [if_pos h, if_pos ((word_eq_iff _ g).mp h)]
  · rw [if_neg h, if_neg (fun h' => h ((word_eq_iff _ g).mpr h'))]

/-! ## What is written back, and the output arrays after the region -/

/-- Only the last grid point writes an output back. -/
theorem last_of_flush3_2 (t : Fin cfg3.N) (ht : (cfg3.win 2).flush t = true) : t.val = 19 := by
  have h := (flush3_2 t).mp ht; have hN : cfg3.N = 20 := N_3; have := t.isLt; omega
theorem last_of_flush3_3 (t : Fin cfg3.N) (ht : (cfg3.win 3).flush t = true) : t.val = 19 := by
  have h := (flush3_3 t).mp ht; have hN : cfg3.N = 20 := N_3; have := t.isLt; omega

-- reading the written-back block through the window unfolds the long axes coordinate by coordinate
set_option maxRecDepth 262144 in
/-- What the last point writes back into the sums' array is the segment sums, read through the (whole-array) block. -/
theorem flushed3_2_eq (c : Dev nD) (t : Fin cfg3.N) (ht : (cfg3.win 2).flush t = true) :
    (dat3 V c).flushed 2 t = ((cfg3.win 2).blk t).view.read (Elt Ideal) (sums3 (bArr3 V c) (eArr3 V c)) := by
  have h19 := last_of_flush3_2 t ht
  obtain ⟨-, -, -, -, e4, e5, -⟩ := blockIdx3 t
  have hX := acc3_0_eq V c t.val t.isLt
  show (cfg3.win 2).cut (grid3.coords t) ((dat3 V c).after 2 t) = _
  rw [after3_2, (outs3_copy V c t.val t.isLt).1]
  generalize (outsAt3 V c t.val t.isLt).2.2.1 = X at hX ⊢
  funext i
  obtain ⟨g, j, rfl⟩ : ∃ (g : Fin 256) (j : Fin 64), i = ix2 g j := ⟨i 0, i 1, eq_ix2 i⟩
  show X (ix2 g j) = sums3 (bArr3 V c) (eArr3 V c) (((cfg3.win 2).blk t).view.emb (ix2 g j))
  have hemb : ((cfg3.win 2).blk t).view.emb (ix2 g j) = ix2 g j := by
    funext d; apply Fin.ext
    match d with
    | ⟨0, _⟩ => show win3_2.index t (0 : Fin 2) * 256 + 1 * g.val = g.val; omega
    | ⟨1, _⟩ => show win3_2.index t (1 : Fin 2) * 64 + 1 * j.val = j.val; omega
  rw [hemb, hX g j, show 5000 * (t.val + 1) = 100000 from by omega]
  exact sum_terms3_0 (bArr3 V c) (eArr3 V c) g j

-- reading the written-back block through the window unfolds the long axes coordinate by coordinate
set_option maxRecDepth 262144 in
/-- And into the counts' array the segment counts. -/
theorem flushed3_3_eq (c : Dev nD) (t : Fin cfg3.N) (ht : (cfg3.win 3).flush t = true) :
    (dat3 V c).flushed 3 t = ((cfg3.win 3).blk t).view.read (Elt Ideal) (counts3 (bArr3 V c)) := by
  have h19 := last_of_flush3_3 t ht
  obtain ⟨-, -, -, -, -, -, e6, e7⟩ := blockIdx3 t
  have hX := acc3_1_eq V c t.val t.isLt
  show (cfg3.win 3).cut (grid3.coords t) ((dat3 V c).after 3 t) = _
  rw [after3_3, (outs3_copy V c t.val t.isLt).2]
  generalize (outsAt3 V c t.val t.isLt).2.2.2 = X at hX ⊢
  funext i
  obtain ⟨g, z, rfl⟩ : ∃ (g : Fin 256) (z : Fin 1), i = ix2 g z := ⟨i 0, i 1, eq_ix2 i⟩
  obtain rfl : z = 0 := Subsingleton.elim _ _
  show X (ix2 g (0 : Fin 1)) = counts3 (bArr3 V c) (((cfg3.win 3).blk t).view.emb (ix2 g (0 : Fin 1)))
  have hemb : ((cfg3.win 3).blk t).view.emb (ix2 g (0 : Fin 1)) = ix2 g (0 : Fin 1) := by
    funext d; apply Fin.ext
    match d with
    | ⟨0, _⟩ => show win3_3.index t (0 : Fin 2) * 256 + 1 * g.val = g.val; omega
    | ⟨1, _⟩ => show win3_3.index t (1 : Fin 2) * 1 + 1 * 0 = 0; omega
  rw [hemb, hX g, show 5000 * (t.val + 1) = 100000 from by omega]
  exact sum_terms3_1 (bArr3 V c) g

/-- The last grid point. -/
abbrev tLast3 : Fin cfg3.N := ⟨19, by have h : cfg3.N = 20 := N_3; omega⟩

/-- An entry of an output array is in grid point t's block iff each coordinate is in the block's range on its axis. -/
theorem mem_outBlock3_2 (t : Fin cfg3.N) (i : S256x64.Idx) :
    i ∈ ((cfg3.win 2).blk t).view.set ↔ ∀ a : Fin 2, win3_2.index t a * S256x64.size a ≤ (i a).val ∧ (i a).val < win3_2.index t a * S256x64.size a + S256x64.size a := by
  show i ∈ ((View.whole main_v97_0).slice (win3_2.rect t)).set ↔ _
  rw [View.set_slice_whole, Rect.mem_set_unit]
  exact Iff.rfl
theorem mem_outBlock3_3 (t : Fin cfg3.N) (i : S256x1.Idx) :
    i ∈ ((cfg3.win 3).blk t).view.set ↔ ∀ a : Fin 2, win3_3.index t a * S256x1.size a ≤ (i a).val ∧ (i a).val < win3_3.index t a * S256x1.size a + S256x1.size a := by
  show i ∈ ((View.whole main_v97_1).slice (win3_3.rect t)).set ↔ _
  rw [View.set_slice_whole, Rect.mem_set_unit]
  exact Iff.rfl

/-- The last point's block of either output is the whole array, and the last point writes it back. -/
theorem cover3_2 (i : S256x64.Idx) : ∃ t : Fin cfg3.N, (cfg3.win 2).flush t = true ∧ i ∈ ((cfg3.win 2).blk t).view.set := by
  refine ⟨tLast3, (flush3_2 tLast3).mpr rfl, ?_⟩
  rw [mem_outBlock3_2]
  obtain ⟨-, -, -, -, e4, e5, -⟩ := blockIdx3 tLast3
  have hi0 : (i 0).val < 256 := (i 0).isLt
  have hi1 : (i 1).val < 64 := (i 1).isLt
  intro a
  match a with
  | ⟨0, _⟩ =>
    show win3_2.index tLast3 (0 : Fin 2) * 256 ≤ (i 0).val ∧ (i 0).val < win3_2.index tLast3 (0 : Fin 2) * 256 + 256
    rw [e4]; omega
  | ⟨1, _⟩ =>
    show win3_2.index tLast3 (1 : Fin 2) * 64 ≤ (i 1).val ∧ (i 1).val < win3_2.index tLast3 (1 : Fin 2) * 64 + 64
    rw [e5]; omega
theorem cover3_3 (i : S256x1.Idx) : ∃ t : Fin cfg3.N, (cfg3.win 3).flush t = true ∧ i ∈ ((cfg3.win 3).blk t).view.set := by
  refine ⟨tLast3, (flush3_3 tLast3).mpr rfl, ?_⟩
  rw [mem_outBlock3_3]
  obtain ⟨-, -, -, -, -, -, e6, e7⟩ := blockIdx3 tLast3
  have hi0 : (i 0).val < 256 := (i 0).isLt
  have hi1 : (i 1).val < 1 := (i 1).isLt
  intro a
  match a with
  | ⟨0, _⟩ =>
    show win3_3.index tLast3 (0 : Fin 2) * 256 ≤ (i 0).val ∧ (i 0).val < win3_3.index tLast3 (0 : Fin 2) * 256 + 256
    rw [e6]; omega
  | ⟨1, _⟩ =>
    show win3_3.index tLast3 (1 : Fin 2) * 1 ≤ (i 1).val ∧ (i 1).val < win3_3.index tLast3 (1 : Fin 2) * 1 + 1
    rw [e7]; omega

/-- The sums' array after the last grid point is the segment sums of the rows by the ids, as the region found them. -/
theorem arrAt3_2 (c : Dev nD) : (dat3 V c).arrAt 2 cfg3.N = sums3 (bArr3 V c) (eArr3 V c) :=
  (dat3 V c).arrAt_eq_of_cover 2 (sums3 (bArr3 V c) (eArr3 V c)) (fun t ht => flushed3_2_eq V c t ht) cover3_2
/-- The counts' array after the last grid point is the segment counts. -/
theorem arrAt3_3 (c : Dev nD) : (dat3 V c).arrAt 3 cfg3.N = counts3 (bArr3 V c) :=
  (dat3 V c).arrAt_eq_of_cover 3 (counts3 (bArr3 V c)) (fun t ht => flushed3_3_eq V c t ht) cover3_3

/-- The two output arrays after the region, typed by their shapes. -/
abbrev sArr3 (c : Dev nD) : S256x64.Idx → Elt Ideal .f32 := (dat3 V c).arrAt 2 cfg3.N
abbrev kArr3 (c : Dev nD) : S256x1.Idx → Elt Ideal .f32 := (dat3 V c).arrAt 3 cfg3.N

/-- Entry (g, j) of the sums: s (g, j) = ∑ n, [b n reads signed as g] e (n, j). -/
theorem arrAt3_2_apply (c : Dev nD) (g : Fin 256) (j : Fin 64) :
    sArr3 V c (ix2 g j) = ∑ n : Fin 100000, if (bArr3 V c (ix2 n (0 : Fin 1))).toInt = (g.val : ℤ) then eArr3 V c (ix2 n j) else 0 := by
  show (dat3 V c).arrAt 2 cfg3.N (ix2 g j) = _
  rw [arrAt3_2]; rfl
/-- Entry (g, 0) of the counts: k (g, 0) = ∑ n, [b n reads signed as g] 1. -/
theorem arrAt3_3_apply (c : Dev nD) (g : Fin 256) :
    kArr3 V c (ix2 g (0 : Fin 1)) = ∑ n : Fin 100000, if (bArr3 V c (ix2 n (0 : Fin 1))).toInt = (g.val : ℤ) then (1 : EReal) else 0 := by
  show (dat3 V c).arrAt 3 cfg3.N (ix2 g (0 : Fin 1)) = _
  rw [arrAt3_3]; rfl

end Cert.KernelIdeal.Hand

end
-- ==== Proof.RefSide.lean ====
/- The reference program's run, read back one operation at a time: its run and read-at-an-index modules are brought
   in here; the lemmas that read the reference's stages at an index given by coordinates follow: the first product,
   and the four stages from the second propagation's result to the normalised embedding. -/
import proofs.«421031_j46042049413263_1_alg».proof.Proof.RefRun
import proofs.«421031_j46042049413263_1_alg».proof.Proof.RefRead
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx

/-! ## Where the read-back lemmas' index functions point, at an index given by its coordinates

A vector of 64 features is made a row and the row repeated down the 100000 node rows: entry (i, k) of the result is
entry k of the vector. A contraction over the 64 (or 128) features reads row i of the left factor and column l of the
right one. The sum of squares along a row reads that row. -/

/-- The first product reads row i of the node features … -/
theorem x_row (i : Fin 100000) (l : Fin 64) (k : Fin 128) : lidx_main_v15 (ix2 i l) k = ix2 i k :=
  funext fun a => Fin.ext (by match a with | ⟨0, _⟩ => rfl | ⟨1, _⟩ => rfl)
/-- … and column l of the first weight. -/
theorem w1_col (i : Fin 100000) (l : Fin 64) (k : Fin 128) : ridx_main_v15 (ix2 i l) k = ix2 k l :=
  funext fun a => Fin.ext (by match a with | ⟨0, _⟩ => rfl | ⟨1, _⟩ => rfl)

/-- The second layer's bias at (i, k) is its entry k. -/
theorem b2_feat (i : Fin 100000) (k : Fin 64) : idx_main_v98 (idx_main_v99 (ix2 i k)) = ix1 k :=
  funext fun a => Fin.ext (by match a with | ⟨0, _⟩ => rfl)
/-- The second normalisation's scale at (i, k) is its entry k. -/
theorem g2_feat (i : Fin 100000) (k : Fin 64) : idx_main_v105 (idx_main_v106 (ix2 i k)) = ix1 k :=
  funext fun a => Fin.ext (by match a with | ⟨0, _⟩ => rfl)
/-- The second normalisation's shift at (i, k) is its entry k. -/
theorem be2_feat (i : Fin 100000) (k : Fin 64) : idx_main_v108 (idx_main_v109 (ix2 i k)) = ix1 k :=
  funext fun a => Fin.ext (by match a with | ⟨0, _⟩ => rfl)
/-- The projector's first bias at (i, k) is its entry k. -/
theorem pb1_feat (i : Fin 100000) (k : Fin 64) : idx_main_v113 (idx_main_v114 (ix2 i k)) = ix1 k :=
  funext fun a => Fin.ext (by match a with | ⟨0, _⟩ => rfl)
/-- The projector's normalisation scale at (i, k) is its entry k. -/
theorem pg_feat (i : Fin 100000) (k : Fin 64) : idx_main_v120 (idx_main_v121 (ix2 i k)) = ix1 k :=
  funext fun a => Fin.ext (by match a with | ⟨0, _⟩ => rfl)
/-- The projector's normalisation shift at (i, k) is its entry k. -/
theorem pbe_feat (i : Fin 100000) (k : Fin 64) : idx_main_v123 (idx_main_v124 (ix2 i k)) = ix1 k :=
  funext fun a => Fin.ext (by match a with | ⟨0, _⟩ => rfl)
/-- The projector's second bias at (i, l) is its entry l. -/
theorem pb2_feat (i : Fin 100000) (k : Fin 64) : idx_main_v128 (idx_main_v129 (ix2 i k)) = ix1 k :=
  funext fun a => Fin.ext (by match a with | ⟨0, _⟩ => rfl)

/-- The projector's first product reads row i of the hidden layer … -/
theorem h2_row (i : Fin 100000) (l k : Fin 64) : lidx_main_v112 (ix2 i l) k = ix2 i k :=
  funext fun a => Fin.ext (by match a with | ⟨0, _⟩ => rfl | ⟨1, _⟩ => rfl)
/-- … and column k of its first weight. -/
theorem pw1_col (i : Fin 100000) (l k : Fin 64) : ridx_main_v112 (ix2 i l) k = ix2 k l :=
  funext fun a => Fin.ext (by match a with | ⟨0, _⟩ => rfl | ⟨1, _⟩ => rfl)
/-- The projector's second product reads row i of its hidden layer … -/
theorem p1_row (i : Fin 100000) (l k : Fin 64) : lidx_main_v127 (ix2 i l) k = ix2 i k :=
  funext fun a => Fin.ext (by match a with | ⟨0, _⟩ => rfl | ⟨1, _⟩ => rfl)
/-- … and column l of its second weight. -/
theorem pw2_col (i : Fin 100000) (l k : Fin 64) : ridx_main_v127 (ix2 i l) k = ix2 k l :=
  funext fun a => Fin.ext (by match a with | ⟨0, _⟩ => rfl | ⟨1, _⟩ => rfl)

/-- The squared norm of row i, wherever in the row it is asked for, sums the squares along row i. -/
theorem norm_row (i : Fin 100000) (l k : Fin 64) :
    idx_main_v132 (idx_main_v133 (idx_main_v137 (ix2 i l))) k = ix2 i k :=
  funext fun a => Fin.ext (by match a with | ⟨0, _⟩ => rfl | ⟨1, _⟩ => rfl)

/-! ## The arguments, by role -/

variable (x : (⟨S100000x128, .f32⟩ : BufTy).Contents (Elt Ideal)) (ei : (⟨S2x3200000, .i32⟩ : BufTy).Contents (Elt Ideal))
  (w1 : (⟨S128x64, .f32⟩ : BufTy).Contents (Elt Ideal)) (b1 g1 be1 : (⟨S64, .f32⟩ : BufTy).Contents (Elt Ideal)) (w2 : (⟨S64x64, .f32⟩ : BufTy).Contents (Elt Ideal))
  (b2 g2 be2 : (⟨S64, .f32⟩ : BufTy).Contents (Elt Ideal)) (pw1 : (⟨S64x64, .f32⟩ : BufTy).Contents (Elt Ideal))
  (pb1 pg pbe : (⟨S64, .f32⟩ : BufTy).Contents (Elt Ideal)) (pw2 : (⟨S64x64, .f32⟩ : BufTy).Contents (Elt Ideal)) (pb2 : (⟨S64, .f32⟩ : BufTy).Contents (Elt Ideal))

/-! ## The first product -/

/-- Entry (i, l) of the node features times the first weight: the sum over the 128 input features. -/
theorem xw1_apply (i : Fin 100000) (l : Fin 64) :
    val_main_v15 (F := Ideal) x w1 (ix2 i l) = ∑ k : Fin 128, x (ix2 i k) * w1 (ix2 k l) := by
  rw [val_main_v15_apply]
  simp only [x_row, w1_col]

/-! ## From the second propagation to the normalised embedding

Four stages, each read at an index from the one before it: the second layer's activation `h2`, the projector's hidden
activation `p1`, the projector's output `z`, and `z` with every row divided by its Euclidean norm (or by 1e-12 when
the norm is smaller). The second propagation's result stays the term the read-back module names it by. -/

/-- The second layer: bias, then the normalisation's scale (over the square root of 1.00001) and shift, then the
    positive part. -/
theorem h2_apply (i : Fin 100000) (k : Fin 64) :
    val_main_v111 (F := Ideal) x ei w1 b1 g1 be1 w2 b2 g2 be2 (ix2 i k) =
      max ((val_main_v97 (F := Ideal) x ei w1 b1 g1 be1 w2 (ix2 i k) + b2 (ix1 k))
            * Ideal.div (g2 (ix1 k)) (Ideal.sqrt (Ideal.ofBits .f32 0x3F800054#32)) + be2 (ix1 k)) 0 := by
  rw [val_main_v111_apply, val_main_v110_apply, val_main_v107_apply, val_main_v100_apply, val_main_v99_apply,
    val_main_v98_apply, val_main_v106_apply, val_main_v105_apply, val_main_v104_apply, val_main_v103_apply,
    val_main_v102_apply, val_main_v101_apply, val_main_cst_21_apply, val_main_v109_apply, val_main_v108_apply,
    val_main_call3_v0_apply, val_main_call3_cst_apply]
  rw [b2_feat, g2_feat, be2_feat]
  simp only [Ideal.ofBits_def, Ideal.addf_def, Ideal.mulf_def, Ideal.maximumf_def, Ideal.hostDivf_def,
    Ideal.hostUnary_sqrt_def, Ideal.ofBits_zero_f32]

/-- The projector's hidden layer: the product with its first weight, bias, normalisation, positive part. -/
theorem p1_apply (i : Fin 100000) (k : Fin 64) :
    val_main_v126 (F := Ideal) x ei w1 b1 g1 be1 w2 b2 g2 be2 pw1 pb1 pg pbe (ix2 i k) =
      max (((∑ k' : Fin 64, val_main_v111 (F := Ideal) x ei w1 b1 g1 be1 w2 b2 g2 be2 (ix2 i k') * pw1 (ix2 k' k)) + pb1 (ix1 k))
            * Ideal.div (pg (ix1 k)) (Ideal.sqrt (Ideal.ofBits .f32 0x3F800054#32)) + pbe (ix1 k)) 0 := by
  rw [val_main_v126_apply, val_main_v125_apply, val_main_v122_apply, val_main_v115_apply, val_main_v112_apply,
    val_main_v114_apply, val_main_v113_apply, val_main_v121_apply, val_main_v120_apply, val_main_v119_apply,
    val_main_v118_apply, val_main_v117_apply, val_main_v116_apply, val_main_cst_22_apply, val_main_v124_apply,
    val_main_v123_apply, val_main_call4_v0_apply, val_main_call4_cst_apply]
  rw [pb1_feat, pg_feat, pbe_feat,
    Finset.sum_congr rfl fun k' _ => by rw [h2_row, pw1_col]]
  simp only [Ideal.ofBits_def, Ideal.addf_def, Ideal.mulf_def, Ideal.maximumf_def, Ideal.hostDivf_def,
    Ideal.hostUnary_sqrt_def, Ideal.ofBits_zero_f32]

/-- The projector's output: the product with its second weight, and its bias. -/
theorem z_apply (i : Fin 100000) (l : Fin 64) :
    val_main_v130 (F := Ideal) x ei w1 b1 g1 be1 w2 b2 g2 be2 pw1 pb1 pg pbe pw2 pb2 (ix2 i l) =
      (∑ k : Fin 64, val_main_v126 (F := Ideal) x ei w1 b1 g1 be1 w2 b2 g2 be2 pw1 pb1 pg pbe (ix2 i k) * pw2 (ix2 k l))
        + pb2 (ix1 l) := by
  rw [val_main_v130_apply, val_main_v127_apply, val_main_v129_apply, val_main_v128_apply]
  rw [pb2_feat, Finset.sum_congr rfl fun k _ => by rw [p1_row, pw2_col]]
  simp only [Ideal.addf_def]

/-- The first result: each row of the projector's output over the larger of its Euclidean norm and 1e-12. -/
theorem normalised_apply (i : Fin 100000) (l : Fin 64) :
    val_main_v138 (F := Ideal) x ei w1 b1 g1 be1 w2 b2 g2 be2 pw1 pb1 pg pbe pw2 pb2 (ix2 i l) =
      Ideal.div (val_main_v130 (F := Ideal) x ei w1 b1 g1 be1 w2 b2 g2 be2 pw1 pb1 pg pbe pw2 pb2 (ix2 i l))
        (max (Ideal.sqrt (∑ k : Fin 64,
            val_main_v130 (F := Ideal) x ei w1 b1 g1 be1 w2 b2 g2 be2 pw1 pb1 pg pbe pw2 pb2 (ix2 i k)
              * val_main_v130 (F := Ideal) x ei w1 b1 g1 be1 w2 b2 g2 be2 pw1 pb1 pg pbe pw2 pb2 (ix2 i k)))
          (Ideal.ofBits .f32 0x2B8CBCCC#32)) := by
  rw [val_main_v138_apply, val_main_v137_apply, val_main_v136_apply, val_main_v134_apply, val_main_v133_apply,
    val_main_v132_apply, val_main_cst_23_apply, val_main_v135_apply, val_main_cst_24_apply]
  rw [Finset.sum_congr rfl fun k _ => by rw [norm_row, val_main_v131_apply]]
  simp only [Ideal.ofBits_def, Ideal.mulf_def, Ideal.maximumf_def, Ideal.hostDivf_def, Ideal.hostUnary_sqrt_def,
    Ideal.ofBits_zero_f32, zero_add]

end Cert.ReferenceIdeal.RefValue

end
-- ==== Proof.Ref.R2.lean ====
import proofs.«421031_j46042049413263_1_alg».proof.Proof.RefSide
import proofs.«421031_j46042049413263_1_alg».proof.Proof.KI.Val2

/-!
# The reference's last stretch against region 2's row formula

The stretch of the reference that the finalize call replaces: add `b2`, scale by `g2 / sqrt 1.00001`, add `be2`,
rectify; multiply by `pw1`, add `pb1`, scale by `pg / sqrt 1.00001`, add `pbe`, rectify; multiply by `pw2`, add
`pb2`; divide each row by its Euclidean norm kept above `1e-12`.  Read at an index over the extended reals these
are four stages, each a formula of the one before.  Region 2's row formula is the same four stages written over the
region's own input arrays, whose parameter rows are `1 x 64` arrays read at `(0, k)`.  So once each parameter row is
identified with the reference's parameter at `k`, the array formula IS the reference's last stage.
-/

noncomputable section

namespace Cert.Proof.Stage2

section Stages

open Cert.KernelIdeal Cert.KernelIdeal.Hand Idealize.ShloMosaic Idealize.ShloMosaic.ValueIdx
open scoped BigOperators

/-! ## The four stages, abstractly -/

/-- If four arrays `H2 P1 Z R` satisfy, index by index, the four stage equations — over per-column parameters
`β2 σ2 ε2` (first layer), `β1 σ1 ε1` (second layer), `βz` (last bias) — and the region's `1 x 64` parameter rows hold those
parameters at `(0, k)`, then the region's array formula is `R`. -/
theorem r2Arr_eq_of_stages (h : S100000x64.Idx → EReal) (b2 s2 be2 : S1x64.Idx → EReal) (wp1 : S64x64.Idx → EReal)
    (bp1 sp bep : S1x64.Idx → EReal) (wp2 : S64x64.Idx → EReal) (bp2 : S1x64.Idx → EReal)
    (β2 σ2 ε2 β1 σ1 ε1 βz : Fin 64 → EReal)
    (hb2 : ∀ k : Fin 64, b2 (ix2 (0 : Fin 1) k) = β2 k) (hs2 : ∀ k : Fin 64, s2 (ix2 (0 : Fin 1) k) = σ2 k)
    (hbe2 : ∀ k : Fin 64, be2 (ix2 (0 : Fin 1) k) = ε2 k)
    (hbp1 : ∀ k : Fin 64, bp1 (ix2 (0 : Fin 1) k) = β1 k) (hsp : ∀ k : Fin 64, sp (ix2 (0 : Fin 1) k) = σ1 k)
    (hbep : ∀ k : Fin 64, bep (ix2 (0 : Fin 1) k) = ε1 k) (hbp2 : ∀ k : Fin 64, bp2 (ix2 (0 : Fin 1) k) = βz k)
    (H2 P1 Z R : S100000x64.Idx → EReal)
    (hH2 : ∀ (i : Fin 100000) (k : Fin 64), H2 (ix2 i k) = max ((h (ix2 i k) + β2 k) * σ2 k + ε2 k) 0)
    (hP1 : ∀ (i : Fin 100000) (k : Fin 64),
      P1 (ix2 i k) = max (((∑ k' : Fin 64, H2 (ix2 i k') * wp1 (ix2 k' k)) + β1 k) * σ1 k + ε1 k) 0)
    (hZ : ∀ (i : Fin 100000) (l : Fin 64), Z (ix2 i l) = (∑ k : Fin 64, P1 (ix2 i k) * wp2 (ix2 k l)) + βz l)
    (hR : ∀ (i : Fin 100000) (l : Fin 64), R (ix2 i l)
      = Ideal.div (Z (ix2 i l)) (max (Ideal.sqrt (∑ k : Fin 64, Z (ix2 i k) * Z (ix2 i k))) (Ideal.ofBits .f32 0x2B8CBCCC#32))) :
    r2Arr h b2 s2 be2 wp1 bp1 sp bep wp2 bp2 = R := by
  funext j
  obtain ⟨i, l, rfl⟩ : ∃ (i : Fin 100000) (l : Fin 64), j = ix2 i l := ⟨j 0, j 1, eq_ix2 j⟩
  -- the row before normalisation is the third stage, column by column
  have hz : ∀ l' : Fin 64, r2Emb (fun k => h (ix2 i k)) b2 s2 be2 wp1 bp1 sp bep wp2 bp2 l' = Z (ix2 i l') := by
    intro l'
    rw [hZ]
    unfold r2Emb r2RowDot r2AffRelu
    simp only [hP1, hH2, hb2, hs2, hbe2, hbp1, hsp, hbep, hbp2]
  rw [hR]
  show r2Row (fun k => h (ix2 i k)) b2 s2 be2 wp1 bp1 sp bep wp2 bp2 l = _
  unfold r2Row
  simp only [hz]

end Stages

/-! ## The reference's four stages are such arrays -/

section Reference

open Cert.ReferenceIdeal Cert.KernelIdeal.Hand Idealize.ShloMosaic Idealize.ShloMosaic.ValueIdx
open scoped BigOperators

/-- The square root of the word `0x3F800054` (1.00001 in f32), as the program prints it. -/
local notation "c₁" => Ideal.sqrt (Ideal.ofBits FTy.f32 0x3F800054#32)

variable (x : (⟨S100000x128, .f32⟩ : BufTy).Contents (Elt Ideal)) (ei : (⟨S2x3200000, .i32⟩ : BufTy).Contents (Elt Ideal))
  (w1 : (⟨S128x64, .f32⟩ : BufTy).Contents (Elt Ideal)) (b1 g1 be1 : (⟨S64, .f32⟩ : BufTy).Contents (Elt Ideal)) (w2 : (⟨S64x64, .f32⟩ : BufTy).Contents (Elt Ideal))
  (b2 g2 be2 : (⟨S64, .f32⟩ : BufTy).Contents (Elt Ideal)) (pw1 : (⟨S64x64, .f32⟩ : BufTy).Contents (Elt Ideal))
  (pb1 pg pbe : (⟨S64, .f32⟩ : BufTy).Contents (Elt Ideal)) (pw2 : (⟨S64x64, .f32⟩ : BufTy).Contents (Elt Ideal)) (pb2 : (⟨S64, .f32⟩ : BufTy).Contents (Elt Ideal))

/-- Region 2's array formula, over ten arrays of which the first is the reference's propagated features of the second
layer, each parameter row holds the reference's parameter at `(0, k)` — `b2`, `g2 / c₁`, `be2`, then `pb1`, `pg / c₁`,
`pbe`, then `pb2` — and the two matrices are `pw1` and `pw2`, is the reference's first result. -/
theorem stage2_eq (h : S100000x64.Idx → EReal) (kb2 ks2 kbe2 : S1x64.Idx → EReal) (kw1 : S64x64.Idx → EReal)
    (kbp1 ksp kbep : S1x64.Idx → EReal) (kw2 : S64x64.Idx → EReal) (kbp2 : S1x64.Idx → EReal)
    (hh : h = Read.val_main_v97 (F := Ideal) x ei w1 b1 g1 be1 w2)
    (hb2 : ∀ k : Fin 64, kb2 (ix2 (0 : Fin 1) k) = b2 (ix1 k))
    (hs2 : ∀ k : Fin 64, ks2 (ix2 (0 : Fin 1) k) = Ideal.div (g2 (ix1 k)) c₁)
    (hbe2 : ∀ k : Fin 64, kbe2 (ix2 (0 : Fin 1) k) = be2 (ix1 k))
    (hw1 : kw1 = pw1)
    (hbp1 : ∀ k : Fin 64, kbp1 (ix2 (0 : Fin 1) k) = pb1 (ix1 k))
    (hsp : ∀ k : Fin 64, ksp (ix2 (0 : Fin 1) k) = Ideal.div (pg (ix1 k)) c₁)
    (hbep : ∀ k : Fin 64, kbep (ix2 (0 : Fin 1) k) = pbe (ix1 k))
    (hw2 : kw2 = pw2)
    (hbp2 : ∀ k : Fin 64, kbp2 (ix2 (0 : Fin 1) k) = pb2 (ix1 k)) :
    r2Arr h kb2 ks2 kbe2 kw1 kbp1 ksp kbep kw2 kbp2
      = Read.val_main_v138 (F := Ideal) x ei w1 b1 g1 be1 w2 b2 g2 be2 pw1 pb1 pg pbe pw2 pb2 := by
  rw [hh, hw1, hw2]
  exact r2Arr_eq_of_stages _ kb2 ks2 kbe2 _ kbp1 ksp kbep _ kbp2 _ _ _ _ _ _ _ hb2 hs2 hbe2 hbp1 hsp hbep hbp2
    (Read.val_main_v111 (F := Ideal) x ei w1 b1 g1 be1 w2 b2 g2 be2)
    (Read.val_main_v126 (F := Ideal) x ei w1 b1 g1 be1 w2 b2 g2 be2 pw1 pb1 pg pbe)
    (Read.val_main_v130 (F := Ideal) x ei w1 b1 g1 be1 w2 b2 g2 be2 pw1 pb1 pg pbe pw2 pb2)
    (Read.val_main_v138 (F := Ideal) x ei w1 b1 g1 be1 w2 b2 g2 be2 pw1 pb1 pg pbe pw2 pb2)
    (RefValue.h2_apply x ei w1 b1 g1 be1 w2 b2 g2 be2)
    (RefValue.p1_apply x ei w1 b1 g1 be1 w2 b2 g2 be2 pw1 pb1 pg pbe)
    (RefValue.z_apply x ei w1 b1 g1 be1 w2 b2 g2 be2 pw1 pb1 pg pbe pw2 pb2)
    (RefValue.normalised_apply x ei w1 b1 g1 be1 w2 b2 g2 be2 pw1 pb1 pg pbe pw2 pb2)

end Reference

end Cert.Proof.Stage2

end
-- ==== Proof.Ref.R3.lean ====
import proofs.«421031_j46042049413263_1_alg».proof.Proof.RefRead
import proofs.«421031_j46042049413263_1_alg».proof.Proof.KI.Val3

/-!
# The reference's readout sums, read at an index

The stretch of the reference that the kernel's fourth pipeline replaces: two accumulating scatters into zero arrays,
indexed by the graph ids made a column. The first adds row `n` of the normalised embedding into row `batch n` of a
256 × 64 array; the second adds a one per row into a vector of 256 counts. Read at an index over the extended reals,

  sums (g, c) = sum over the rows n whose id, read signed, is g, of emb (n, c),      counts g = the number of such rows.

A scatter's update at `(n, c)` lands at `(batch n, c)` when that is inside the result and is dropped otherwise: this is
read off the scatter's dimension numbers, coordinate by coordinate. The same two sums are what the kernel's pipeline
leaves, once its id column is the reference's ids made a column and its rows are the reference's embedding; the
kernel's counts are a 256 × 1 column, the reference's a vector of 256, so entry (g, 0) is stated against entry g.
-/

noncomputable section

namespace Cert.Proof.Stage3

open Cert.ReferenceIdeal Idealize.ShloMosaic Idealize.ShloMosaic.ValueIdx
open scoped BigOperators

/-! ## Where the sums' scatter puts an update -/

/-- On the segment axis the window starts at the row's segment id, read signed. -/
theorem pool_start_0 (j : S100000x64.Idx) (idx : IVec S100000x1 32) :
    scatter_S256x64_S100000x1_S100000x64_1_0_0_1.start j idx 0 = (idx (ix2 (j 0) 0)).toInt := by
  unfold ScatterDims.start
  rw [dif_pos (show (0 : Fin S256x64.rank) ∈ scatter_S256x64_S100000x1_S100000x64_1_0_0_1.scatterDimsToOperandDims from List.mem_singleton.2 rfl)]
  refine congrArg (fun t => (idx t).toInt) (funext fun b => Fin.ext ?_)
  match b with
  | ⟨0, _⟩ => rfl
  | ⟨1, _⟩ => rfl

/-- No start index names the column axis. -/
theorem pool_start_1 (j : S100000x64.Idx) (idx : IVec S100000x1 32) :
    scatter_S256x64_S100000x1_S100000x64_1_0_0_1.start j idx 1 = 0 := by
  unfold ScatterDims.start
  rw [dif_neg (show ¬ (1 : Fin S256x64.rank) ∈ scatter_S256x64_S100000x1_S100000x64_1_0_0_1.scatterDimsToOperandDims from
    fun h => absurd (List.mem_singleton.1 (show (1 : Fin S256x64.rank) ∈ ([0] : List (Fin S256x64.rank)) from h)) (by decide))]

/-- The segment axis is inserted: no window coordinate on it. -/
theorem pool_window_0 (j : S100000x64.Idx) :
    scatter_S256x64_S100000x1_S100000x64_1_0_0_1.window j 0 = 0 := by
  unfold ScatterDims.window
  rw [dif_neg (show ¬ (0 : Fin S256x64.rank) ∈ scatter_S256x64_S100000x1_S100000x64_1_0_0_1.sKept from
    fun h => absurd (List.mem_singleton.1 (show (0 : Fin S256x64.rank) ∈ ([1] : List (Fin S256x64.rank)) from h)) (by decide))]

/-- The window coordinate on the column axis is the update's column. -/
theorem pool_window_1 (j : S100000x64.Idx) :
    scatter_S256x64_S100000x1_S100000x64_1_0_0_1.window j 1 = (j 1).val := by
  unfold ScatterDims.window
  rw [dif_pos (show (1 : Fin S256x64.rank) ∈ scatter_S256x64_S100000x1_S100000x64_1_0_0_1.sKept from
    (show (1 : Fin S256x64.rank) ∈ ([1] : List (Fin S256x64.rank)) from List.mem_singleton.2 rfl))]
  rfl

/-- An update stays inside the result exactly when its row's segment id, read signed, is one of the 256 segments. -/
theorem pool_inside (j : S100000x64.Idx) (idx : IVec S100000x1 32) :
    (∀ a : Fin S256x64.rank,
        0 ≤ scatter_S256x64_S100000x1_S100000x64_1_0_0_1.start j idx a + scatter_S256x64_S100000x1_S100000x64_1_0_0_1.window j a ∧
        scatter_S256x64_S100000x1_S100000x64_1_0_0_1.start j idx a + scatter_S256x64_S100000x1_S100000x64_1_0_0_1.window j a < S256x64.size a) ↔
      (0 ≤ (idx (ix2 (j 0) 0)).toInt ∧ (idx (ix2 (j 0) 0)).toInt < 256) := by
  have h0 := pool_start_0 j idx
  have h1 := pool_start_1 j idx
  have w0 := pool_window_0 j
  have w1 := pool_window_1 j
  have hj1 : (j 1).val < 64 := (j 1).isLt
  have s0 : S256x64.size 0 = 256 := rfl
  have s1 : S256x64.size 1 = 64 := rfl
  constructor
  · intro h
    have := h 0
    rw [h0, w0, s0] at this
    omega
  · intro h a
    match a with
    | ⟨0, _⟩ =>
      show 0 ≤ scatter_S256x64_S100000x1_S100000x64_1_0_0_1.start j idx 0 + scatter_S256x64_S100000x1_S100000x64_1_0_0_1.window j 0 ∧
        scatter_S256x64_S100000x1_S100000x64_1_0_0_1.start j idx 0 + scatter_S256x64_S100000x1_S100000x64_1_0_0_1.window j 0 < S256x64.size 0
      rw [h0, w0, s0]; omega
    | ⟨1, _⟩ =>
      show 0 ≤ scatter_S256x64_S100000x1_S100000x64_1_0_0_1.start j idx 1 + scatter_S256x64_S100000x1_S100000x64_1_0_0_1.window j 1 ∧
        scatter_S256x64_S100000x1_S100000x64_1_0_0_1.start j idx 1 + scatter_S256x64_S100000x1_S100000x64_1_0_0_1.window j 1 < S256x64.size 1
      rw [h1, w1, s1]; omega

/-- Row `j 0`'s update at column `j 1` lands at `i` exactly when the row's segment id, read signed, is `i 0`
    and the columns agree; a segment id outside the result drops the update. -/
theorem pool_lands (j : S100000x64.Idx) (idx : IVec S100000x1 32) (i : S256x64.Idx) :
    scatter_S256x64_S100000x1_S100000x64_1_0_0_1.resultIdx? j idx = some i ↔
      (idx (ix2 (j 0) 0)).toInt = ((i 0).val : Int) ∧ (j 1).val = (i 1).val := by
  have h0 := pool_start_0 j idx
  have h1 := pool_start_1 j idx
  have w0 := pool_window_0 j
  have w1 := pool_window_1 j
  have hi0 : (i 0).val < 256 := (i 0).isLt
  have key := pool_inside j idx
  unfold ScatterDims.resultIdx?
  split
  · rename_i h
    have hr := key.1 h
    rw [Option.some.injEq]
    constructor
    · intro hh
      have e0 := congrArg (fun f => (f 0).val) hh
      have e1 := congrArg (fun f => (f 1).val) hh
      simp only at e0 e1
      rw [h0, w0] at e0
      rw [h1, w1] at e1
      constructor <;> omega
    · rintro ⟨e0, e1⟩
      funext a
      apply Fin.ext
      match a with
      | ⟨0, _⟩ =>
        show (scatter_S256x64_S100000x1_S100000x64_1_0_0_1.start j idx 0 + scatter_S256x64_S100000x1_S100000x64_1_0_0_1.window j 0).toNat = (i 0).val
        rw [h0, w0]; omega
      | ⟨1, _⟩ =>
        show (scatter_S256x64_S100000x1_S100000x64_1_0_0_1.start j idx 1 + scatter_S256x64_S100000x1_S100000x64_1_0_0_1.window j 1).toNat = (i 1).val
        rw [h1, w1]; omega
  · rename_i h
    constructor
    · intro hh; exact absurd hh (by simp)
    · rintro ⟨e0, e1⟩
      exact absurd (key.2 (by omega)) h

/-- Entry (g, c) of the accumulating scatter: the operand's entry plus the updates of the rows whose segment id is g,
    at column c. -/
theorem pool_sum (x : FVec Ideal S256x64 .f32) (idx : IVec S100000x1 32) (upd : FVec Ideal S100000x64 .f32)
    (g : Fin 256) (c : Fin 64) :
    Ideal.hostScatterAdd scatter_S256x64_S100000x1_S100000x64_1_0_0_1 x idx upd (ix2 g c) =
      x (ix2 g c) + ∑ n : Fin 100000, if (idx (ix2 n 0)).toInt = (g.val : Int) then upd (ix2 n c) else 0 := by
  unfold Ideal.hostScatterAdd
  refine congrArg (fun t => x (ix2 g c) + t) ?_
  rw [Finset.sum_filter, sum_idx2]
  refine Finset.sum_congr rfl fun n _ => ?_
  simp only [pool_lands]
  show (∑ c' : Fin 64, if (idx (ix2 n 0)).toInt = (g.val : Int) ∧ c'.val = c.val then upd (ix2 n c') else 0) =
    if (idx (ix2 n 0)).toInt = (g.val : Int) then upd (ix2 n c) else 0
  by_cases hg : (idx (ix2 n 0)).toInt = (g.val : Int)
  · simp only [hg, true_and, if_true]
    rw [Finset.sum_eq_single c]
    · rw [if_pos rfl]
    · intro b _ hb
      rw [if_neg (fun h => hb (Fin.ext h))]
    · intro h
      exact absurd (Finset.mem_univ c) h
  · simp only [hg, false_and, if_false, Finset.sum_const_zero]

/-! The count scatter: the same operand axis and start index, no window axis at all. -/

/-- A rank-1 index set is its one coordinate's range … -/
def idxEquiv1 {n0 : Nat} : (⟨1, ![n0]⟩ : Shape).Idx ≃ Fin n0 where
  toFun i := i 0
  invFun a := ix1 a
  left_inv i := (eq_ix1 i).symm
  right_inv _ := rfl
/-- … so a sum over it is the sum over the coordinate. -/
theorem sum_idx1 {M : Type*} [AddCommMonoid M] {n0 : Nat} (f : (⟨1, ![n0]⟩ : Shape).Idx → M) :
    ∑ i, f i = ∑ a : Fin n0, f (ix1 a) := by
  rw [← Equiv.sum_comp (idxEquiv1 (n0 := n0)).symm f]
  rfl

/-- The count's window starts at the row's segment id, read signed. -/
theorem count_start_0 (j : S100000.Idx) (idx : IVec S100000x1 32) :
    scatter_S256_S100000x1_S100000_n_0_0_1.start j idx 0 = (idx (ix2 (j 0) 0)).toInt := by
  unfold ScatterDims.start
  rw [dif_pos (show (0 : Fin S256.rank) ∈ scatter_S256_S100000x1_S100000_n_0_0_1.scatterDimsToOperandDims from List.mem_singleton.2 rfl)]
  refine congrArg (fun t => (idx t).toInt) (funext fun b => Fin.ext ?_)
  match b with
  | ⟨0, _⟩ => rfl
  | ⟨1, _⟩ => rfl

/-- The only operand axis is inserted: there is no window coordinate. -/
theorem count_window_0 (j : S100000.Idx) :
    scatter_S256_S100000x1_S100000_n_0_0_1.window j 0 = 0 := by
  unfold ScatterDims.window
  rw [dif_neg (show ¬ (0 : Fin S256.rank) ∈ scatter_S256_S100000x1_S100000_n_0_0_1.sKept from
    fun h => absurd (show (0 : Fin S256.rank) ∈ ([] : List (Fin S256.rank)) from h) (List.not_mem_nil))]

/-- Row `j 0`'s one lands at `i` exactly when the row's segment id, read signed, is `i 0`. -/
theorem count_lands (j : S100000.Idx) (idx : IVec S100000x1 32) (i : S256.Idx) :
    scatter_S256_S100000x1_S100000_n_0_0_1.resultIdx? j idx = some i ↔
      (idx (ix2 (j 0) 0)).toInt = ((i 0).val : Int) := by
  have h0 := count_start_0 j idx
  have w0 := count_window_0 j
  have hi0 : (i 0).val < 256 := (i 0).isLt
  have s0 : S256.size 0 = 256 := rfl
  unfold ScatterDims.resultIdx?
  split
  · rename_i h
    have hr := h 0
    rw [h0, w0, s0] at hr
    rw [Option.some.injEq]
    constructor
    · intro hh
      have e0 := congrArg (fun f => (f 0).val) hh
      simp only at e0
      rw [h0, w0] at e0
      omega
    · intro e0
      funext a
      apply Fin.ext
      match a with
      | ⟨0, _⟩ =>
        show (scatter_S256_S100000x1_S100000_n_0_0_1.start j idx 0 + scatter_S256_S100000x1_S100000_n_0_0_1.window j 0).toNat = (i 0).val
        rw [h0, w0]; omega
  · rename_i h
    constructor
    · intro hh; exact absurd hh (by simp)
    · intro e0
      refine absurd (fun a => ?_) h
      match a with
      | ⟨0, _⟩ =>
        show 0 ≤ scatter_S256_S100000x1_S100000_n_0_0_1.start j idx 0 + scatter_S256_S100000x1_S100000_n_0_0_1.window j 0 ∧
          scatter_S256_S100000x1_S100000_n_0_0_1.start j idx 0 + scatter_S256_S100000x1_S100000_n_0_0_1.window j 0 < S256.size 0
        rw [h0, w0, s0]; omega

/-- Entry g of the accumulating count: the operand's entry plus one update per row whose segment id is g. -/
theorem count_sum (x : FVec Ideal S256 .f32) (idx : IVec S100000x1 32) (upd : FVec Ideal S100000 .f32) (g : Fin 256) :
    Ideal.hostScatterAdd scatter_S256_S100000x1_S100000_n_0_0_1 x idx upd (ix1 g) =
      x (ix1 g) + ∑ n : Fin 100000, if (idx (ix2 n 0)).toInt = (g.val : Int) then upd (ix1 n) else 0 := by
  unfold Ideal.hostScatterAdd
  refine congrArg (fun t => x (ix1 g) + t) ?_
  rw [Finset.sum_filter, sum_idx1]
  refine Finset.sum_congr rfl fun n _ => ?_
  simp only [count_lands]

/-! ## The two literal words -/

/-- The f32 word 0x3F800000 is 1. -/
theorem one_f32 : Ideal.ofBits .f32 0x3F800000#32 = 1 := by
  simp [Ideal.ofBits, Ideal.ieee, -EReal.coe_mul]; norm_num

/-! ## The reference's two scatters at an index -/

variable (x0 : FVec Ideal S100000x128 .f32) (x1 : IVec S2x3200000 32) (x2 : IVec S100000 32)
  (x3 : FVec Ideal S128x64 .f32) (x4 x5 x6 : FVec Ideal S64 .f32) (x7 : FVec Ideal S64x64 .f32)
  (x8 x9 x10 : FVec Ideal S64 .f32) (x11 : FVec Ideal S64x64 .f32) (x12 x13 x14 : FVec Ideal S64 .f32)
  (x15 : FVec Ideal S64x64 .f32) (x16 : FVec Ideal S64 .f32)

/-- The ids made a column: entry (n, 0) reads id n. -/
theorem idx_v140 (n : Fin 100000) : Read.idx_main_v140 (ix2 n (0 : Fin 1)) = ix1 n :=
  funext fun a => Fin.ext (by match a with | ⟨0, _⟩ => rfl)
theorem idx_v144 (n : Fin 100000) : Read.idx_main_v144 (ix2 n (0 : Fin 1)) = ix1 n :=
  funext fun a => Fin.ext (by match a with | ⟨0, _⟩ => rfl)

/-- (R3) The segment sums at graph `g`, column `c`: the scatter starts from zeros. -/
theorem val_main_v141_at (g : Fin 256) (c : Fin 64) :
    Read.val_main_v141 (F := Ideal) x0 x1 x2 x3 x4 x5 x6 x7 x8 x9 x10 x11 x12 x13 x14 x15 x16 (ix2 g c)
      = ∑ n : Fin 100000, if (x2 (ix1 n)).toInt = (g.val : ℤ) then Read.val_main_v138 (F := Ideal) x0 x1 x3 x4 x5 x6 x7 x8 x9 x10 x11 x12 x13 x14 x15 x16 (ix2 n c) else 0 := by
  show Ideal.hostScatterAdd scatter_S256x64_S100000x1_S100000x64_1_0_0_1 (Read.val_main_v139 (F := Ideal)) (Read.val_main_v140 (F := Ideal) x2)
      (Read.val_main_v138 (F := Ideal) x0 x1 x3 x4 x5 x6 x7 x8 x9 x10 x11 x12 x13 x14 x15 x16) (ix2 g c) = _
  rw [pool_sum, Read.val_main_v139_apply, Read.val_main_cst_25_apply]
  show Ideal.ofBits .f32 0x00000000#32 + _ = _
  rw [Ideal.ofBits_zero_f32, zero_add]
  refine Finset.sum_congr rfl fun n _ => ?_
  rw [Read.val_main_v140_apply, idx_v140]

/-- (R3) The segment counts at graph `g`: one update of the word for 1.0 per row. -/
theorem val_main_v145_at (g : Fin 256) :
    Read.val_main_v145 (F := Ideal) x2 (ix1 g)
      = ∑ n : Fin 100000, if (x2 (ix1 n)).toInt = (g.val : ℤ) then Ideal.ofBits .f32 0x3F800000#32 else 0 := by
  show Ideal.hostScatterAdd scatter_S256_S100000x1_S100000_n_0_0_1 (Read.val_main_v143 (F := Ideal)) (Read.val_main_v144 (F := Ideal) x2)
      (Read.val_main_v142 (F := Ideal)) (ix1 g) = _
  rw [count_sum, Read.val_main_v143_apply, Read.val_main_cst_27_apply]
  show Ideal.ofBits .f32 0x00000000#32 + _ = _
  rw [Ideal.ofBits_zero_f32, zero_add]
  refine Finset.sum_congr rfl fun n _ => ?_
  rw [Read.val_main_v144_apply, idx_v144, Read.val_main_v142_apply, Read.val_main_cst_26_apply]
  rfl

/-! ## The kernel's pipeline computes this stage -/

/-- The kernel's segment sums are the reference's, when the kernel's id column holds the reference's ids and its
    rows are the reference's normalised embedding. -/
theorem stage3_sums_eq (bA : IVec Cert.KernelIdeal.S100000x1 32) (eA : FVec Ideal Cert.KernelIdeal.S100000x64 .f32)
    (hb : ∀ n : Fin 100000, bA (ix2 n (0 : Fin 1)) = x2 (ix1 n))
    (he : eA = Read.val_main_v138 (F := Ideal) x0 x1 x3 x4 x5 x6 x7 x8 x9 x10 x11 x12 x13 x14 x15 x16) :
    Cert.KernelIdeal.Hand.sums3 bA eA = Read.val_main_v141 (F := Ideal) x0 x1 x2 x3 x4 x5 x6 x7 x8 x9 x10 x11 x12 x13 x14 x15 x16 := by
  subst he
  funext i
  obtain ⟨g, c, rfl⟩ : ∃ (g : Fin 256) (c : Fin 64), i = ix2 g c := ⟨i 0, i 1, eq_ix2 i⟩
  rw [Cert.KernelIdeal.Hand.sums3_apply, val_main_v141_at]
  refine Finset.sum_congr rfl fun n _ => ?_
  rw [hb n]

/-- The kernel's count column at (g, 0) is the reference's count vector at g. -/
theorem stage3_counts_eq (bA : IVec Cert.KernelIdeal.S100000x1 32)
    (hb : ∀ n : Fin 100000, bA (ix2 n (0 : Fin 1)) = x2 (ix1 n)) (g : Fin 256) :
    Cert.KernelIdeal.Hand.counts3 bA (ix2 g (0 : Fin 1)) = Read.val_main_v145 (F := Ideal) x2 (ix1 g) := by
  rw [Cert.KernelIdeal.Hand.counts3_apply, val_main_v145_at, one_f32]
  refine Finset.sum_congr rfl fun n _ => ?_
  rw [hb n]

end Cert.Proof.Stage3

end
-- ==== Proof.Bridge.lean ====
/- The kernel's stages against the reference's, at the ideal reading of floats.
   With x_i the i-th argument array of the launch: the array each region or host stretch of the kernel leaves is
   the reference's stage of the same arguments,
     region 0  =  x · w1,          then one propagation step of the normalised adjacency,
     region 1  =  relu(bn(· + b1)) · w2,   then the second propagation step,
     region 2  =  the projection head and the row normalisation  (the first result),
     region 3  =  the per-graph sums and counts,  then the mean per graph, normalised  (the second result).
   Each stage equality takes the previous one as a hypothesis, for any family `outs` of region outputs; the last
   lemma puts the two runs side by side. -/
import proofs.«421031_j46042049413263_1_alg».proof.Defs
import proofs.«421031_j46042049413263_1_alg».proof.Proof.Gen.Pre_finite_inputs
import proofs.«421031_j46042049413263_1_alg».proof.Proof.KI.Val0
import proofs.«421031_j46042049413263_1_alg».proof.Proof.KI.HostStages
import proofs.«421031_j46042049413263_1_alg».proof.Proof.RefRead
import proofs.«421031_j46042049413263_1_alg».proof.Proof.KI.Val1
import proofs.«421031_j46042049413263_1_alg».proof.Proof.Ref.HostChain
import proofs.«421031_j46042049413263_1_alg».proof.Proof.Ref.R1
import proofs.«421031_j46042049413263_1_alg».proof.Proof.KI.Val2
import proofs.«421031_j46042049413263_1_alg».proof.Proof.KI.Val3
import proofs.«421031_j46042049413263_1_alg».proof.Proof.Ref.R2
import proofs.«421031_j46042049413263_1_alg».proof.Proof.Ref.R3
import proofs.«421031_j46042049413263_1_alg».proof.Proof.RefSide

set_option maxRecDepth 16384

noncomputable section

namespace Cert.Proof.Bridge

open Idealize.ShloMosaic Idealize.ShloMosaic.TcCoe Idealize.SL.Sem Idealize.ShloMosaic.ValueIdx
open Cert.KernelIdeal Cert.KernelIdeal.Gen Cert.KernelIdeal.Hand Cert.KernelIdeal.HandValue
open Cert.ReferenceIdeal.Read (val_main_v15 val_main_v43 val_main_v69 val_main_v97 val_main_v138 val_main_v141 val_main_v145
  val_main_v158 val_main_v15_apply lidx_main_v15 ridx_main_v15 val_main_v138_eq val_main_v158_eq)

variable (m : (ℓ : Loc nD τ sig) → Buf (Elt Ideal) ℓ) (c : Dev nD)

/-! ## The launch's argument arrays, typed by their shapes -/

abbrev x0 : (⟨S100000x128, .f32⟩ : BufTy).Contents (Elt Ideal) := m ((c : Thread nD τ).loc main_arg0)
abbrev x1 : (⟨S2x3200000, .i32⟩ : BufTy).Contents (Elt Ideal) := m ((c : Thread nD τ).loc main_arg1)
abbrev x2 : (⟨S100000, .i32⟩ : BufTy).Contents (Elt Ideal) := m ((c : Thread nD τ).loc main_arg2)
abbrev x3 : (⟨S128x64, .f32⟩ : BufTy).Contents (Elt Ideal) := m ((c : Thread nD τ).loc main_arg3)
abbrev x4 : (⟨S64, .f32⟩ : BufTy).Contents (Elt Ideal) := m ((c : Thread nD τ).loc main_arg4)
abbrev x5 : (⟨S64, .f32⟩ : BufTy).Contents (Elt Ideal) := m ((c : Thread nD τ).loc main_arg5)
abbrev x6 : (⟨S64, .f32⟩ : BufTy).Contents (Elt Ideal) := m ((c : Thread nD τ).loc main_arg6)
abbrev x7 : (⟨S64x64, .f32⟩ : BufTy).Contents (Elt Ideal) := m ((c : Thread nD τ).loc main_arg7)
abbrev x8 : (⟨S64, .f32⟩ : BufTy).Contents (Elt Ideal) := m ((c : Thread nD τ).loc main_arg8)
abbrev x9 : (⟨S64, .f32⟩ : BufTy).Contents (Elt Ideal) := m ((c : Thread nD τ).loc main_arg9)
abbrev x10 : (⟨S64, .f32⟩ : BufTy).Contents (Elt Ideal) := m ((c : Thread nD τ).loc main_arg10)
abbrev x11 : (⟨S64x64, .f32⟩ : BufTy).Contents (Elt Ideal) := m ((c : Thread nD τ).loc main_arg11)
abbrev x12 : (⟨S64, .f32⟩ : BufTy).Contents (Elt Ideal) := m ((c : Thread nD τ).loc main_arg12)
abbrev x13 : (⟨S64, .f32⟩ : BufTy).Contents (Elt Ideal) := m ((c : Thread nD τ).loc main_arg13)
abbrev x14 : (⟨S64, .f32⟩ : BufTy).Contents (Elt Ideal) := m ((c : Thread nD τ).loc main_arg14)
abbrev x15 : (⟨S64x64, .f32⟩ : BufTy).Contents (Elt Ideal) := m ((c : Thread nD τ).loc main_arg15)
abbrev x16 : (⟨S64, .f32⟩ : BufTy).Contents (Elt Ideal) := m ((c : Thread nD τ).loc main_arg16)

/-! ## Region 0: the first matrix product -/

/-- The entry-by-entry product is the reference's `dot_general` of the same two arrays: both are, at entry (i, l),
    the sum over k of a (i, k) · b (k, l). -/
theorem prod0_eq_dot (a : (⟨S100000x128, .f32⟩ : BufTy).Contents (Elt Ideal)) (b : (⟨S128x64, .f32⟩ : BufTy).Contents (Elt Ideal)) :
    prod0 a b = val_main_v15 (F := Ideal) a b := by
  funext j
  obtain ⟨i, l, rfl⟩ : ∃ (i : Fin 100000) (l : Fin 64), j = ix2 i l := ⟨j 0, j 1, eq_ix2 j⟩
  rw [prod0_apply, val_main_v15_apply]
  refine Finset.sum_congr rfl fun k _ => ?_
  have hl : lidx_main_v15 (ix2 i l) k = ix2 i k := funext fun a => by match a with | ⟨0, _⟩ => rfl | ⟨1, _⟩ => rfl
  have hr : ridx_main_v15 (ix2 i l) k = ix2 k l := funext fun a => by match a with | ⟨0, _⟩ => rfl | ⟨1, _⟩ => rfl
  rw [hl, hr]

variable (outs : Outs (F := Ideal))

/-- B0. Region 0 leaves x · w1. -/
theorem B0 (h3 : outs 3 main_v15 c = (dat0 (fun c b => V2 m c b) c).arrAt 2 cfg0.N) :
    outs 3 main_v15 c = val_main_v15 (F := Ideal) (x0 m c) (x3 m c) := by
  rw [h3, arrAt0_2, V2_main_arg0, V2_main_arg3]
  exact prod0_eq_dot _ _

/-- B1. The first propagation step of the kernel is the reference's, given region 0's array. -/
theorem B1 (h : outs 3 main_v15 c = val_main_v15 (F := Ideal) (x0 m c) (x3 m c)) :
    V4 m outs c main_v43 = val_main_v43 (F := Ideal) (x0 m c) (x1 m c) (x3 m c) := by
  rw [V4_main_v43, h, HostChain.val_v43]
  unfold srcL dstL dinv
  rfl

/-- A vector laid as a 1 × 64 row is read at (0, k) where the vector is read at k. -/
theorem row_apply (v : FVec Ideal S64 .f32) (k : Fin 64) : row v (ix2 (0 : Fin 1) k) = v (ix1 k) := by
  unfold row
  exact (shapeCast_addUnit_apply ![64] v shapeCasts_S64_S1x64 (ix2 (0 : Fin 1) k)).trans
    (congrArg v (funext fun a => by match a with | ⟨0, _⟩ => rfl))

/-- The batch-norm scale at feature k: g k over the square root of the constant 1 + ε. -/
theorem bnScale_apply (g : FVec Ideal S64 .f32) (k : Fin 64) :
    bnScale g (ix1 k) = Ideal.div (g (ix1 k)) (Ideal.sqrt (Ideal.ofBits FTy.f32 0x3F800054#32)) := rfl

/-- B2. Region 1 leaves relu(bn(out1 + b1)) · w2, given the first propagation step. -/
theorem B2 (h5 : outs 5 main_v51 c = (dat1 (fun c b => V4 m outs c b) c).arrAt 5 cfg1.N)
    (h : V4 m outs c main_v43 = val_main_v43 (F := Ideal) (x0 m c) (x1 m c) (x3 m c)) :
    outs 5 main_v51 c = val_main_v69 (F := Ideal) (x0 m c) (x1 m c) (x3 m c) (x4 m c) (x5 m c) (x6 m c) (x7 m c) := by
  rw [h5, arr1_5_eq, V4_main_v48, V4_main_v49, V4_main_v50, V4_main_arg7]
  exact Stage1.stage1_eq (x0 m c) (x1 m c) (x3 m c) (x4 m c) (x5 m c) (x6 m c) (x7 m c) _ _ _ _ _ h
    (fun k => row_apply _ k) (fun k => (row_apply _ k).trans (bnScale_apply _ k)) (fun k => row_apply _ k) rfl

/-- B3. The second propagation step, given region 1's array. -/
theorem B3 (h : outs 5 main_v51 c = val_main_v69 (F := Ideal) (x0 m c) (x1 m c) (x3 m c) (x4 m c) (x5 m c) (x6 m c) (x7 m c)) :
    V6 m outs c main_v79 = val_main_v97 (F := Ideal) (x0 m c) (x1 m c) (x3 m c) (x4 m c) (x5 m c) (x6 m c) (x7 m c) := by
  rw [V6_main_v79, h, HostChain.val_v97]
  unfold srcL dstL dinv
  rfl

/-- Region 2's function of its ten arrays is the reference's first result, when the first array is the second
    propagation step and the nine others are the parameters laid as the host stretch lays them: the reference's
    four stages (first layer, second layer, last product plus bias, row normalisation) are the four stage
    equations, and each 1 × 64 row holds at (0, k) what the reference reads at k. -/
theorem stage2_eq :
    r2Arr (val_main_v97 (F := Ideal) (x0 m c) (x1 m c) (x3 m c) (x4 m c) (x5 m c) (x6 m c) (x7 m c)) (row (x8 m c)) (row (bnScale (x9 m c))) (row (x10 m c)) (x11 m c) (row (x12 m c)) (row (bnScale (x13 m c))) (row (x14 m c)) (x15 m c) (row (x16 m c))
      = val_main_v138 (F := Ideal) (x0 m c) (x1 m c) (x3 m c) (x4 m c) (x5 m c) (x6 m c) (x7 m c) (x8 m c) (x9 m c) (x10 m c) (x11 m c) (x12 m c) (x13 m c) (x14 m c) (x15 m c) (x16 m c) :=
  Stage2.r2Arr_eq_of_stages _ _ _ _ _ _ _ _ _ _
    (fun k => x8 m c (ix1 k)) (fun k => Ideal.div (x9 m c (ix1 k)) (Ideal.sqrt (Ideal.ofBits FTy.f32 0x3F800054#32))) (fun k => x10 m c (ix1 k))
    (fun k => x12 m c (ix1 k)) (fun k => Ideal.div (x13 m c (ix1 k)) (Ideal.sqrt (Ideal.ofBits FTy.f32 0x3F800054#32))) (fun k => x14 m c (ix1 k))
    (fun k => x16 m c (ix1 k))
    (fun k => row_apply _ k) (fun k => (row_apply _ k).trans (bnScale_apply _ k)) (fun k => row_apply _ k)
    (fun k => row_apply _ k) (fun k => (row_apply _ k).trans (bnScale_apply _ k)) (fun k => row_apply _ k)
    (fun k => row_apply _ k)
    (Cert.ReferenceIdeal.Read.val_main_v111 (F := Ideal) (x0 m c) (x1 m c) (x3 m c) (x4 m c) (x5 m c) (x6 m c) (x7 m c) (x8 m c) (x9 m c) (x10 m c))
    (Cert.ReferenceIdeal.Read.val_main_v126 (F := Ideal) (x0 m c) (x1 m c) (x3 m c) (x4 m c) (x5 m c) (x6 m c) (x7 m c) (x8 m c) (x9 m c) (x10 m c) (x11 m c) (x12 m c) (x13 m c) (x14 m c))
    (Cert.ReferenceIdeal.Read.val_main_v130 (F := Ideal) (x0 m c) (x1 m c) (x3 m c) (x4 m c) (x5 m c) (x6 m c) (x7 m c) (x8 m c) (x9 m c) (x10 m c) (x11 m c) (x12 m c) (x13 m c) (x14 m c) (x15 m c) (x16 m c))
    (val_main_v138 (F := Ideal) (x0 m c) (x1 m c) (x3 m c) (x4 m c) (x5 m c) (x6 m c) (x7 m c) (x8 m c) (x9 m c) (x10 m c) (x11 m c) (x12 m c) (x13 m c) (x14 m c) (x15 m c) (x16 m c))
    (fun i k => Cert.ReferenceIdeal.RefValue.h2_apply (x0 m c) (x1 m c) (x3 m c) (x4 m c) (x5 m c) (x6 m c) (x7 m c) (x8 m c) (x9 m c) (x10 m c) i k)
    (fun i k => Cert.ReferenceIdeal.RefValue.p1_apply (x0 m c) (x1 m c) (x3 m c) (x4 m c) (x5 m c) (x6 m c) (x7 m c) (x8 m c) (x9 m c) (x10 m c) (x11 m c) (x12 m c) (x13 m c) (x14 m c) i k)
    (fun i l => Cert.ReferenceIdeal.RefValue.z_apply (x0 m c) (x1 m c) (x3 m c) (x4 m c) (x5 m c) (x6 m c) (x7 m c) (x8 m c) (x9 m c) (x10 m c) (x11 m c) (x12 m c) (x13 m c) (x14 m c) (x15 m c) (x16 m c) i l)
    (fun i l => Cert.ReferenceIdeal.RefValue.normalised_apply (x0 m c) (x1 m c) (x3 m c) (x4 m c) (x5 m c) (x6 m c) (x7 m c) (x8 m c) (x9 m c) (x10 m c) (x11 m c) (x12 m c) (x13 m c) (x14 m c) (x15 m c) (x16 m c) i l)

/-- B4. Region 2 leaves the first result, given the second propagation step. -/
theorem B4 (h7 : outs 7 main_v95 c = (dat2 (fun c b => V6 m outs c b) c).arrAt 10 cfg2.N)
    (h : V6 m outs c main_v79 = val_main_v97 (F := Ideal) (x0 m c) (x1 m c) (x3 m c) (x4 m c) (x5 m c) (x6 m c) (x7 m c)) :
    outs 7 main_v95 c = val_main_v138 (F := Ideal) (x0 m c) (x1 m c) (x3 m c) (x4 m c) (x5 m c) (x6 m c) (x7 m c) (x8 m c) (x9 m c) (x10 m c) (x11 m c) (x12 m c) (x13 m c) (x14 m c) (x15 m c) (x16 m c) := by
  rw [h7, final2, h, V6_main_v88, V6_main_v89, V6_main_v90, V6_main_arg11, V6_main_v91, V6_main_v92, V6_main_v93, V6_main_arg15, V6_main_v94]
  exact stage2_eq m c

/-- The graph indices laid as a 100000 × 1 column are read at (n, 0) where the vector is read at n. -/
theorem graphCol_apply (b : IVec S100000 32) (n : Fin 100000) : graphCol b (ix2 n (0 : Fin 1)) = b (ix1 n) := by
  unfold graphCol
  exact shapeCast_a_a1_apply b _ n 0

/-- B5. Region 3 leaves the per-graph sums of the first result's rows, -/
theorem B5_sums (h9 : outs 9 main_v97_0 c = (dat3 (fun c b => V8 m outs c b) c).arrAt 2 cfg3.N)
    (h : outs 7 main_v95 c = val_main_v138 (F := Ideal) (x0 m c) (x1 m c) (x3 m c) (x4 m c) (x5 m c) (x6 m c) (x7 m c) (x8 m c) (x9 m c) (x10 m c) (x11 m c) (x12 m c) (x13 m c) (x14 m c) (x15 m c) (x16 m c)) :
    outs 9 main_v97_0 c = val_main_v141 (F := Ideal) (x0 m c) (x1 m c) (x2 m c) (x3 m c) (x4 m c) (x5 m c) (x6 m c) (x7 m c) (x8 m c) (x9 m c) (x10 m c) (x11 m c) (x12 m c) (x13 m c) (x14 m c) (x15 m c) (x16 m c) := by
  rw [h9, arrAt3_2]
  show sums3 (V8 m outs c main_v96) (V8 m outs c main_v95) = _
  rw [V8_main_v96, V8_main_v95, h]
  exact Stage3.stage3_sums_eq (x0 m c) (x1 m c) (x2 m c) (x3 m c) (x4 m c) (x5 m c) (x6 m c) (x7 m c) (x8 m c) (x9 m c) (x10 m c) (x11 m c) (x12 m c) (x13 m c) (x14 m c) (x15 m c) (x16 m c) _ _ (fun n => graphCol_apply _ n) rfl

/-- and the per-graph node counts, as a column where the reference has a vector. -/
theorem B5_counts (h9 : outs 9 main_v97_1 c = (dat3 (fun c b => V8 m outs c b) c).arrAt 3 cfg3.N) (g : Fin 256) :
    (outs 9 main_v97_1 c : (⟨S256x1, .f32⟩ : BufTy).Contents (Elt Ideal)) (ix2 g 0) = val_main_v145 (F := Ideal) (x2 m c) (ix1 g) := by
  rw [h9, arrAt3_3]
  show counts3 (V8 m outs c main_v96) (ix2 g 0) = _
  rw [V8_main_v96]
  exact Stage3.stage3_counts_eq (x2 m c) _ (fun n => graphCol_apply _ n) g

/-- B6. The readout of those sums and counts is the second result. -/
theorem B6 (hs : outs 9 main_v97_0 c = val_main_v141 (F := Ideal) (x0 m c) (x1 m c) (x2 m c) (x3 m c) (x4 m c) (x5 m c) (x6 m c) (x7 m c) (x8 m c) (x9 m c) (x10 m c) (x11 m c) (x12 m c) (x13 m c) (x14 m c) (x15 m c) (x16 m c))
    (hc : ∀ g : Fin 256, (outs 9 main_v97_1 c : (⟨S256x1, .f32⟩ : BufTy).Contents (Elt Ideal)) (ix2 g 0) = val_main_v145 (F := Ideal) (x2 m c) (ix1 g)) :
    V10 m outs c main_v109 = val_main_v158 (F := Ideal) (x0 m c) (x1 m c) (x2 m c) (x3 m c) (x4 m c) (x5 m c) (x6 m c) (x7 m c) (x8 m c) (x9 m c) (x10 m c) (x11 m c) (x12 m c) (x13 m c) (x14 m c) (x15 m c) (x16 m c) := by
  rw [V10_main_v109, hs]
  exact (HostChain.val_v158 (x0 m c) (x1 m c) (x2 m c) (x3 m c) (x4 m c) (x5 m c) (x6 m c) (x7 m c) (x8 m c) (x9 m c) (x10 m c) (x11 m c) (x12 m c) (x13 m c) (x14 m c) (x15 m c) (x16 m c) (outs 9 main_v97_1 c) hc).symm

/-! ## The chain -/

/-- The two results, from the equations that say what each region's output array is: the stages composed in
    program order. -/
theorem results_of
    (h3 : outs 3 main_v15 c = (dat0 (fun c b => V2 m c b) c).arrAt 2 cfg0.N)
    (h5 : outs 5 main_v51 c = (dat1 (fun c b => V4 m outs c b) c).arrAt 5 cfg1.N)
    (h7 : outs 7 main_v95 c = (dat2 (fun c b => V6 m outs c b) c).arrAt 10 cfg2.N)
    (h9 : outs 9 main_v97_0 c = (dat3 (fun c b => V8 m outs c b) c).arrAt 2 cfg3.N)
    (h9' : outs 9 main_v97_1 c = (dat3 (fun c b => V8 m outs c b) c).arrAt 3 cfg3.N) :
    V10 m outs c main_v95 = val_main_v138 (F := Ideal) (x0 m c) (x1 m c) (x3 m c) (x4 m c) (x5 m c) (x6 m c) (x7 m c) (x8 m c) (x9 m c) (x10 m c) (x11 m c) (x12 m c) (x13 m c) (x14 m c) (x15 m c) (x16 m c)
    ∧ V10 m outs c main_v109 = val_main_v158 (F := Ideal) (x0 m c) (x1 m c) (x2 m c) (x3 m c) (x4 m c) (x5 m c) (x6 m c) (x7 m c) (x8 m c) (x9 m c) (x10 m c) (x11 m c) (x12 m c) (x13 m c) (x14 m c) (x15 m c) (x16 m c) := by
  have b0 := B0 m c outs h3
  have b1 := B1 m c outs b0
  have b2 := B2 m c outs h5 b1
  have b3 := B3 m c outs b2
  have b4 := B4 m c outs h7 b3
  have b5 := B5_sums m c outs h9 b4
  exact ⟨(V10_main_v95 m outs c).trans b4, B6 m c outs b5 (B5_counts m c outs h9')⟩

/-! ## The two runs side by side -/

/-- An unscoped TensorCore buffer is among those the run's last state names. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- From a run of the kernel that ends with every unscoped buffer at `V10` of some region outputs, and the two
    result equations, the two programs — run from memories agreeing on the arguments — end with equal results and
    unchanged arguments: the common results are the reference's two last stages of the kernel's arguments. -/
theorem algebraic_of (outs : ((ℓ : Loc nD τ sig) → Buf (Elt Ideal) ℓ) → Outs (F := Ideal))
    (hrun : ∀ (m : (ℓ : Loc nD τ sig) → Buf (Elt Ideal) ℓ) (ρ : Dev nD → PrngReg),
      θ_run defs (onTc (τ := τ) (main (F := Ideal))) ⟨m, fun _ => 0, ρ⟩
        (fun r => ∀ c : Dev nD, ∀ b ∈ Pipeline.ucRefs τ sig, r.2.mem ((c : Thread nD τ).1, b) = V10 m (outs m) c b))
    (h0 : ∀ m c, V10 m (outs m) c main_v95 = val_main_v138 (F := Ideal) (x0 m c) (x1 m c) (x3 m c) (x4 m c) (x5 m c) (x6 m c) (x7 m c) (x8 m c) (x9 m c) (x10 m c) (x11 m c) (x12 m c) (x13 m c) (x14 m c) (x15 m c) (x16 m c))
    (h1 : ∀ m c, V10 m (outs m) c main_v109 = val_main_v158 (F := Ideal) (x0 m c) (x1 m c) (x2 m c) (x3 m c) (x4 m c) (x5 m c) (x6 m c) (x7 m c) (x8 m c) (x9 m c) (x10 m c) (x11 m c) (x12 m c) (x13 m c) (x14 m c) (x15 m c) (x16 m c)) :
    Cert.algebraic_KernelIdeal_ReferenceIdeal := by
  intro m g m' g' _ hargs
  refine ⟨fun c => val_main_v138 (F := Ideal) (x0 m c) (x1 m c) (x3 m c) (x4 m c) (x5 m c) (x6 m c) (x7 m c) (x8 m c) (x9 m c) (x10 m c) (x11 m c) (x12 m c) (x13 m c) (x14 m c) (x15 m c) (x16 m c), fun c => val_main_v158 (F := Ideal) (x0 m c) (x1 m c) (x2 m c) (x3 m c) (x4 m c) (x5 m c) (x6 m c) (x7 m c) (x8 m c) (x9 m c) (x10 m c) (x11 m c) (x12 m c) (x13 m c) (x14 m c) (x15 m c) (x16 m c), ?_, ?_⟩
  · exact (θ_run _ _ _).mono (fun r h c => ⟨(h c _ (mem_uc main_v95 (by decide))).trans (h0 m c),
      (h c _ (mem_uc main_v109 (by decide))).trans (h1 m c),
      (h c _ (mem_uc main_arg0 (by decide))).trans (V10_main_arg0 m (outs m) c),
      (h c _ (mem_uc main_arg1 (by decide))).trans (V10_main_arg1 m (outs m) c),
      (h c _ (mem_uc main_arg2 (by decide))).trans (V10_main_arg2 m (outs m) c),
      (h c _ (mem_uc main_arg3 (by decide))).trans (V10_main_arg3 m (outs m) c),
      (h c _ (mem_uc main_arg4 (by decide))).trans (V10_main_arg4 m (outs m) c),
      (h c _ (mem_uc main_arg5 (by decide))).trans (V10_main_arg5 m (outs m) c),
      (h c _ (mem_uc main_arg6 (by decide))).trans (V10_main_arg6 m (outs m) c),
      (h c _ (mem_uc main_arg7 (by decide))).trans (V10_main_arg7 m (outs m) c),
      (h c _ (mem_uc main_arg8 (by decide))).trans (V10_main_arg8 m (outs m) c),
      (h c _ (mem_uc main_arg9 (by decide))).trans (V10_main_arg9 m (outs m) c),
      (h c _ (mem_uc main_arg10 (by decide))).trans (V10_main_arg10 m (outs m) c),
      (h c _ (mem_uc main_arg11 (by decide))).trans (V10_main_arg11 m (outs m) c),
      (h c _ (mem_uc main_arg12 (by decide))).trans (V10_main_arg12 m (outs m) c),
      (h c _ (mem_uc main_arg13 (by decide))).trans (V10_main_arg13 m (outs m) c),
      (h c _ (mem_uc main_arg14 (by decide))).trans (V10_main_arg14 m (outs m) c),
      (h c _ (mem_uc main_arg15 (by decide))).trans (V10_main_arg15 m (outs m) c),
      (h c _ (mem_uc main_arg16 (by decide))).trans (V10_main_arg16 m (outs m) c)⟩) (hrun m g)
  · refine (θ_run _ _ _).mono (fun r h c => ⟨(h c).1.trans ?_, (h c).2.1.trans ?_, (h c).2.2⟩) (Cert.ReferenceIdeal.Value.run m' g')
    · obtain ⟨e0, e1, e2, e3, e4, e5, e6, e7, e8, e9, e10, e11, e12, e13, e14, e15, e16⟩ := hargs c
      rw [val_main_v138_eq, e0, e1, e3, e4, e5, e6, e7, e8, e9, e10, e11, e12, e13, e14, e15, e16]
    · obtain ⟨e0, e1, e2, e3, e4, e5, e6, e7, e8, e9, e10, e11, e12, e13, e14, e15, e16⟩ := hargs c
      rw [val_main_v158_eq, e0, e1, e2, e3, e4, e5, e6, e7, e8, e9, e10, e11, e12, e13, e14, e15, e16]

end Cert.Proof.Bridge

end
-- ==== Proof.lean ====
/- The certificate's claims for the two-layer graph convolution with its projection head and mean readout.
   The frames: each program runs to the end and leaves its seventeen arguments as launched. The idealisation
   rewrote no operation. The algebraic claim: the kernel's four pipelined regions and the host stretches between
   them compute, stage by stage, what the reference computes —
     x · w1;  one propagation step;  relu(bn(· + b1)) · w2;  the second propagation step;
     the projection head with its row normalisation (first result);
     the per-graph sums and counts, their mean, normalised row by row (second result). -/
import proofs.«421031_j46042049413263_1_alg».proof.Defs
import proofs.«421031_j46042049413263_1_alg».proof.Proof.Gen.Kernel
import proofs.«421031_j46042049413263_1_alg».proof.Proof.Gen.KernelIdeal
import proofs.«421031_j46042049413263_1_alg».proof.Proof.Gen.ReferenceIdeal
import proofs.«421031_j46042049413263_1_alg».proof.Proof.Gen.Pre_finite_inputs
import proofs.«421031_j46042049413263_1_alg».proof.Proof.Frames
import proofs.«421031_j46042049413263_1_alg».proof.Proof.KI.Run
import proofs.«421031_j46042049413263_1_alg».proof.Proof.Bridge

noncomputable section

namespace Cert.Proof

open Idealize.ShloMosaic Idealize.SL.Sem

/-- Both programs, from memories agreeing on the seventeen arguments, run to the end with the same two results
    and unchanged arguments: the kernel's run names every unscoped buffer's final contents, the chain of stage
    equalities turns the two result buffers into the reference's last two stages, and the reference's run names
    those stages itself. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) :=
  Bridge.algebraic_of (fun m => Cert.KernelIdeal.Hand.outs m) (fun m ρ => Cert.KernelIdeal.Hand.run_all m ρ)
    (fun m c => (Bridge.results_of m c (Cert.KernelIdeal.Hand.outs m) (Cert.KernelIdeal.Hand.outs_3 m c) (Cert.KernelIdeal.Hand.outs_5' m c) (Cert.KernelIdeal.Hand.outs_7' m c) (Cert.KernelIdeal.Hand.outs_9_0' m c) (Cert.KernelIdeal.Hand.outs_9_1' m c)).1)
    (fun m c => (Bridge.results_of m c (Cert.KernelIdeal.Hand.outs m) (Cert.KernelIdeal.Hand.outs_3 m c) (Cert.KernelIdeal.Hand.outs_5' m c) (Cert.KernelIdeal.Hand.outs_7' m c) (Cert.KernelIdeal.Hand.outs_9_0' m c) (Cert.KernelIdeal.Hand.outs_9_1' m c)).2)

/-- The certificate: the three frames, the (empty) idealisation ledger, and the algebraic claim. -/
theorem claim : Cert.Claim :=
  ⟨Cert.Kernel.Gen.facts, Cert.KernelIdeal.Gen.facts, Cert.ReferenceIdeal.Gen.facts, Cert.Pre_finite_inputs.Gen.facts,
    Frames.frame_k, Frames.frame_ki, Frames.frame_ri, trivial, algebraic⟩

end Cert.Proof

end
